-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel

variable [Facts]

def fn {F : FTy → Type} [FloatOps F] (main_arg0 : FVec F S1024x8192 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  main_v3
-- ==== Kernel.lean ====
abbrev S1024x512 : Shape := ⟨2, ![1024, 512]⟩
abbrev S1x1024 : Shape := ⟨2, ![1, 1024]⟩
abbrev S16x1x1024 : Shape := ⟨3, ![16, 1, 1024]⟩
abbrev S16 : Shape := ⟨1, ![16]⟩
abbrev S_ : Shape := ⟨0, ![]⟩
abbrev S1024 : Shape := ⟨1, ![1024]⟩
abbrev S1x1x1024 : Shape := ⟨3, ![1, 1, 1024]⟩
abbrev S1 : Shape := ⟨1, ![1]⟩
abbrev S16x1024 : Shape := ⟨2, ![16, 1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x1024, .f32⟩
  | .local _ .vmem, ⟨3, _⟩ => ⟨S16x1x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_163 : BitVec 32 := 0#32
  let c0_i32_161 : BitVec 32 := 0#32
  let c1_i32_162 : BitVec 32 := 1#32
  let v263 : BitVec 32 := Scalar.muli c0_i32_161 c1_i32_162
  let v264 : BitVec 32 := Scalar.addi c0_i32_163 v263
  v264.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_163 : BitVec 32 := 0#32
  let c1_i32_161 : BitVec 32 := 1#32
  let c1_i32_162 : BitVec 32 := 1#32
  let v263 : BitVec 32 := Scalar.muli c1_i32_161 c1_i32_162
  let v264 : BitVec 32 := Scalar.addi c0_i32_163 v263
  v264.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_163 : BitVec 32 := 0#32
  let c2_i32_161 : BitVec 32 := 2#32
  let c1_i32_162 : BitVec 32 := 1#32
  let v263 : BitVec 32 := Scalar.muli c2_i32_161 c1_i32_162
  let v264 : BitVec 32 := Scalar.addi c0_i32_163 v263
  v264.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_163 : BitVec 32 := 0#32
  let c3_i32_161 : BitVec 32 := 3#32
  let c1_i32_162 : BitVec 32 := 1#32
  let v263 : BitVec 32 := Scalar.muli c3_i32_161 c1_i32_162
  let v264 : BitVec 32 := Scalar.addi c0_i32_163 v263
  v264.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_163 : BitVec 32 := 0#32
  let c4_i32_161 : BitVec 32 := 4#32
  let c1_i32_162 : BitVec 32 := 1#32
  let v263 : BitVec 32 := Scalar.muli c4_i32_161 c1_i32_162
  let v264 : BitVec 32 := Scalar.addi c0_i32_163 v263
  v264.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_163 : BitVec 32 := 0#32
  let c5_i32_161 : BitVec 32 := 5#32
  let c1_i32_162 : BitVec 32 := 1#32
  let v263 : BitVec 32 := Scalar.muli c5_i32_161 c1_i32_162
  let v264 : BitVec 32 := Scalar.addi c0_i32_163 v263
  v264.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_163 : BitVec 32 := 0#32
  let c6_i32_161 : BitVec 32 := 6#32
  let c1_i32_162 : BitVec 32 := 1#32
  let v263 : BitVec 32 := Scalar.muli c6_i32_161 c1_i32_162
  let v264 : BitVec 32 := Scalar.addi c0_i32_163 v263
  v264.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_163 : BitVec 32 := 0#32
  let c7_i32_161 : BitVec 32 := 7#32
  let c1_i32_162 : BitVec 32 := 1#32
  let v263 : BitVec 32 := Scalar.muli c7_i32_161 c1_i32_162
  let v264 : BitVec 32 := Scalar.addi c0_i32_163 v263
  v264.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_163 : BitVec 32 := 0#32
  let c8_i32_161 : BitVec 32 := 8#32
  let c1_i32_162 : BitVec 32 := 1#32
  let v263 : BitVec 32 := Scalar.muli c8_i32_161 c1_i32_162
  let v264 : BitVec 32 := Scalar.addi c0_i32_163 v263
  v264.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_163 : BitVec 32 := 0#32
  let c9_i32_161 : BitVec 32 := 9#32
  let c1_i32_162 : BitVec 32 := 1#32
  let v263 : BitVec 32 := Scalar.muli c9_i32_161 c1_i32_162
  let v264 : BitVec 32 := Scalar.addi c0_i32_163 v263
  v264.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_163 : BitVec 32 := 0#32
  let c10_i32_161 : BitVec 32 := 10#32
  let c1_i32_162 : BitVec 32 := 1#32
  let v263 : BitVec 32 := Scalar.muli c10_i32_161 c1_i32_162
  let v264 : BitVec 32 := Scalar.addi c0_i32_163 v263
  v264.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_163 : BitVec 32 := 0#32
  let c11_i32_161 : BitVec 32 := 11#32
  let c1_i32_162 : BitVec 32 := 1#32
  let v263 : BitVec 32 := Scalar.muli c11_i32_161 c1_i32_162
  let v264 : BitVec 32 := Scalar.addi c0_i32_163 v263
  v264.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_163 : BitVec 32 := 0#32
  let c12_i32_161 : BitVec 32 := 12#32
  let c1_i32_162 : BitVec 32 := 1#32
  let v263 : BitVec 32 := Scalar.muli c12_i32_161 c1_i32_162
  let v264 : BitVec 32 := Scalar.addi c0_i32_163 v263
  v264.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_163 : BitVec 32 := 0#32
  let c13_i32_161 : BitVec 32 := 13#32
  let c1_i32_162 : BitVec 32 := 1#32
  let v263 : BitVec 32 := Scalar.muli c13_i32_161 c1_i32_162
  let v264 : BitVec 32 := Scalar.addi c0_i32_163 v263
  v264.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_163 : BitVec 32 := 0#32
  let c14_i32_161 : BitVec 32 := 14#32
  let c1_i32_162 : BitVec 32 := 1#32
  let v263 : BitVec 32 := Scalar.muli c14_i32_161 c1_i32_162
  let v264 : BitVec 32 := Scalar.addi c0_i32_163 v263
  v264.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_163 : BitVec 32 := 0#32
  let c15_i32_161 : BitVec 32 := 15#32
  let c1_i32_162 : BitVec 32 := 1#32
  let v263 : BitVec 32 := Scalar.muli c15_i32_161 c1_i32_162
  let v264 : BitVec 32 := Scalar.addi c0_i32_163 v263
  v264.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_53 : BitVec 32 := 0#32
  let v107 : BitVec 1 := Scalar.cmpi .ne v2 c0_i32_53
  let v108 : BitVec 32 := Scalar.extui v107
  let c0_i32_54 : BitVec 32 := 0#32
  let v109 : BitVec 1 := Scalar.cmpi .ne v108 c0_i32_54
  v109

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev17 : Nat :=
  let c0_i32_163 : BitVec 32 := 0#32
  let c0_i32_161 : BitVec 32 := 0#32
  let c1_i32_162 : BitVec 32 := 1#32
  let v263 : BitVec 32 := Scalar.muli c0_i32_161 c1_i32_162
  let v264 : BitVec 32 := Scalar.addi c0_i32_163 v263
  v264.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_55 : BitVec 32 := 1#32
  let v110 : BitVec 1 := Scalar.cmpi .ne v2 c1_i32_55
  let v111 : BitVec 32 := Scalar.extui v110
  let c0_i32_56 : BitVec 32 := 0#32
  let v112 : BitVec 1 := Scalar.cmpi .ne v111 c0_i32_56
  v112

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev18 : Nat :=
  let c0_i32_163 : BitVec 32 := 0#32
  let c1_i32_161 : BitVec 32 := 1#32
  let c1_i32_162 : BitVec 32 := 1#32
  let v263 : BitVec 32 := Scalar.muli c1_i32_161 c1_i32_162
  let v264 : BitVec 32 := Scalar.addi c0_i32_163 v263
  v264.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_57 : BitVec 32 := 2#32
  let v113 : BitVec 1 := Scalar.cmpi .ne v2 c2_i32_57
  let v114 : BitVec 32 := Scalar.extui v113
  let c0_i32_58 : BitVec 32 := 0#32
  let v115 : BitVec 1 := Scalar.cmpi .ne v114 c0_i32_58
  v115

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev19 : Nat :=
  let c0_i32_163 : BitVec 32 := 0#32
  let c2_i32_161 : BitVec 32 := 2#32
  let c1_i32_162 : BitVec 32 := 1#32
  let v263 : BitVec 32 := Scalar.muli c2_i32_161 c1_i32_162
  let v264 : BitVec 32 := Scalar.addi c0_i32_163 v263
  v264.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_59 : BitVec 32 := 3#32
  let v116 : BitVec 1 := Scalar.cmpi .ne v2 c3_i32_59
  let v117 : BitVec 32 := Scalar.extui v116
  let c0_i32_60 : BitVec 32 := 0#32
  let v118 : BitVec 1 := Scalar.cmpi .ne v117 c0_i32_60
  v118

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev20 : Nat :=
  let c0_i32_163 : BitVec 32 := 0#32
  let c3_i32_161 : BitVec 32 := 3#32
  let c1_i32_162 : BitVec 32 := 1#32
  let v263 : BitVec 32 := Scalar.muli c3_i32_161 c1_i32_162
  let v264 : BitVec 32 := Scalar.addi c0_i32_163 v263
  v264.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_61 : BitVec 32 := 4#32
  let v119 : BitVec 1 := Scalar.cmpi .ne v2 c4_i32_61
  let v120 : BitVec 32 := Scalar.extui v119
  let c0_i32_62 : BitVec 32 := 0#32
  let v121 : BitVec 1 := Scalar.cmpi .ne v120 c0_i32_62
  v121

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev21 : Nat :=
  let c0_i32_163 : BitVec 32 := 0#32
  let c4_i32_161 : BitVec 32 := 4#32
  let c1_i32_162 : BitVec 32 := 1#32
  let v263 : BitVec 32 := Scalar.muli c4_i32_161 c1_i32_162
  let v264 : BitVec 32 := Scalar.addi c0_i32_163 v263
  v264.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_63 : BitVec 32 := 5#32
  let v122 : BitVec 1 := Scalar.cmpi .ne v2 c5_i32_63
  let v123 : BitVec 32 := Scalar.extui v122
  let c0_i32_64 : BitVec 32 := 0#32
  let v124 : BitVec 1 := Scalar.cmpi .ne v123 c0_i32_64
  v124

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev22 : Nat :=
  let c0_i32_163 : BitVec 32 := 0#32
  let c5_i32_161 : BitVec 32 := 5#32
  let c1_i32_162 : BitVec 32 := 1#32
  let v263 : BitVec 32 := Scalar.muli c5_i32_161 c1_i32_162
  let v264 : BitVec 32 := Scalar.addi c0_i32_163 v263
  v264.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_65 : BitVec 32 := 6#32
  let v125 : BitVec 1 := Scalar.cmpi .ne v2 c6_i32_65
  let v126 : BitVec 32 := Scalar.extui v125
  let c0_i32_66 : BitVec 32 := 0#32
  let v127 : BitVec 1 := Scalar.cmpi .ne v126 c0_i32_66
  v127

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev23 : Nat :=
  let c0_i32_163 : BitVec 32 := 0#32
  let c6_i32_161 : BitVec 32 := 6#32
  let c1_i32_162 : BitVec 32 := 1#32
  let v263 : BitVec 32 := Scalar.muli c6_i32_161 c1_i32_162
  let v264 : BitVec 32 := Scalar.addi c0_i32_163 v263
  v264.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_67 : BitVec 32 := 7#32
  let v128 : BitVec 1 := Scalar.cmpi .ne v2 c7_i32_67
  let v129 : BitVec 32 := Scalar.extui v128
  let c0_i32_68 : BitVec 32 := 0#32
  let v130 : BitVec 1 := Scalar.cmpi .ne v129 c0_i32_68
  v130

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev24 : Nat :=
  let c0_i32_163 : BitVec 32 := 0#32
  let c7_i32_161 : BitVec 32 := 7#32
  let c1_i32_162 : BitVec 32 := 1#32
  let v263 : BitVec 32 := Scalar.muli c7_i32_161 c1_i32_162
  let v264 : BitVec 32 := Scalar.addi c0_i32_163 v263
  v264.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_69 : BitVec 32 := 8#32
  let v131 : BitVec 1 := Scalar.cmpi .ne v2 c8_i32_69
  let v132 : BitVec 32 := Scalar.extui v131
  let c0_i32_70 : BitVec 32 := 0#32
  let v133 : BitVec 1 := Scalar.cmpi .ne v132 c0_i32_70
  v133

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev25 : Nat :=
  let c0_i32_163 : BitVec 32 := 0#32
  let c8_i32_161 : BitVec 32 := 8#32
  let c1_i32_162 : BitVec 32 := 1#32
  let v263 : BitVec 32 := Scalar.muli c8_i32_161 c1_i32_162
  let v264 : BitVec 32 := Scalar.addi c0_i32_163 v263
  v264.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_71 : BitVec 32 := 9#32
  let v134 : BitVec 1 := Scalar.cmpi .ne v2 c9_i32_71
  let v135 : BitVec 32 := Scalar.extui v134
  let c0_i32_72 : BitVec 32 := 0#32
  let v136 : BitVec 1 := Scalar.cmpi .ne v135 c0_i32_72
  v136

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev26 : Nat :=
  let c0_i32_163 : BitVec 32 := 0#32
  let c9_i32_161 : BitVec 32 := 9#32
  let c1_i32_162 : BitVec 32 := 1#32
  let v263 : BitVec 32 := Scalar.muli c9_i32_161 c1_i32_162
  let v264 : BitVec 32 := Scalar.addi c0_i32_163 v263
  v264.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_73 : BitVec 32 := 10#32
  let v137 : BitVec 1 := Scalar.cmpi .ne v2 c10_i32_73
  let v138 : BitVec 32 := Scalar.extui v137
  let c0_i32_74 : BitVec 32 := 0#32
  let v139 : BitVec 1 := Scalar.cmpi .ne v138 c0_i32_74
  v139

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev27 : Nat :=
  let c0_i32_163 : BitVec 32 := 0#32
  let c10_i32_161 : BitVec 32 := 10#32
  let c1_i32_162 : BitVec 32 := 1#32
  let v263 : BitVec 32 := Scalar.muli c10_i32_161 c1_i32_162
  let v264 : BitVec 32 := Scalar.addi c0_i32_163 v263
  v264.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_75 : BitVec 32 := 11#32
  let v140 : BitVec 1 := Scalar.cmpi .ne v2 c11_i32_75
  let v141 : BitVec 32 := Scalar.extui v140
  let c0_i32_76 : BitVec 32 := 0#32
  let v142 : BitVec 1 := Scalar.cmpi .ne v141 c0_i32_76
  v142

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev28 : Nat :=
  let c0_i32_163 : BitVec 32 := 0#32
  let c11_i32_161 : BitVec 32 := 11#32
  let c1_i32_162 : BitVec 32 := 1#32
  let v263 : BitVec 32 := Scalar.muli c11_i32_161 c1_i32_162
  let v264 : BitVec 32 := Scalar.addi c0_i32_163 v263
  v264.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_77 : BitVec 32 := 12#32
  let v143 : BitVec 1 := Scalar.cmpi .ne v2 c12_i32_77
  let v144 : BitVec 32 := Scalar.extui v143
  let c0_i32_78 : BitVec 32 := 0#32
  let v145 : BitVec 1 := Scalar.cmpi .ne v144 c0_i32_78
  v145

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev29 : Nat :=
  let c0_i32_163 : BitVec 32 := 0#32
  let c12_i32_161 : BitVec 32 := 12#32
  let c1_i32_162 : BitVec 32 := 1#32
  let v263 : BitVec 32 := Scalar.muli c12_i32_161 c1_i32_162
  let v264 : BitVec 32 := Scalar.addi c0_i32_163 v263
  v264.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_79 : BitVec 32 := 13#32
  let v146 : BitVec 1 := Scalar.cmpi .ne v2 c13_i32_79
  let v147 : BitVec 32 := Scalar.extui v146
  let c0_i32_80 : BitVec 32 := 0#32
  let v148 : BitVec 1 := Scalar.cmpi .ne v147 c0_i32_80
  v148

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev30 : Nat :=
  let c0_i32_163 : BitVec 32 := 0#32
  let c13_i32_161 : BitVec 32 := 13#32
  let c1_i32_162 : BitVec 32 := 1#32
  let v263 : BitVec 32 := Scalar.muli c13_i32_161 c1_i32_162
  let v264 : BitVec 32 := Scalar.addi c0_i32_163 v263
  v264.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_81 : BitVec 32 := 14#32
  let v149 : BitVec 1 := Scalar.cmpi .ne v2 c14_i32_81
  let v150 : BitVec 32 := Scalar.extui v149
  let c0_i32_82 : BitVec 32 := 0#32
  let v151 : BitVec 1 := Scalar.cmpi .ne v150 c0_i32_82
  v151

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev31 : Nat :=
  let c0_i32_163 : BitVec 32 := 0#32
  let c14_i32_161 : BitVec 32 := 14#32
  let c1_i32_162 : BitVec 32 := 1#32
  let v263 : BitVec 32 := Scalar.muli c14_i32_161 c1_i32_162
  let v264 : BitVec 32 := Scalar.addi c0_i32_163 v263
  v264.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_83 : BitVec 32 := 15#32
  let v152 : BitVec 1 := Scalar.cmpi .ne v2 c15_i32_83
  let v153 : BitVec 32 := Scalar.extui v152
  let c0_i32_84 : BitVec 32 := 0#32
  let v154 : BitVec 1 := Scalar.cmpi .ne v153 c0_i32_84
  v154

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_164 : BitVec 32 := 0#32
  let c0_i32_165 : BitVec 32 := 0#32
  ![v2.toNat, 0, 0]
def k0_dev32 : Nat :=
  let c0_i32_163 : BitVec 32 := 0#32
  let c15_i32_161 : BitVec 32 := 15#32
  let c1_i32_162 : BitVec 32 := 1#32
  let v263 : BitVec 32 := Scalar.muli c15_i32_161 c1_i32_162
  let v264 : BitVec 32 := Scalar.addi c0_i32_163 v263
  v264.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let v215 : BitVec 1 := Scalar.cmpi .ne v2 c0_i32_128
  let v216 : BitVec 32 := Scalar.extui v215
  let c0_i32_129 : BitVec 32 := 0#32
  let v217 : BitVec 1 := Scalar.cmpi .ne v216 c0_i32_129
  v217

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_130 : BitVec 32 := 1#32
  let v218 : BitVec 1 := Scalar.cmpi .ne v2 c1_i32_130
  let v219 : BitVec 32 := Scalar.extui v218
  let c0_i32_131 : BitVec 32 := 0#32
  let v220 : BitVec 1 := Scalar.cmpi .ne v219 c0_i32_131
  v220

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_132 : BitVec 32 := 2#32
  let v221 : BitVec 1 := Scalar.cmpi .ne v2 c2_i32_132
  let v222 : BitVec 32 := Scalar.extui v221
  let c0_i32_133 : BitVec 32 := 0#32
  let v223 : BitVec 1 := Scalar.cmpi .ne v222 c0_i32_133
  v223

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_134 : BitVec 32 := 3#32
  let v224 : BitVec 1 := Scalar.cmpi .ne v2 c3_i32_134
  let v225 : BitVec 32 := Scalar.extui v224
  let c0_i32_135 : BitVec 32 := 0#32
  let v226 : BitVec 1 := Scalar.cmpi .ne v225 c0_i32_135
  v226

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_136 : BitVec 32 := 4#32
  let v227 : BitVec 1 := Scalar.cmpi .ne v2 c4_i32_136
  let v228 : BitVec 32 := Scalar.extui v227
  let c0_i32_137 : BitVec 32 := 0#32
  let v229 : BitVec 1 := Scalar.cmpi .ne v228 c0_i32_137
  v229

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_138 : BitVec 32 := 5#32
  let v230 : BitVec 1 := Scalar.cmpi .ne v2 c5_i32_138
  let v231 : BitVec 32 := Scalar.extui v230
  let c0_i32_139 : BitVec 32 := 0#32
  let v232 : BitVec 1 := Scalar.cmpi .ne v231 c0_i32_139
  v232

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_140 : BitVec 32 := 6#32
  let v233 : BitVec 1 := Scalar.cmpi .ne v2 c6_i32_140
  let v234 : BitVec 32 := Scalar.extui v233
  let c0_i32_141 : BitVec 32 := 0#32
  let v235 : BitVec 1 := Scalar.cmpi .ne v234 c0_i32_141
  v235

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_142 : BitVec 32 := 7#32
  let v236 : BitVec 1 := Scalar.cmpi .ne v2 c7_i32_142
  let v237 : BitVec 32 := Scalar.extui v236
  let c0_i32_143 : BitVec 32 := 0#32
  let v238 : BitVec 1 := Scalar.cmpi .ne v237 c0_i32_143
  v238

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_144 : BitVec 32 := 8#32
  let v239 : BitVec 1 := Scalar.cmpi .ne v2 c8_i32_144
  let v240 : BitVec 32 := Scalar.extui v239
  let c0_i32_145 : BitVec 32 := 0#32
  let v241 : BitVec 1 := Scalar.cmpi .ne v240 c0_i32_145
  v241

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_146 : BitVec 32 := 9#32
  let v242 : BitVec 1 := Scalar.cmpi .ne v2 c9_i32_146
  let v243 : BitVec 32 := Scalar.extui v242
  let c0_i32_147 : BitVec 32 := 0#32
  let v244 : BitVec 1 := Scalar.cmpi .ne v243 c0_i32_147
  v244

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_148 : BitVec 32 := 10#32
  let v245 : BitVec 1 := Scalar.cmpi .ne v2 c10_i32_148
  let v246 : BitVec 32 := Scalar.extui v245
  let c0_i32_149 : BitVec 32 := 0#32
  let v247 : BitVec 1 := Scalar.cmpi .ne v246 c0_i32_149
  v247

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_150 : BitVec 32 := 11#32
  let v248 : BitVec 1 := Scalar.cmpi .ne v2 c11_i32_150
  let v249 : BitVec 32 := Scalar.extui v248
  let c0_i32_151 : BitVec 32 := 0#32
  let v250 : BitVec 1 := Scalar.cmpi .ne v249 c0_i32_151
  v250

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_152 : BitVec 32 := 12#32
  let v251 : BitVec 1 := Scalar.cmpi .ne v2 c12_i32_152
  let v252 : BitVec 32 := Scalar.extui v251
  let c0_i32_153 : BitVec 32 := 0#32
  let v253 : BitVec 1 := Scalar.cmpi .ne v252 c0_i32_153
  v253

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_154 : BitVec 32 := 13#32
  let v254 : BitVec 1 := Scalar.cmpi .ne v2 c13_i32_154
  let v255 : BitVec 32 := Scalar.extui v254
  let c0_i32_155 : BitVec 32 := 0#32
  let v256 : BitVec 1 := Scalar.cmpi .ne v255 c0_i32_155
  v256

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_156 : BitVec 32 := 14#32
  let v257 : BitVec 1 := Scalar.cmpi .ne v2 c14_i32_156
  let v258 : BitVec 32 := Scalar.extui v257
  let c0_i32_157 : BitVec 32 := 0#32
  let v259 : BitVec 1 := Scalar.cmpi .ne v258 c0_i32_157
  v259

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_158 : BitVec 32 := 15#32
  let v260 : BitVec 1 := Scalar.cmpi .ne v2 c15_i32_158
  let v261 : BitVec 32 := Scalar.extui v260
  let c0_i32_159 : BitVec 32 := 0#32
  let v262 : BitVec 1 := Scalar.cmpi .ne v261 c0_i32_159
  v262

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let c0_i32_164 : BitVec 32 := 0#32
  ![v2.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1024 : S1024.ShapeCasts S1x1024
  inb_S16x1x1024_S1x1x1024_0_0_0 : ∀ a, (![0, 0, 0] : Fin 3 → Nat) a + S1x1x1024.size a ≤ S16x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S16x1x1024_S1x1x1024_1_0_0 : ∀ a, (![1, 0, 0] : Fin 3 → Nat) a + S1x1x1024.size a ≤ S16x1x1024.size a
  inb_S16x1x1024_S1x1x1024_2_0_0 : ∀ a, (![2, 0, 0] : Fin 3 → Nat) a + S1x1x1024.size a ≤ S16x1x1024.size a
  inb_S16x1x1024_S1x1x1024_3_0_0 : ∀ a, (![3, 0, 0] : Fin 3 → Nat) a + S1x1x1024.size a ≤ S16x1x1024.size a
  inb_S16x1x1024_S1x1x1024_4_0_0 : ∀ a, (![4, 0, 0] : Fin 3 → Nat) a + S1x1x1024.size a ≤ S16x1x1024.size a
  inb_S16x1x1024_S1x1x1024_5_0_0 : ∀ a, (![5, 0, 0] : Fin 3 → Nat) a + S1x1x1024.size a ≤ S16x1x1024.size a
  inb_S16x1x1024_S1x1x1024_6_0_0 : ∀ a, (![6, 0, 0] : Fin 3 → Nat) a + S1x1x1024.size a ≤ S16x1x1024.size a
  inb_S16x1x1024_S1x1x1024_7_0_0 : ∀ a, (![7, 0, 0] : Fin 3 → Nat) a + S1x1x1024.size a ≤ S16x1x1024.size a
  inb_S16x1x1024_S1x1x1024_8_0_0 : ∀ a, (![8, 0, 0] : Fin 3 → Nat) a + S1x1x1024.size a ≤ S16x1x1024.size a
  inb_S16x1x1024_S1x1x1024_9_0_0 : ∀ a, (![9, 0, 0] : Fin 3 → Nat) a + S1x1x1024.size a ≤ S16x1x1024.size a
  inb_S16x1x1024_S1x1x1024_10_0_0 : ∀ a, (![10, 0, 0] : Fin 3 → Nat) a + S1x1x1024.size a ≤ S16x1x1024.size a
  inb_S16x1x1024_S1x1x1024_11_0_0 : ∀ a, (![11, 0, 0] : Fin 3 → Nat) a + S1x1x1024.size a ≤ S16x1x1024.size a
  inb_S16x1x1024_S1x1x1024_12_0_0 : ∀ a, (![12, 0, 0] : Fin 3 → Nat) a + S1x1x1024.size a ≤ S16x1x1024.size a
  inb_S16x1x1024_S1x1x1024_13_0_0 : ∀ a, (![13, 0, 0] : Fin 3 → Nat) a + S1x1x1024.size a ≤ S16x1x1024.size a
  inb_S16x1x1024_S1x1x1024_14_0_0 : ∀ a, (![14, 0, 0] : Fin 3 → Nat) a + S1x1x1024.size a ≤ S16x1x1024.size a
  inb_S16x1x1024_S1x1x1024_15_0_0 : ∀ a, (![15, 0, 0] : Fin 3 → Nat) a + S1x1x1024.size a ≤ S16x1x1024.size a
  hamt_15 : (15#32 : BitVec 32).msb = false
  inb_S16_S1_0 : ∀ a, (![0] : Fin 1 → Nat) a + S1.size a ≤ S16.size a
  squeezes_S1_S_ : S1.Squeezes S_
  squeezes_S1x1x1024_S1x1024 : S1x1x1024.Squeezes S1x1024
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x1x1024_S16x1x1024_0_0_0 : ∀ a, (![0, 0, 0] : Fin 3 → Nat) a + S16x1x1024.size a ≤ S16x1x1024.size a
  h_S16x1x1024 : 0 < S16x1x1024.numel
  shapeCasts_S16x1x1024_S16x1024 : S16x1x1024.ShapeCasts S16x1024
  reduces_S16x1024_S1024 : S16x1024.Reduces [0] S1024
  shapeCasts_S1024_S1024x1 : S1024.ShapeCasts S1024x1
  broadcasts_S1024x1_S1024x512 : S1024x1.Broadcasts S1024x512
  hcc0_scratch2 : 2 + S16.numel ≤ 34
  hcc0_scratch3 : 18 + S16.numel ≤ 34
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_off1_inb : ∀ d0 : Dev nD, ∀ (k0_h33 : k0_cond33 d0 = 1#1), ∀ a, (k0_off1 d0) a + S1.size a ≤ S16.size a
  k0_off2_inb : ∀ d0 : Dev nD, ∀ (k0_h33 : k0_cond33 d0 = 1#1), ∀ a, (k0_off2 d0) a + S1x1x1024.size a ≤ S16x1x1024.size a
  k0_dev17_lt : ∀ d0 : Dev nD, ∀ (k0_h33 : k0_cond33 d0 = 1#1), k0_dev17 < nD
  k0_off3_inb : ∀ d0 : Dev nD, ∀ (k0_h34 : k0_cond34 d0 = 1#1), ∀ a, (k0_off3 d0) a + S1.size a ≤ S16.size a
  k0_off4_inb : ∀ d0 : Dev nD, ∀ (k0_h34 : k0_cond34 d0 = 1#1), ∀ a, (k0_off4 d0) a + S1x1x1024.size a ≤ S16x1x1024.size a
  k0_dev18_lt : ∀ d0 : Dev nD, ∀ (k0_h34 : k0_cond34 d0 = 1#1), k0_dev18 < nD
  k0_off5_inb : ∀ d0 : Dev nD, ∀ (k0_h35 : k0_cond35 d0 = 1#1), ∀ a, (k0_off5 d0) a + S1.size a ≤ S16.size a
  k0_off6_inb : ∀ d0 : Dev nD, ∀ (k0_h35 : k0_cond35 d0 = 1#1), ∀ a, (k0_off6 d0) a + S1x1x1024.size a ≤ S16x1x1024.size a
  k0_dev19_lt : ∀ d0 : Dev nD, ∀ (k0_h35 : k0_cond35 d0 = 1#1), k0_dev19 < nD
  k0_off7_inb : ∀ d0 : Dev nD, ∀ (k0_h36 : k0_cond36 d0 = 1#1), ∀ a, (k0_off7 d0) a + S1.size a ≤ S16.size a
  k0_off8_inb : ∀ d0 : Dev nD, ∀ (k0_h36 : k0_cond36 d0 = 1#1), ∀ a, (k0_off8 d0) a + S1x1x1024.size a ≤ S16x1x1024.size a
  k0_dev20_lt : ∀ d0 : Dev nD, ∀ (k0_h36 : k0_cond36 d0 = 1#1), k0_dev20 < nD
  k0_off9_inb : ∀ d0 : Dev nD, ∀ (k0_h37 : k0_cond37 d0 = 1#1), ∀ a, (k0_off9 d0) a + S1.size a ≤ S16.size a
  k0_off10_inb : ∀ d0 : Dev nD, ∀ (k0_h37 : k0_cond37 d0 = 1#1), ∀ a, (k0_off10 d0) a + S1x1x1024.size a ≤ S16x1x1024.size a
  k0_dev21_lt : ∀ d0 : Dev nD, ∀ (k0_h37 : k0_cond37 d0 = 1#1), k0_dev21 < nD
  k0_off11_inb : ∀ d0 : Dev nD, ∀ (k0_h38 : k0_cond38 d0 = 1#1), ∀ a, (k0_off11 d0) a + S1.size a ≤ S16.size a
  k0_off12_inb : ∀ d0 : Dev nD, ∀ (k0_h38 : k0_cond38 d0 = 1#1), ∀ a, (k0_off12 d0) a + S1x1x1024.size a ≤ S16x1x1024.size a
  k0_dev22_lt : ∀ d0 : Dev nD, ∀ (k0_h38 : k0_cond38 d0 = 1#1), k0_dev22 < nD
  k0_off13_inb : ∀ d0 : Dev nD, ∀ (k0_h39 : k0_cond39 d0 = 1#1), ∀ a, (k0_off13 d0) a + S1.size a ≤ S16.size a
  k0_off14_inb : ∀ d0 : Dev nD, ∀ (k0_h39 : k0_cond39 d0 = 1#1), ∀ a, (k0_off14 d0) a + S1x1x1024.size a ≤ S16x1x1024.size a
  k0_dev23_lt : ∀ d0 : Dev nD, ∀ (k0_h39 : k0_cond39 d0 = 1#1), k0_dev23 < nD
  k0_off15_inb : ∀ d0 : Dev nD, ∀ (k0_h40 : k0_cond40 d0 = 1#1), ∀ a, (k0_off15 d0) a + S1.size a ≤ S16.size a
  k0_off16_inb : ∀ d0 : Dev nD, ∀ (k0_h40 : k0_cond40 d0 = 1#1), ∀ a, (k0_off16 d0) a + S1x1x1024.size a ≤ S16x1x1024.size a
  k0_dev24_lt : ∀ d0 : Dev nD, ∀ (k0_h40 : k0_cond40 d0 = 1#1), k0_dev24 < nD
  k0_off17_inb : ∀ d0 : Dev nD, ∀ (k0_h41 : k0_cond41 d0 = 1#1), ∀ a, (k0_off17 d0) a + S1.size a ≤ S16.size a
  k0_off18_inb : ∀ d0 : Dev nD, ∀ (k0_h41 : k0_cond41 d0 = 1#1), ∀ a, (k0_off18 d0) a + S1x1x1024.size a ≤ S16x1x1024.size a
  k0_dev25_lt : ∀ d0 : Dev nD, ∀ (k0_h41 : k0_cond41 d0 = 1#1), k0_dev25 < nD
  k0_off19_inb : ∀ d0 : Dev nD, ∀ (k0_h42 : k0_cond42 d0 = 1#1), ∀ a, (k0_off19 d0) a + S1.size a ≤ S16.size a
  k0_off20_inb : ∀ d0 : Dev nD, ∀ (k0_h42 : k0_cond42 d0 = 1#1), ∀ a, (k0_off20 d0) a + S1x1x1024.size a ≤ S16x1x1024.size a
  k0_dev26_lt : ∀ d0 : Dev nD, ∀ (k0_h42 : k0_cond42 d0 = 1#1), k0_dev26 < nD
  k0_off21_inb : ∀ d0 : Dev nD, ∀ (k0_h43 : k0_cond43 d0 = 1#1), ∀ a, (k0_off21 d0) a + S1.size a ≤ S16.size a
  k0_off22_inb : ∀ d0 : Dev nD, ∀ (k0_h43 : k0_cond43 d0 = 1#1), ∀ a, (k0_off22 d0) a + S1x1x1024.size a ≤ S16x1x1024.size a
  k0_dev27_lt : ∀ d0 : Dev nD, ∀ (k0_h43 : k0_cond43 d0 = 1#1), k0_dev27 < nD
  k0_off23_inb : ∀ d0 : Dev nD, ∀ (k0_h44 : k0_cond44 d0 = 1#1), ∀ a, (k0_off23 d0) a + S1.size a ≤ S16.size a
  k0_off24_inb : ∀ d0 : Dev nD, ∀ (k0_h44 : k0_cond44 d0 = 1#1), ∀ a, (k0_off24 d0) a + S1x1x1024.size a ≤ S16x1x1024.size a
  k0_dev28_lt : ∀ d0 : Dev nD, ∀ (k0_h44 : k0_cond44 d0 = 1#1), k0_dev28 < nD
  k0_off25_inb : ∀ d0 : Dev nD, ∀ (k0_h45 : k0_cond45 d0 = 1#1), ∀ a, (k0_off25 d0) a + S1.size a ≤ S16.size a
  k0_off26_inb : ∀ d0 : Dev nD, ∀ (k0_h45 : k0_cond45 d0 = 1#1), ∀ a, (k0_off26 d0) a + S1x1x1024.size a ≤ S16x1x1024.size a
  k0_dev29_lt : ∀ d0 : Dev nD, ∀ (k0_h45 : k0_cond45 d0 = 1#1), k0_dev29 < nD
  k0_off27_inb : ∀ d0 : Dev nD, ∀ (k0_h46 : k0_cond46 d0 = 1#1), ∀ a, (k0_off27 d0) a + S1.size a ≤ S16.size a
  k0_off28_inb : ∀ d0 : Dev nD, ∀ (k0_h46 : k0_cond46 d0 = 1#1), ∀ a, (k0_off28 d0) a + S1x1x1024.size a ≤ S16x1x1024.size a
  k0_dev30_lt : ∀ d0 : Dev nD, ∀ (k0_h46 : k0_cond46 d0 = 1#1), k0_dev30 < nD
  k0_off29_inb : ∀ d0 : Dev nD, ∀ (k0_h47 : k0_cond47 d0 = 1#1), ∀ a, (k0_off29 d0) a + S1.size a ≤ S16.size a
  k0_off30_inb : ∀ d0 : Dev nD, ∀ (k0_h47 : k0_cond47 d0 = 1#1), ∀ a, (k0_off30 d0) a + S1x1x1024.size a ≤ S16x1x1024.size a
  k0_dev31_lt : ∀ d0 : Dev nD, ∀ (k0_h47 : k0_cond47 d0 = 1#1), k0_dev31 < nD
  k0_off31_inb : ∀ d0 : Dev nD, ∀ (k0_h48 : k0_cond48 d0 = 1#1), ∀ a, (k0_off31 d0) a + S1.size a ≤ S16.size a
  k0_off32_inb : ∀ d0 : Dev nD, ∀ (k0_h48 : k0_cond48 d0 = 1#1), ∀ a, (k0_off32 d0) a + S1x1x1024.size a ≤ S16x1x1024.size a
  k0_dev32_lt : ∀ d0 : Dev nD, ∀ (k0_h48 : k0_cond48 d0 = 1#1), k0_dev32 < nD
  k0_off33_inb : ∀ d0 : Dev nD, ∀ (k0_h65 : k0_cond65 d0 = 1#1), ∀ a, (k0_off33 d0) a + S1x1x1024.size a ≤ S16x1x1024.size a
  k0_off34_inb : ∀ d0 : Dev nD, ∀ (k0_h66 : k0_cond66 d0 = 1#1), ∀ a, (k0_off34 d0) a + S1x1x1024.size a ≤ S16x1x1024.size a
  k0_off35_inb : ∀ d0 : Dev nD, ∀ (k0_h67 : k0_cond67 d0 = 1#1), ∀ a, (k0_off35 d0) a + S1x1x1024.size a ≤ S16x1x1024.size a
  k0_off36_inb : ∀ d0 : Dev nD, ∀ (k0_h68 : k0_cond68 d0 = 1#1), ∀ a, (k0_off36 d0) a + S1x1x1024.size a ≤ S16x1x1024.size a
  k0_off37_inb : ∀ d0 : Dev nD, ∀ (k0_h69 : k0_cond69 d0 = 1#1), ∀ a, (k0_off37 d0) a + S1x1x1024.size a ≤ S16x1x1024.size a
  k0_off38_inb : ∀ d0 : Dev nD, ∀ (k0_h70 : k0_cond70 d0 = 1#1), ∀ a, (k0_off38 d0) a + S1x1x1024.size a ≤ S16x1x1024.size a
  k0_off39_inb : ∀ d0 : Dev nD, ∀ (k0_h71 : k0_cond71 d0 = 1#1), ∀ a, (k0_off39 d0) a + S1x1x1024.size a ≤ S16x1x1024.size a
  k0_off40_inb : ∀ d0 : Dev nD, ∀ (k0_h72 : k0_cond72 d0 = 1#1), ∀ a, (k0_off40 d0) a + S1x1x1024.size a ≤ S16x1x1024.size a
  k0_off41_inb : ∀ d0 : Dev nD, ∀ (k0_h73 : k0_cond73 d0 = 1#1), ∀ a, (k0_off41 d0) a + S1x1x1024.size a ≤ S16x1x1024.size a
  k0_off42_inb : ∀ d0 : Dev nD, ∀ (k0_h74 : k0_cond74 d0 = 1#1), ∀ a, (k0_off42 d0) a + S1x1x1024.size a ≤ S16x1x1024.size a
  k0_off43_inb : ∀ d0 : Dev nD, ∀ (k0_h75 : k0_cond75 d0 = 1#1), ∀ a, (k0_off43 d0) a + S1x1x1024.size a ≤ S16x1x1024.size a
  k0_off44_inb : ∀ d0 : Dev nD, ∀ (k0_h76 : k0_cond76 d0 = 1#1), ∀ a, (k0_off44 d0) a + S1x1x1024.size a ≤ S16x1x1024.size a
  k0_off45_inb : ∀ d0 : Dev nD, ∀ (k0_h77 : k0_cond77 d0 = 1#1), ∀ a, (k0_off45 d0) a + S1x1x1024.size a ≤ S16x1x1024.size a
  k0_off46_inb : ∀ d0 : Dev nD, ∀ (k0_h78 : k0_cond78 d0 = 1#1), ∀ a, (k0_off46 d0) a + S1x1x1024.size a ≤ S16x1x1024.size a
  k0_off47_inb : ∀ d0 : Dev nD, ∀ (k0_h79 : k0_cond79 d0 = 1#1), ∀ a, (k0_off47 d0) a + S1x1x1024.size a ≤ S16x1x1024.size a
  k0_off48_inb : ∀ d0 : Dev nD, ∀ (k0_h80 : k0_cond80 d0 = 1#1), ∀ a, (k0_off48 d0) a + S1x1x1024.size a ≤ S16x1x1024.size a
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x8192, .f32⟩
  | .hbm, ⟨11, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x8192_S1024_d1 : S1024x8192.ReducesTo [1] S1024
  h_S_ : 0 < S_.numel
  bcast_S1024_S1024x1_0 : S1024.BroadcastsInDim S1024x1 (![0] : Fin 1 → Fin S1024x1.rank)
  bcast_S1024x1_S1024x8192_0_1 : S1024x1.BroadcastsInDim S1024x8192 (![0, 1] : Fin 2 → Fin S1024x8192.rank)

variable [Facts₀]

class Facts : Prop extends Facts₀ where

variable [Facts]
-- ==== Proof.Proto.lean ====
import proofs.«901055_g7700000000001056_dist_softmax_colshard_i_m1024_n512_v7x_i16_bf16_1_alg».proof.Proof.Gen.KernelIdeal
import proofs.«901055_g7700000000001056_dist_softmax_colshard_i_m1024_n512_v7x_i16_bf16_1_alg».proof.Proof.Gen.KernelIdeal.Skeleton
import proofs.«901055_g7700000000001056_dist_softmax_colshard_i_m1024_n512_v7x_i16_bf16_1_alg».proof.Proof.Gen.KernelIdeal.Launch
import proofs.«901055_g7700000000001056_dist_softmax_colshard_i_m1024_n512_v7x_i16_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

/-!
# The all-to-all of row sums: cells, schedule, contents

Sixteen devices each hold a column block `x_c` (1024 × 512) of one 1024 × 8192 array. Device `c` forms
`e_c = exp x_c`, its row sums `s_c` (a 1 × 1024 row), writes `s_c` into slot `c` of its own 16 × 1 × 1024 table and
copies it into slot `c` of every other device's table; when the fifteen rows of the others have landed the table is the
same on every device, `T[d, 0, r] = s_d[r]`, and the result block is `e_c[r, k] · (1 / Σ_d T[d, 0, r])`.

The protocol, one round:
* the barrier semaphore of device `c` has one unit duty per other device `d`; paying it, `d` hands `c` slot `c` of
  `d`'s table (the place `c` will copy into) and the fact that `d` is at round 0 of the receive semaphore `c` credits;
* receive semaphore `j` of device `c` has the one duty "the copy from device `j`": it hands back slot `j` of `c`'s
  table holding the common table's values;
* send semaphore `j` of device `c` has the one duty "the copy to device `j`": it hands back the share of the row
  buffer lent to that copy.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of the all-to-all (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st₀ : MemSt nD τ sig (Elt F) := ⟨m, fun _ => 0, ρ⟩

/-! ## Buffers, slots, semaphores, cells -/

abbrev xM : Memref sig .tc .vmem S1024x512 .f32 := Memref.whole cc0_stg0_0
abbrev oM : Memref sig .tc .vmem S1024x512 .f32 := Memref.whole cc0_stg1_0
/-- the row buffer (a device's row sums) -/
abbrev sM : Memref sig .tc .vmem S1x1024 .f32 := Memref.whole cc0_scratch0
/-- the table (one row per device) -/
abbrev gM : Memref sig .tc .vmem S16x1x1024 .f32 := Memref.whole cc0_scratch1

theorem inbSem (j : Dev nD) : ∀ a, (![j.val] : Fin 1 → Nat) a + S1.size a ≤ S16.size a := by
  revert j; decide
theorem inbSlot (j : Dev nD) : ∀ a, (![j.val, 0, 0] : Fin 3 → Nat) a + S1x1x1024.size a ≤ S16x1x1024.size a := by
  revert j; decide

/-- Row `j` of the table as a rectangle, as a 1 × 1 × 1024 window and as the 1 × 1024 window a copy writes. -/
abbrev slotRect (j : Dev nD) : Rect S16x1x1024 := Rect.unit (s := S16x1x1024) ![j.val, 0, 0] S1x1x1024.size (inbSlot j)
abbrev slotM3 (j : Dev nD) : Memref sig .tc .vmem S1x1x1024 .f32 := gM.slice (slotRect j) (fun _ => rfl)
abbrev slotM (j : Dev nD) : Memref sig .tc .vmem S1x1024 .f32 := (slotM3 j).squeeze S1x1024 squeezes_S1x1x1024_S1x1024

abbrev barS : Sem sig := (SemArray.scalar (sig.barrier 0 rfl) : Sems sig S_).sem
/-- Send semaphore `j` (the copy to device `j`) and receive semaphore `j` (the copy from device `j`). -/
abbrev sendSem (j : Dev nD) : DmaSem sig :=
  ((cc0_scratch2.slice (Rect.unit (s := S16) ![j.val] S1.size (inbSem j))).squeeze S_ squeezes_S1_S_).sem
abbrev recvSem (j : Dev nD) : DmaSem sig :=
  ((cc0_scratch3.slice (Rect.unit (s := S16) ![j.val] S1.size (inbSem j))).squeeze S_ squeezes_S1_S_).sem

abbrev barCell (c : Dev nD) : GSem nD τ sig := ((c : Thread nD τ), .reg barS)
abbrev sendCell (c j : Dev nD) : GSem nD τ sig := ((c : Thread nD τ), .dma (sendSem j))
abbrev recvCell (c j : Dev nD) : GSem nD τ sig := ((c : Thread nD τ), .dma (recvSem j))

/-- The units one copy of a row credits its two semaphores. -/
abbrev N : ℕ := (sM : Memref sig .tc .vmem S1x1024 .f32).view.dmaCredit
theorem N_pos : 0 < N := View.dmaCredit_pos _ (by decide)

/-- The share of the row buffer lent to the copy to device `j`: the left half of what `j` halvings leave. -/
def restShare : ℕ → PosShare TreeShare
  | 0 => fullShare
  | k + 1 => (restShare k).right
def lentShare (j : Dev nD) : PosShare TreeShare := (restShare j.val).left

/-! ## Contents -/

/-- Device `c`'s block of `x`, as staged. -/
def xblk (c : Dev nD) : (cc0_stg0_0 : Ref sig .tc).ty.Contents (Elt F) :=
  (win0_0.blk (0 : Fin 1)).view.read (Elt F) ((st₀ m ρ).mem ((c : Thread nD τ).loc main_arg0))

/-- Its row sums of `exp x`. -/
def stats (c : Dev nD) : (cc0_scratch0 : Ref sig .tc).ty.Contents (Elt F) := k0_pay2 (xblk m ρ c)

/-- The table every device ends with: row `d` is device `d`'s row sums. -/
def table : (cc0_scratch1 : Ref sig .tc).ty.Contents (Elt F) :=
  fun i => stats m ρ ⟨(i 0).val, (i 0).isLt⟩ (ValueIdx.ix2 (0 : Fin 1) ⟨(i 2).val, (i 2).isLt⟩)

/-- Device `c`'s result block: `exp x_c` scaled row by row by the reciprocal of the table's column sums. -/
def outAt (c : Dev nD) : (cc0_stg1_0 : Ref sig .tc).ty.Contents (Elt F) :=
  k0_pay21 (k0_pay19 (table m ρ)) k0_pay20 (k0_pay1 (xblk m ρ c))

/-- Slot `j` of device `c`'s table at contents `f` (a whole-table valuation, read on the slot only). -/
def slotPts (c j : Dev nD) (f : Buf (Elt F) ((gM : Memref sig .tc .vmem S16x1x1024 .f32).view.loc (c : Thread nD τ))) : sProp 𝕄 :=
  (slotM j).view.loc (c : Thread nD τ) ↦[(slotM j).view.set]{fullShare} f

/-- The row buffer of device `c` at share `q`, holding its row sums. -/
def rowPts (c : Dev nD) (q : PosShare TreeShare) : sProp 𝕄 :=
  (sM : Memref sig .tc .vmem S1x1024 .f32).view.loc (c : Thread nD τ) ↦[(sM : Memref sig .tc .vmem S1x1024 .f32).view.set]{q} stats m ρ c

/-! ## The schedule -/

/-- What device `d`'s signal hands device `c`: slot `c` of `d`'s table, and that `d` is at round 0 of the receive
    semaphore `c` credits there. -/
def barPay (c d : Dev nD) : sProp 𝕄 := iprop((∃ f, slotPts d c f) ∗ reached ER (recvCell d c) 0)
/-- What the copy from `j` hands `c`: slot `j` of `c`'s table at the common table. -/
def recvPay (c j : Dev nD) : sProp 𝕄 := slotPts c j (table m ρ)
/-- What the copy to `j` hands back: the lent share of the row buffer. -/
def sendPay (c j : Dev nD) : sProp 𝕄 := rowPts m ρ c (lentShare j)

/-- One round. A barrier cell of device `c`: one unit duty per other device. Send / receive cell `j` of device `c`,
    `j ≠ c`: the one duty `j`, of a row's credit. -/
def sched : Rounds.Schedule (GSem nD τ sig) (Dev nD) 𝕄 where
  duties g r :=
    if r = 0 ∧ g.1.2 = .tc then
      (if g.2 = .reg barS then Finset.univ.erase g.1.1
       else Finset.univ.filter fun j => j ≠ g.1.1 ∧ (g.2 = .dma (sendSem j) ∨ g.2 = .dma (recvSem j)))
    else ∅
  unitless _ := False
  amount g _ _ := if g.2 = .reg barS then 1 else N
  payload g _ d :=
    if g.2 = .reg barS then barPay g.1.1 d
    else if g.2 = .dma (recvSem d) then recvPay m ρ g.1.1 d
    else if g.2 = .dma (sendSem d) then sendPay m ρ g.1.1 d
    else iprop(emp)
  amount_pos g _ _ _ := by
    by_cases h : g.2 = .reg barS
    · rw [if_pos h]; exact Nat.one_pos
    · rw [if_neg h]; exact N_pos

/-! ## What each device owes at launch; the levels -/

/-- Device `c` owes every other device's barrier cell one unit and receive cell `c` a row's credit. -/
def owesRecv (c : Dev nD) (S : Finset (Dev nD)) : CellTallies nD τ sig Unit := ∑ j ∈ S, tallyAt (recvCell j c) () N
def owesBar (S : Finset (Dev nD)) : CellTallies nD τ sig Unit := ∑ j ∈ S, tallyAt (barCell j) () 1
def O₀ (c : Dev nD) : CellTallies nD τ sig Unit := owesRecv c (Finset.univ.erase c) + owesBar (Finset.univ.erase c)

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if ∃ j, g.2 = .dma (recvSem j) then 2 else 0

end Cert.KernelIdeal.Proto

end
-- ==== Proof.Ghost.lean ====
import proofs.«901055_g7700000000001056_dist_softmax_colshard_i_m1024_n512_v7x_i16_bf16_1_alg».proof.Proof.Proto

/-!
# Ghost state, proof data and loop invariants of the all-to-all

Device `c` starts the body holding: every cell's invariant and round-0 mark (persistent); its position at round 0 of
its own 33 cells; the tokens of the 45 duties it pays (a unit on each other device's barrier cell, the landing on
receive cell `c` of each other device, the departure on each of its own send cells); the credit it is owed (fifteen
barrier units, a row's credit on each receive cell `j ≠ c`).

The five unrolled loops over the peers `j = 0 … 15` are read through invariants indexed by the number `k` of branches
passed: `pend c k` is the set of peers `j ≠ c` with `k ≤ j`, those a loop has still to visit.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, indexed -/

/-- `none`: the barrier cell; `some (false, j)`: send cell `j`; `some (true, j)`: receive cell `j`. -/
abbrev KIx : Type := Option (Bool × Dev nD)
abbrev csem : KIx → SemLoc sig
  | none => .reg barS
  | some (false, j) => .dma (sendSem j)
  | some (true, j) => .dma (recvSem j)
abbrev kcell (ck : Dev nD × KIx) : GSem nD τ sig := ((ck.1 : Thread nD τ), csem ck.2)

/-- The kernel's own (scoped) semaphores: the thirty-two DMA semaphores. -/
abbrev osem : Bool × Dev nD → SemLoc sig := fun bj => csem (some bj)

/-- Every cell's invariant, under the names `K` the launch allocated them at, and round 0 of every cell reached. -/
def records (K : Dev nD × KIx → ℕ) : sProp 𝕄 :=
  iprop((bigSep Finset.univ fun ck : Dev nD × KIx => cellInv ER (sched m ρ) (K ck) (kcell ck))
    ∗ bigSep Finset.univ fun ck : Dev nD × KIx => reached ER (kcell ck) 0)

instance records_persistent (K : Dev nD × KIx → ℕ) : BI.Persistent (records m ρ K) := by unfold records; infer_instance

/-- The peers a loop at branch `k` has still to visit. -/
def pend (c : Dev nD) (k : ℕ) : Finset (Dev nD) := (Finset.univ.erase c).filter fun j => k ≤ j.val
/-- and those it has visited. -/
def done (c : Dev nD) (k : ℕ) : Finset (Dev nD) := (Finset.univ.erase c).filter fun j => j.val < k

/-- Device `c`'s positions at round 0 of its own cells. -/
def positions (c : Dev nD) : sProp 𝕄 :=
  iprop(atPos ER (barCell c) 0 ∅ 0
    ∗ (bigSep Finset.univ fun j : Dev nD => atPos ER (sendCell c j) 0 ∅ 0)
    ∗ bigSep Finset.univ fun j : Dev nD => atPos ER (recvCell c j) 0 ∅ 0)

/-- The tokens of the duties device `c` pays. -/
def payToks (c : Dev nD) : sProp 𝕄 :=
  iprop((bigSep (Finset.univ.erase c) fun j : Dev nD => dutyTok ER (barCell j) 0 c)
    ∗ (bigSep (Finset.univ.erase c) fun j : Dev nD => dutyTok ER (recvCell j c) 0 c)
    ∗ bigSep (Finset.univ.erase c) fun j : Dev nD => dutyTok ER (sendCell c j) 0 j)

def ghost (K : Dev nD × KIx → ℕ) (c : Dev nD) : sProp 𝕄 := iprop(records m ρ K ∗ positions c ∗ payToks c)

/-- The credit device `c` is owed at launch. -/
def credits (c : Dev nD) : sProp 𝕄 :=
  iprop(cred (tallyAt (barCell c) () 15) ∗ bigSep (Finset.univ.erase c) fun j : Dev nD => cred (tallyAt (recvCell c j) () N))

def start (c : Dev nD) : sProp 𝕄 := iprop((∃ K, ghost m ρ K c) ∗ credits c ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers back, the thirty-two own semaphores at zero, closed. -/
def Φ₁ (c : Dev nD) : sProp 𝕄 := iprop(scratch c ∗ bigSep Finset.univ fun bj : Bool × Dev nD => semVal ((c : Thread nD τ), osem bj) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from, and what it ends with. -/
def bodyPre (K : Dev nD × KIx → ℕ) (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m ρ c) ∗ stg c cc0_stg1_0 (outAt m ρ c))

/-! ## The loops' invariants -/

/-- The word the body tests its position through. -/
abbrev posWord (c : Dev nD) : BitVec 32 := Scalar.remsi (Scalar.divsi (Dev.word c) 1#32) 16#32

/-- Signals: before branch `k`, device `c` still owes the barrier cells of the peers to come, and holds for each its
    token and the slot of its own table it will hand over. -/
def SigI (c : Dev nD) (k : ℕ) (W : Waits sig Unit) : sProp 𝕄 :=
  iprop(owes (c : Thread nD τ) (owesRecv c (Finset.univ.erase c) + owesBar (pend c k)) W
    ∗ bigSep (pend c k) fun j : Dev nD => iprop(dutyTok ER (barCell j) 0 c ∗ ∃ f, slotPts c j f))

/-- Its own slot: some contents before branch `c`, the common table after. -/
def OwnI (c : Dev nD) (k : ℕ) : sProp 𝕄 :=
  if c.val < k then slotPts c c (table m ρ) else iprop(∃ f, slotPts c c f)

/-- Sends: before branch `k`, for each peer to come the two tokens, the peer's slot `c` and the lent share of the row;
    for each peer passed the departure's credit. -/
def SndI (c : Dev nD) (k : ℕ) (W : Waits sig Unit) : sProp 𝕄 :=
  iprop(owes (c : Thread nD τ) (owesRecv c (pend c k)) W
    ∗ (bigSep (pend c k) fun j : Dev nD =>
        iprop(dutyTok ER (sendCell c j) 0 j ∗ dutyTok ER (recvCell j c) 0 c ∗ (∃ f, slotPts j c f) ∗ rowPts m ρ c (lentShare j)))
    ∗ bigSep (done c k) fun j : Dev nD => cred (tallyAt (sendCell c j) () N))

/-- Receive waits: the credit and position of the cells to come; the landed slot and the next position of those passed. -/
def RcvI (c : Dev nD) (k : ℕ) : sProp 𝕄 :=
  iprop((∃ W, owes (c : Thread nD τ) 0 W)
    ∗ (bigSep (pend c k) fun j : Dev nD => iprop(cred (tallyAt (recvCell c j) () N) ∗ atPos ER (recvCell c j) 0 ∅ 0))
    ∗ bigSep (done c k) fun j : Dev nD => iprop(slotPts c j (table m ρ) ∗ atPos ER (recvCell c j) 1 ∅ 0))

/-- Send waits, likewise: the lent share of the row comes back. -/
def SwI (c : Dev nD) (k : ℕ) : sProp 𝕄 :=
  iprop((∃ W, owes (c : Thread nD τ) 0 W)
    ∗ (bigSep (pend c k) fun j : Dev nD => iprop(cred (tallyAt (sendCell c j) () N) ∗ atPos ER (sendCell c j) 0 ∅ 0))
    ∗ bigSep (done c k) fun j : Dev nD => iprop(rowPts m ρ c (lentShare j) ∗ atPos ER (sendCell c j) 1 ∅ 0))

end Cert.KernelIdeal.Proto

end
-- ==== Proof.Sched.lean ====
import proofs.«901055_g7700000000001056_dist_softmax_colshard_i_m1024_n512_v7x_i16_bf16_1_alg».proof.Proof.Proto

/-!
# The schedule read cell by cell

The thirty-four semaphores of a device are pairwise distinct, so a cell's duties, amounts and payloads can be read off
the one-round schedule: a barrier cell has the fifteen unit duties of the other devices, send / receive cell `j` of
device `c` (`j ≠ c`) the single duty `j` of a row's credit, and the two cells `j = c` have none.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sendSem_inj : Function.Injective (sendSem : Dev nD → DmaSem sig) := by
  intro j j'; revert j j'; decide
omit [FloatOps F] in
theorem recvSem_inj : Function.Injective (recvSem : Dev nD → DmaSem sig) := by
  intro j j'; revert j j'; decide
omit [FloatOps F] in
theorem sendSem_ne_recvSem (j j' : Dev nD) : sendSem j ≠ recvSem j' := by
  revert j j'; decide

/-- A semaphore of the two arrays is not the barrier semaphore; two send (receive) semaphores agree only at the same
    index; a send semaphore is no receive semaphore. -/
theorem send_ne_bar (j : Dev nD) : (SemLoc.dma (sendSem j) : SemLoc sig) ≠ .reg barS := fun h => by cases h
theorem recv_ne_bar (j : Dev nD) : (SemLoc.dma (recvSem j) : SemLoc sig) ≠ .reg barS := fun h => by cases h
theorem send_ne_recv (j j' : Dev nD) : (SemLoc.dma (sendSem j) : SemLoc sig) ≠ .dma (recvSem j') :=
  fun h => sendSem_ne_recvSem j j' (SemLoc.dma.inj h)
theorem recv_ne_send (j j' : Dev nD) : (SemLoc.dma (recvSem j) : SemLoc sig) ≠ .dma (sendSem j') :=
  fun h => sendSem_ne_recvSem j' j (SemLoc.dma.inj h).symm

section Sched
variable (c j d : Dev nD)

theorem duties_bar : (sched (F := F) m ρ).duties (barCell c) 0 = Finset.univ.erase c := by
  dsimp only [sched]
  exact (if_pos ⟨rfl, rfl⟩).trans (if_pos rfl)
theorem duties_send (h : j ≠ c) : (sched (F := F) m ρ).duties (sendCell c j) 0 = {j} := by
  dsimp only [sched]
  refine (if_pos ⟨rfl, rfl⟩).trans ((if_neg (send_ne_bar j)).trans ?_)
  ext j'
  rw [Finset.mem_filter, Finset.mem_singleton]
  constructor
  · rintro ⟨_, _, h1 | h1⟩
    · exact (sendSem_inj (SemLoc.dma.inj h1)).symm
    · exact absurd h1 (send_ne_recv j j')
  · rintro rfl; exact ⟨Finset.mem_univ _, h, .inl rfl⟩
theorem duties_recv (h : j ≠ c) : (sched (F := F) m ρ).duties (recvCell c j) 0 = {j} := by
  dsimp only [sched]
  refine (if_pos ⟨rfl, rfl⟩).trans ((if_neg (recv_ne_bar j)).trans ?_)
  ext j'
  rw [Finset.mem_filter, Finset.mem_singleton]
  constructor
  · rintro ⟨_, _, h1 | h1⟩
    · exact absurd h1 (recv_ne_send j j')
    · exact (recvSem_inj (SemLoc.dma.inj h1)).symm
  · rintro rfl; exact ⟨Finset.mem_univ _, h, .inr rfl⟩
theorem duties_send_self : (sched (F := F) m ρ).duties (sendCell c c) 0 = ∅ := by
  dsimp only [sched]
  refine (if_pos ⟨rfl, rfl⟩).trans ((if_neg (send_ne_bar c)).trans ?_)
  ext j'
  rw [Finset.mem_filter]
  constructor
  · rintro ⟨_, hne, h1 | h1⟩
    · exact absurd (sendSem_inj (SemLoc.dma.inj h1)).symm hne
    · exact absurd h1 (send_ne_recv c j')
  · intro h; exact absurd h (Finset.notMem_empty _)
theorem duties_recv_self : (sched (F := F) m ρ).duties (recvCell c c) 0 = ∅ := by
  dsimp only [sched]
  refine (if_pos ⟨rfl, rfl⟩).trans ((if_neg (recv_ne_bar c)).trans ?_)
  ext j'
  rw [Finset.mem_filter]
  constructor
  · rintro ⟨_, hne, h1 | h1⟩
    · exact absurd h1 (recv_ne_send c j')
    · exact absurd (recvSem_inj (SemLoc.dma.inj h1)).symm hne
  · intro h; exact absurd h (Finset.notMem_empty _)
theorem duties_later (g : GSem nD τ sig) : ∀ r, 1 ≤ r → (sched (F := F) m ρ).duties g r = ∅ :=
  fun r hr => by dsimp only [sched]; rw [if_neg fun h => by omega]

theorem amount_bar : (sched (F := F) m ρ).amount (barCell c) 0 d = 1 := by dsimp only [sched]; exact if_pos rfl
theorem amount_send : (sched (F := F) m ρ).amount (sendCell c j) 0 d = N := by dsimp only [sched]; exact if_neg (send_ne_bar j)
theorem amount_recv : (sched (F := F) m ρ).amount (recvCell c j) 0 d = N := by dsimp only [sched]; exact if_neg (recv_ne_bar j)

theorem expect_bar : (sched (F := F) m ρ).expect (barCell c) 0 = 15 := by
  unfold Schedule.expect Schedule.amountOf
  rw [duties_bar, Finset.sum_congr rfl fun d _ => amount_bar m ρ c d, Finset.sum_const, Finset.card_erase_of_mem (Finset.mem_univ c),
    Finset.card_univ, Fintype.card_fin, smul_eq_mul]
  rfl
theorem expect_send (h : j ≠ c) : (sched (F := F) m ρ).expect (sendCell c j) 0 = N := by
  unfold Schedule.expect Schedule.amountOf; rw [duties_send m ρ c j h, Finset.sum_singleton, amount_send]
theorem expect_recv (h : j ≠ c) : (sched (F := F) m ρ).expect (recvCell c j) 0 = N := by
  unfold Schedule.expect Schedule.amountOf; rw [duties_recv m ρ c j h, Finset.sum_singleton, amount_recv]

theorem payload_bar : (sched (F := F) m ρ).payload (barCell c) 0 d = barPay c d := by dsimp only [sched]; exact if_pos rfl
theorem payload_send : (sched (F := F) m ρ).payload (sendCell c j) 0 j = sendPay m ρ c j := by
  dsimp only [sched]; rw [if_neg (send_ne_bar j), if_neg (send_ne_recv j j), if_pos rfl]
theorem payload_recv : (sched (F := F) m ρ).payload (recvCell c j) 0 j = recvPay m ρ c j := by
  dsimp only [sched]; rw [if_neg (recv_ne_bar j), if_pos rfl]

/-- The rest of a barrier cell's round, no duty taken: every other device's payload. -/
theorem rest_bar : bigSep ((sched (F := F) m ρ).duties (barCell c) 0 \ ∅) (fun d => (sched (F := F) m ρ).payload (barCell c) 0 d)
    = bigSep (Finset.univ.erase c) (fun d => barPay (F := F) c d) := by
  have hp : (fun d => (sched (F := F) m ρ).payload (barCell c) 0 d) = fun d => barPay (F := F) c d :=
    funext fun d => payload_bar m ρ c d
  rw [Finset.sdiff_empty, duties_bar, hp]
theorem rest_send (h : j ≠ c) : bigSep ((sched (F := F) m ρ).duties (sendCell c j) 0 \ ∅) (fun d => (sched (F := F) m ρ).payload (sendCell c j) 0 d)
    = sendPay m ρ c j := by
  rw [Finset.sdiff_empty, duties_send m ρ c j h, bigSep_singleton, payload_send]
theorem rest_recv (h : j ≠ c) : bigSep ((sched (F := F) m ρ).duties (recvCell c j) 0 \ ∅) (fun d => (sched (F := F) m ρ).payload (recvCell c j) 0 d)
    = recvPay m ρ c j := by
  rw [Finset.sdiff_empty, duties_recv m ρ c j h, bigSep_singleton, payload_recv]

end Sched

instance sched_payload_storable (g : GSem nD τ sig) (r : ℕ) (d : Dev nD) :
    BI.Storable (upEmb : UEmb _ 𝕄) ((sched (F := F) m ρ).payload g r d) := by
  show BI.Storable upEmb (if g.2 = .reg barS then barPay g.1.1 d else if g.2 = .dma (recvSem d) then recvPay m ρ g.1.1 d
    else if g.2 = .dma (sendSem d) then sendPay m ρ g.1.1 d else iprop(emp))
  unfold barPay recvPay sendPay slotPts rowPts
  (repeat' split) <;> infer_instance

end Cert.KernelIdeal.Proto

end
-- ==== Proof.Levels.lean ====
import proofs.«901055_g7700000000001056_dist_softmax_colshard_i_m1024_n512_v7x_i16_bf16_1_alg».proof.Proof.Proto
import proofs.«901055_g7700000000001056_dist_softmax_colshard_i_m1024_n512_v7x_i16_bf16_1_alg».proof.Proof.Sched

/-!
# Levels and launch credit

Barrier cells sit at level 1, receive cells at 2, send and staging cells at 0. A device waits on a staging cell owing
everything (levels 1 and 2), on its barrier cell owing only receive cells (level 2), and on its send and receive cells
owing nothing. At launch each barrier cell is owed fifteen units (one by every other device) and receive cell `j` of
device `c` a row's credit (by device `j`).
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

/-! ## Cells apart -/

omit [FloatOps F] in
theorem barCell_eq_iff {a b : Dev nD} : Iff (barCell a = barCell b) (a = b) :=
  ⟨fun h => Fin.ext (congrArg (fun g : GSem nD τ sig => g.1.1.val) h), fun h => h ▸ rfl⟩

omit [FloatOps F] in
theorem recvCell_eq_iff {a b j k : Dev nD} : Iff (recvCell a j = recvCell b k) (a = b ∧ j = k) :=
  ⟨fun h => ⟨Fin.ext (congrArg (fun g : GSem nD τ sig => g.1.1.val) h), recvSem_inj (SemLoc.dma.inj (congrArg Prod.snd h))⟩,
   fun ⟨h1, h2⟩ => h1 ▸ h2 ▸ rfl⟩

omit [FloatOps F] in
theorem recvCell_ne_barCell (a j b : Dev nD) : recvCell a j ≠ barCell b := fun h => recv_ne_bar j (congrArg Prod.snd h)

/-! ## The dues entry by entry -/

omit [FloatOps F] in
theorem owesRecv_apply (c : Dev nD) (S : Finset (Dev nD)) (g : GSem nD τ sig) (u : Unit) :
    owesRecv c S g u = ∑ j ∈ S, (if g = recvCell j c ∧ u = () then N else 0) := by
  unfold owesRecv
  rw [Finset.sum_apply, Finsupp.finset_sum_apply]
  exact Finset.sum_congr rfl fun j _ => tallyAt_apply _ _ _ _ _

omit [FloatOps F] in
theorem owesBar_apply (S : Finset (Dev nD)) (g : GSem nD τ sig) (u : Unit) :
    owesBar S g u = ∑ j ∈ S, (if g = barCell j ∧ u = () then 1 else 0) := by
  unfold owesBar
  rw [Finset.sum_apply, Finsupp.finset_sum_apply]
  exact Finset.sum_congr rfl fun j _ => tallyAt_apply _ _ _ _ _

omit [FloatOps F] in
/-- A positive entry of the receive dues sits on a receive cell. -/
theorem owesRecv_pos {c : Dev nD} {S : Finset (Dev nD)} {g : GSem nD τ sig} {u : Unit} (h : 0 < owesRecv c S g u) :
    ∃ j, g = recvCell j c := by
  rw [owesRecv_apply] at h
  obtain ⟨j, hj, hpos⟩ := Finset.sum_pos_iff.mp h
  by_cases hg : g = recvCell j c ∧ u = ()
  · exact ⟨j, hg.1⟩
  · rw [if_neg hg] at hpos; exact absurd hpos (Nat.lt_irrefl 0)

omit [FloatOps F] in
/-- A positive entry of the barrier dues sits on a barrier cell. -/
theorem owesBar_pos {S : Finset (Dev nD)} {g : GSem nD τ sig} {u : Unit} (h : 0 < owesBar S g u) :
    ∃ j, g = barCell j := by
  rw [owesBar_apply] at h
  obtain ⟨j, hj, hpos⟩ := Finset.sum_pos_iff.mp h
  by_cases hg : g = barCell j ∧ u = ()
  · exact ⟨j, hg.1⟩
  · rw [if_neg hg] at hpos; exact absurd hpos (Nat.lt_irrefl 0)

omit [FloatOps F] in
theorem O₀_pos {c : Dev nD} {g : GSem nD τ sig} {u : Unit} (h : 0 < O₀ c g u) :
    (∃ j, g = recvCell j c) ∨ (∃ j, g = barCell j) := by
  unfold O₀ at h
  rw [Pi.add_apply, Finsupp.add_apply] at h
  rcases Nat.add_pos_iff_pos_or_pos.mp h with h1 | h2
  · exact Or.inl (owesRecv_pos h1)
  · exact Or.inr (owesBar_pos h2)

omit [FloatOps F] in
theorem lv_recv (a j : Dev nD) (u : Unit) : lv (recvCell a j) u = 2 := by
  dsimp only [lv]; rw [if_neg (recv_ne_bar j), if_pos ⟨j, rfl⟩]

omit [FloatOps F] in
theorem lv_bar (a : Dev nD) (u : Unit) : lv (barCell a) u = 1 := by
  dsimp only [lv]; rw [if_pos rfl]

omit [FloatOps F] in
/-- A wait on a cell that is neither the barrier's nor a receive cell (a staging or send cell), owing the launch dues or nothing. -/
theorem mayWait_stage (c : Dev nD) (q : DmaSem sig) (hq : ∀ j : Dev nD, (SemLoc.dma q : SemLoc sig) ≠ .dma (recvSem j))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨j, rfl⟩ <;> exact Finset.mem_singleton_self _)
      (fun p hp => by
        rw [Finset.mem_singleton.mp hp]; dsimp only [lv]
        rw [if_neg (fun h => by cases h), if_neg (fun ⟨j, hj⟩ => hq j hj)])
      (fun g u hg => by
        rcases O₀_pos hg with ⟨j, rfl⟩ | ⟨j, rfl⟩
        · rw [lv_recv]; decide
        · rw [lv_bar]; decide)
  · rw [MayWait_zero]; iintro -; iempintro

omit [FloatOps F] in
/-- At its barrier wait a device owes receive credit only. -/
theorem mayWait_bar (c : Dev nD) (S : Finset (Dev nD)) :
    (levAts L lv : sProp 𝕄) ⊢ MayWait (c : Thread nD τ) (.reg barS) () (owesRecv c S) :=
  MayOwe.of_cut (L := L) (lev := lv) 1 (fun p hp => by rw [Finset.mem_singleton.mp hp, L_tc]; exact Finset.mem_singleton_self _)
    (fun g u hg => by obtain ⟨j, rfl⟩ := owesRecv_pos hg; exact Finset.mem_singleton_self _)
    (fun p hp => by rw [Finset.mem_singleton.mp hp]; exact le_of_eq (lv_bar c ()))
    (fun g u hg => by obtain ⟨j, rfl⟩ := owesRecv_pos hg; rw [lv_recv]; decide)

/-! ## The launch credit -/

omit [FloatOps F] in
/-- What device `d` owes device `c`'s barrier cell: a unit unless `d = c`. -/
theorem owed_bar (d c : Dev nD) : O₀ d (barCell c) () = if c ∈ Finset.univ.erase d then 1 else 0 := by
  unfold O₀
  rw [Pi.add_apply, Finsupp.add_apply, owesRecv_apply, owesBar_apply,
    Finset.sum_eq_zero (fun j _ => if_neg (fun h => recvCell_ne_barCell j d c h.1.symm)), Nat.zero_add,
    Finset.sum_congr rfl (fun j _ => if_congr (show (barCell c = barCell j ∧ () = ()) ↔ c = j from
      ⟨fun h => barCell_eq_iff.mp h.1, fun h => ⟨barCell_eq_iff.mpr h, rfl⟩⟩) rfl rfl),
    Finset.sum_ite_eq]

omit [FloatOps F] in
/-- What device `d` owes receive cell `j` of device `c` (`j ≠ c`): a row's credit if `d = j`. -/
theorem owed_recv (d c j : Dev nD) (h : j ≠ c) : O₀ d (recvCell c j) () = if d = j then N else 0 := by
  unfold O₀
  rw [Pi.add_apply, Finsupp.add_apply, owesRecv_apply, owesBar_apply,
    Finset.sum_eq_zero (s := Finset.univ.erase d) (f := fun k => if recvCell c j = barCell k ∧ () = () then 1 else 0)
      (fun k _ => if_neg (fun h' => recvCell_ne_barCell c j k h'.1)), Nat.add_zero]
  by_cases hd : d = j
  · subst hd
    rw [if_pos rfl, Finset.sum_congr rfl (fun k _ => if_congr (show (recvCell c d = recvCell k d ∧ () = ()) ↔ c = k from
      ⟨fun h' => (recvCell_eq_iff.mp h'.1).1, fun h' => ⟨recvCell_eq_iff.mpr ⟨h', rfl⟩, rfl⟩⟩) rfl rfl),
      Finset.sum_ite_eq, if_pos (Finset.mem_erase.mpr ⟨fun e => h e.symm, Finset.mem_univ _⟩)]
  · rw [if_neg hd]
    exact Finset.sum_eq_zero fun k _ => if_neg (fun h' => hd (recvCell_eq_iff.mp h'.1).2.symm)

omit [FloatOps F] in
theorem card_others (c : Dev nD) : (Finset.univ.filter fun d : Dev nD => c ∈ Finset.univ.erase d).card = 15 := by
  revert c; decide

omit [FloatOps F] in
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_boole, card_others]
  rfl

omit [FloatOps F] in
theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j h,
    Finset.sum_ite_eq' Finset.univ j fun _ => N, if_pos (Finset.mem_univ _)]

omit [FloatOps F] in
/-- The launch credit of device `c` holds its fifteen barrier units and a row's credit on each receive cell `j ≠ c`. -/
theorem creds (c : Dev nD) :
    (Pipeline.launchCred O₀ c : sProp 𝕄) ⊢ iprop(cred (tallyAt (barCell c) () 15) ∗ bigSep (Finset.univ.erase c) fun j : Dev nD => cred (tallyAt (recvCell c j) () N)) := by
  unfold Pipeline.launchCred
  rw [bigSep_univ_at _ (SemLoc.reg barS), launch_bar]
  refine sep_mono_right ?_
  refine (bigSep_subset (t := (Finset.univ.erase c).image fun j : Dev nD => (SemLoc.dma (recvSem j) : SemLoc sig)) ?_).trans ?_
  · intro sm hsm
    obtain ⟨j, _, rfl⟩ := Finset.mem_image.mp hsm
    exact Finset.mem_erase.mpr ⟨recv_ne_bar j, Finset.mem_univ _⟩
  · rw [bigSep_image_of_injOn (fun a _ b _ h => recvSem_inj (SemLoc.dma.inj h))]
    exact bigSep_mono fun j hj => by rw [launch_recv c j (Finset.ne_of_mem_erase hj)]; exact .refl _

end Cert.KernelIdeal.Proto

end
-- ==== Proof.Slots.lean ====
import proofs.«901055_g7700000000001056_dist_softmax_colshard_i_m1024_n512_v7x_i16_bf16_1_alg».proof.Proof.Proto
import Idealize.ShloMosaic.Lib.Pipeline.Value

/-!
# The table as sixteen slots, the row buffer as sixteen lent shares

The table's index set is the disjoint union of its sixteen rows, so holding the table whole is holding its slots one by
one; the row buffer's full share is the sixteen lent shares and a remainder. A row copied into slot `c` of any table,
and a device's own store into its slot, leave there what the common table has.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem slot_loc (c j : Dev nD) : (slotM j).view.loc (c : Thread nD τ) = (c : Thread nD τ).loc cc0_scratch1 := rfl

omit [FloatOps F] in
/-- What a copy into a slot credits a DMA semaphore: a row's credit. -/
theorem slot_amount (j : Dev nD) (s : DmaSem sig) : (slotM j).view.amount (.dma s) = N := rfl

omit [FloatOps F] in
/-- A slot's element set is its rectangle's. -/
theorem slot_set (j : Dev nD) : (slotM j).view.set = (slotRect j).set := by
  show (((View.whole cc0_scratch1 : View sig .tc _ _ _).slice (slotRect j)).reshape S1x1024 _).set = _
  rw [View.set_reshape, View.set_slice_whole]

omit [FloatOps F] in
theorem slot_disjoint (j j' : Dev nD) (h : j ≠ j') : Disjoint (slotM j).view.set (slotM j').view.set := by
  rw [slot_set, slot_set]
  refine Rect.unit_disjoint (0 : Fin 3) ?_
  have hne : j.val ≠ j'.val := fun e => h (Fin.ext e)
  show j.val + 1 ≤ j'.val ∨ j'.val + 1 ≤ j.val
  omega

omit [FloatOps F] in
theorem slot_cover : (Finset.univ.biUnion fun j : Dev nD => (slotM j).view.set) = (gM : Memref sig .tc .vmem S16x1x1024 .f32).view.set := by
  rw [show (gM : Memref sig .tc .vmem S16x1x1024 .f32).view.set = Finset.univ from View.set_whole cc0_scratch1]
  ext i
  simp only [Finset.mem_biUnion, Finset.mem_univ, true_and, iff_true]
  refine ⟨⟨(i 0).val, (i 0).isLt⟩, ?_⟩
  rw [slot_set, Rect.mem_set_unit]
  intro a
  have h1 := (i 1).isLt
  have h2 := (i 2).isLt
  match a with
  | ⟨0, _⟩ => exact ⟨Nat.le_refl _, Nat.lt_succ_self _⟩
  | ⟨1, _⟩ => exact ⟨Nat.zero_le _, h1⟩
  | ⟨2, _⟩ => exact ⟨Nat.zero_le _, h2⟩

omit [FloatOps F] in
/-- Holding the table whole is holding its sixteen slots. -/
theorem table_split (c : Dev nD) (f : Buf (Elt F) ((c : Thread nD τ).loc cc0_scratch1)) :
    (((c : Thread nD τ).loc cc0_scratch1) ↦{fullShare} f : sProp 𝕄) = bigSep Finset.univ fun j : Dev nD => slotPts c j f := by
  have hcov : (Finset.univ : Finset (Idx ((c : Thread nD τ).loc cc0_scratch1)))
      = Finset.univ.biUnion fun j : Dev nD => (slotM j).view.set := by
    rw [slot_cover]; exact (View.set_whole cc0_scratch1).symm
  rw [hcov]
  exact pointsTo_biUnion Finset.univ _ fun j _ j' _ h => slot_disjoint j j' h

omit [FloatOps F] in
/-- Slots held at different valuations join at any valuation agreeing with each on its slot. -/
theorem table_join (c : Dev nD) (g : Buf (Elt F) ((c : Thread nD τ).loc cc0_scratch1)) :
    (bigSep Finset.univ fun j : Dev nD => slotPts c j g) ⊢ (((c : Thread nD τ).loc cc0_scratch1) ↦{fullShare} g : sProp 𝕄) :=
  Entails.of_eq (table_split c g).symm

/-- What k halvings leave splits into its left half, lent, and what k + 1 halvings leave. -/
theorem row_halve (c : Dev nD) (k : ℕ) :
    (rowPts m ρ c (restShare k) : sProp 𝕄)
      = iprop(rowPts m ρ c (restShare k).left ∗ rowPts m ρ c (restShare (k + 1))) := by
  have h : (rowPts m ρ c (restShare k) : sProp 𝕄)
      ⊣⊢ iprop(rowPts m ρ c (restShare k).left ∗ rowPts m ρ c (restShare k).right) :=
    pointsTo_share (PosShare.mem_left_op_right (restShare k))
  exact BI.equiv_iff.mp ⟨h.1, h.2⟩

/-- After k halvings: the first k lent shares and the remainder. -/
theorem row_split_range (c : Dev nD) (k : ℕ) :
    (rowPts m ρ c fullShare : sProp 𝕄)
      = iprop((bigSep (Finset.range k) fun t => rowPts m ρ c (restShare t).left) ∗ rowPts m ρ c (restShare k)) := by
  induction k with
  | zero =>
    rw [Finset.range_zero, bigSep_empty]
    exact (BI.equiv_iff.mp ⟨emp_sep.1, emp_sep.2⟩).symm
  | succ k ih =>
    rw [Finset.range_add_one, bigSep_insert Finset.notMem_range_self]
    conv_lhs => rw [ih, row_halve m ρ c k]
    exact BI.Entails.antisymm (BI.sep_assoc'.trans (BI.sep_mono BI.sep_comm (BI.Entails.refl _)))
      ((BI.sep_mono BI.sep_comm (BI.Entails.refl _)).trans BI.sep_assoc)

/-- A family over the devices read through their numbers is the family over the numbers below sixteen. -/
theorem bigSep_dev_range (Ψ : ℕ → sProp 𝕄) :
    (bigSep Finset.univ fun j : Dev nD => Ψ j.val) = bigSep (Finset.range nD) Ψ := by
  have hmap : (Finset.univ : Finset (Dev nD)).map Fin.valEmbedding = Finset.range nD := by
    ext x
    simp only [Finset.mem_map, Finset.mem_univ, true_and, Fin.valEmbedding_apply, Finset.mem_range]
    exact ⟨fun ⟨a, e⟩ => e ▸ a.isLt, fun h => ⟨⟨x, h⟩, rfl⟩⟩
  rw [← hmap, bigSep_map]
  rfl

/-- The row buffer's full share: the sixteen lent shares and the remainder. -/
theorem row_split (c : Dev nD) :
    (rowPts m ρ c fullShare : sProp 𝕄) ⊣⊢ iprop((bigSep Finset.univ fun j : Dev nD => rowPts m ρ c (lentShare j)) ∗ rowPts m ρ c (restShare 16)) := by
  have h := row_split_range m ρ c 16
  rw [← bigSep_dev_range (fun t => rowPts m ρ c (restShare t).left)] at h
  exact ⟨Entails.of_eq h, Entails.of_eq h.symm⟩

theorem rowPts_full (c : Dev nD) :
    (rowPts m ρ c fullShare : sProp 𝕄) = (((c : Thread nD τ).loc cc0_scratch0) ↦{fullShare} stats m ρ c) := by
  unfold rowPts
  rw [show (sM : Memref sig .tc .vmem S1x1024 .f32).view.set = Finset.univ from View.set_whole cc0_scratch0]

omit [FloatOps F] in
/-- Where index y of slot c sits in the table: row c, column y 1. -/
theorem slot_emb (c : Dev nD) (y : S1x1024.Idx) :
    (((slotM c).view.emb y) 0 : ℕ) = c.val ∧ (((slotM c).view.emb y) 2 : ℕ) = (y 1).val := by
  have hz : Shape.reshapeEquiv (s := S1x1x1024) (s' := S1x1024) squeezes_S1x1x1024_S1x1024.numel_eq y
      = Fin.cons ⟨0, Nat.one_pos⟩ y := Shape.reshapeEquiv_cons_one _ y
  constructor
  · show c.val + 1 * ((Shape.reshapeEquiv (s := S1x1x1024) (s' := S1x1024) squeezes_S1x1x1024_S1x1024.numel_eq y) 0 : ℕ) = c.val
    rw [hz]; rfl
  · show 0 + 1 * ((Shape.reshapeEquiv (s := S1x1x1024) (s' := S1x1024) squeezes_S1x1x1024_S1x1024.numel_eq y) 2 : ℕ) = (y 1).val
    rw [hz]; show 0 + 1 * (y 1).val = (y 1).val; omega

/-- The common table on slot c is device c's row. -/
theorem slot_table (c : Dev nD) (y : S1x1024.Idx) :
    table m ρ ((slotM c).view.emb y) = stats m ρ c y := by
  obtain ⟨e0, e2⟩ := slot_emb c y
  unfold table
  have hc : (⟨(((slotM c).view.emb y) 0 : ℕ), (((slotM c).view.emb y) 0).isLt⟩ : Dev nD) = c := Fin.ext e0
  have hy : ValueIdx.ix2 (0 : Fin 1) (⟨(((slotM c).view.emb y) 2 : ℕ), (((slotM c).view.emb y) 2).isLt⟩ : Fin 1024) = y := by
    rw [ValueIdx.eq_ix2 y]
    congr 1
    · exact Subsingleton.elim _ _
    · exact Fin.ext e2
  rw [hc, hy]

/-- Device `c`'s row copied into slot `c` of device `j`'s table leaves there what the common table has. -/
theorem landed_eq (c j : Dev nD) (fd : Buf (Elt F) ((slotM c).view.loc (j : Thread nD τ))) :
    (((slotM c).view.loc (j : Thread nD τ)) ↦[(slotM c).view.set]{fullShare}
        ((slotM c).view.write (Elt F) fd ((sM : Memref sig .tc .vmem S1x1024 .f32).view.read (Elt F) (stats m ρ c)) Finset.univ) : sProp 𝕄)
      = slotPts j c (table m ρ) := by
  unfold slotPts
  refine pointsTo_congr fun i hi => ?_
  obtain ⟨y, rfl⟩ := View.exists_emb_of_mem_set _ hi
  rw [View.write_emb_of_mem _ _ (Finset.mem_univ y)]
  exact (slot_table m ρ c y).symm

/-- Device `c`'s own store of its row into its slot, likewise. -/
theorem own_store_eq (c : Dev nD) (f : Buf (Elt F) ((c : Thread nD τ).loc cc0_scratch1)) :
    slotPts c c (((gM : Memref sig .tc .vmem S16x1x1024 .f32).access (slotRect c) : View sig .tc _ _ _).write (Elt F) f
        (shapeCast S1x1x1024 (stats m ρ c) shapeCasts_S1x1024_S1x1x1024) Finset.univ)
      = slotPts c c (table m ρ) := by
  unfold slotPts
  refine pointsTo_congr fun i hi => ?_
  obtain ⟨y, rfl⟩ := View.exists_emb_of_mem_set _ hi
  rw [slot_table m ρ c y]
  show (((gM : Memref sig .tc .vmem S16x1x1024 .f32).access (slotRect c) : View sig .tc _ _ _).write (Elt F) f
      (shapeCast S1x1x1024 (stats m ρ c) shapeCasts_S1x1024_S1x1x1024) Finset.univ)
      (((gM : Memref sig .tc .vmem S16x1x1024 .f32).access (slotRect c) : View sig .tc _ _ _).emb
        (Shape.reshapeEquiv (s := S1x1x1024) (s' := S1x1024) squeezes_S1x1x1024_S1x1024.numel_eq y)) = _
  rw [View.write_emb_of_mem _ _ (Finset.mem_univ _)]
  show stats m ρ c (Shape.reshapeEquiv _ (Shape.reshapeEquiv _ y)) = stats m ρ c y
  rw [Shape.reshapeEquiv_reshapeEquiv, Shape.reshapeEquiv_self]

end Cert.KernelIdeal.Proto

end
-- ==== Proof.BrSig.lean ====
import proofs.«901055_g7700000000001056_dist_softmax_colshard_i_m1024_n512_v7x_i16_bf16_1_alg».proof.Proof.Ghost
import proofs.«901055_g7700000000001056_dist_softmax_colshard_i_m1024_n512_v7x_i16_bf16_1_alg».proof.Proof.Sched
import proofs.«901055_g7700000000001056_dist_softmax_colshard_i_m1024_n512_v7x_i16_bf16_1_alg».proof.Proof.Levels
import proofs.«901055_g7700000000001056_dist_softmax_colshard_i_m1024_n512_v7x_i16_bf16_1_alg».proof.Proof.Slots

/-!
# One branch of the signalling loop, and the barrier wait

Branch `j` of the first loop signals device `j`'s barrier semaphore when `j` is not the device itself: it pays duty
`c` of that cell with slot `j` of its own table and takes the unit off what it owes. The wait for fifteen units then
returns, from each other device `d`, slot `c` of `d`'s table.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Past its own index a device has no fewer peers to visit. -/
private theorem pend_succ_self (c : Dev nD) (k : ℕ) (hk : c.val = k) : pend c (k + 1) = pend c k := by
  ext x
  simp only [pend, Finset.mem_filter, Finset.mem_erase, Finset.mem_univ, and_true]
  constructor
  · rintro ⟨hx, hle⟩; exact ⟨hx, by omega⟩
  · rintro ⟨hx, hle⟩
    refine ⟨hx, ?_⟩
    have : x.val ≠ c.val := fun e => hx (Fin.ext e)
    omega

omit [FloatOps F] in
/-- Past a peer's index that peer is visited. -/
private theorem pend_succ_peer (c j : Dev nD) (k : ℕ) (hk : j.val = k) : pend c (k + 1) = (pend c k).erase j := by
  ext x
  simp only [pend, Finset.mem_filter, Finset.mem_erase, Finset.mem_univ, and_true]
  constructor
  · rintro ⟨hx, hle⟩
    refine ⟨?_, hx, by omega⟩
    rintro rfl; omega
  · rintro ⟨hxj, hx, hle⟩
    refine ⟨hx, ?_⟩
    have : x.val ≠ j.val := fun e => hxj (Fin.ext e)
    omega

omit [FloatOps F] in
private theorem mem_pend_self (c j : Dev nD) (k : ℕ) (hk : j.val = k) (hjc : j ≠ c) : j ∈ pend c k := by
  simp only [pend, Finset.mem_filter, Finset.mem_erase, Finset.mem_univ, and_true]
  exact ⟨hjc, by omega⟩

omit [FloatOps F] in
/-- What is owed the barrier cells of the peers to come: the visited peer's unit set apart. -/
private theorem owesBar_pick (S : Finset (Dev nD)) (j : Dev nD) (hj : j ∈ S) :
    owesBar S = owesBar (S.erase j) + tallyAt (barCell j) () 1 := by
  unfold owesBar
  rw [Finset.sum_erase_add _ _ hj]

/-- What a barrier duty hands over, spelt out. -/
private theorem payload_bar_parts (c d : Dev nD) :
    (sched (F := F) m ρ).payload (barCell c) 0 d = iprop((∃ f, slotPts (F := F) d c f) ∗ reached ER (recvCell d c) 0) := by
  rw [payload_bar]; rfl

attribute [local sl_rounds] duties_bar amount_bar payload_bar_parts expect_bar

/-- Branch `j` of the signalling loop, whatever the spelling `P` of "`j` is another device" and `dv` of the device. -/
theorem wp_sig {α : Type} (K : Dev nD × KIx → ℕ) (c j : Dev nD) (k : ℕ) (hk : j.val = k)
    (P : Prop) [Decidable P] (hP : P ↔ j ≠ c) (dv : P → Dev nD) (hdv : ∀ h, dv h = j) (W : Waits sig Unit)
    (cont : PUnit → Prog (TpuEff nD τ sig (Elt F) Λ₀ .tc) α) (Q : α → sProp 𝕄) :
    iprop(records m ρ K ∗ SigI c k W ∗ (SigI c (k + 1) W -∗ wp frame (wpE (defs₀ (F := F)) 𝒱₀ c none) Set.univ (cont ⟨⟩) Q))
      ⊢ wp frame (wpE (defs₀ (F := F)) 𝒱₀ c none) Set.univ
          ((if h : P then (do semSignalWord (dv h) barS 1#32 hamt_1; pure ⟨⟩) else pure ⟨⟩ : Prog (TpuEff nD τ sig (Elt F) Λ₀ .tc) PUnit) >>= cont) Q := by
  by_cases h : P
  · have hjc : j ≠ c := hP.1 h
    have hmem : j ∈ pend c k := mem_pend_self c j k hk hjc
    rw [dif_pos h, hdv h]
    simp only [semSignalWord, Prog.lift, Prog.bind_op, Prog.bind_ret, Prog.pure_eq_ret]
    unfold SigI
    rw [pend_succ_peer c j k hk, owesBar_pick (pend c k) j hmem, ← add_assoc]
    iintro ⟨#Hrec, ⟨HO, Hbig⟩, Hk⟩
    unfold records
    icases Hrec with ⟨#Hinvs, #Hreach⟩
    ihave #Hinv := (show bigSep Finset.univ (fun ck : Dev nD × KIx => cellInv ER (sched m ρ) (K ck) (kcell ck))
        ⊢ cellInv ER (sched m ρ) (K (j, none)) (barCell j) from bigSep_elim (Finset.mem_univ ((j, none) : Dev nD × KIx))) $$ Hinvs
    ihave #Hrb := (show bigSep Finset.univ (fun ck : Dev nD × KIx => reached ER (kcell ck) 0)
        ⊢ reached ER (barCell j) 0 from bigSep_elim (Finset.mem_univ ((j, none) : Dev nD × KIx))) $$ Hreach
    ihave #Hrr := (show bigSep Finset.univ (fun ck : Dev nD × KIx => reached ER (kcell ck) 0)
        ⊢ reached ER (recvCell c j) 0 from bigSep_elim (Finset.mem_univ ((c, some (true, j)) : Dev nD × KIx))) $$ Hreach
    ihave Hb := (Rounds.bigSep_pick (Φ := fun j : Dev nD => iprop(dutyTok ER (barCell j) 0 c ∗ ∃ f, slotPts (F := F) c j f)) hmem) $$ Hbig
    icases Hb with ⟨⟨Htok, ⟨%f, Hslot⟩⟩, Hrest⟩
    have hd' : c ∈ Finset.univ.erase j := Finset.mem_erase.mpr ⟨Ne.symm hjc, Finset.mem_univ c⟩
    sl_exec
    iapply Hk
    isplitl [HO]; · iexact HO
    iexact Hrest
  · have hjc : j = c := by
      by_contra hne; exact h (hP.2 hne)
    subst hjc
    rw [dif_neg h]
    simp only [Prog.bind_ret, Prog.pure_eq_ret]
    unfold SigI
    rw [pend_succ_self j k hk]
    iintro ⟨-, HS, Hk⟩
    iapply Hk $$ HS

/-- The wait for the fifteen units of the device's own barrier cell. -/
theorem wp_barwait {α : Type} (K : Dev nD × KIx → ℕ) (c : Dev nD) (W : Waits sig Unit)
    (cont : PUnit → Prog (TpuEff nD τ sig (Elt F) Λ₀ .tc) α) (Q : α → sProp 𝕄) :
    iprop(records m ρ K ∗ levAts L lv ∗ cred (tallyAt (barCell c) () 15) ∗ atPos ER (barCell c) 0 ∅ 0
        ∗ owes (c : Thread nD τ) (owesRecv c (Finset.univ.erase c)) W
        ∗ ((owes (c : Thread nD τ) (owesRecv c (Finset.univ.erase c)) (insert (SemLoc.reg barS, ()) W) ∗ atPos ER (barCell c) 1 ∅ 0
              ∗ bigSep (Finset.univ.erase c) (fun d => barPay (F := F) c d))
            -∗ wp frame (wpE (defs₀ (F := F)) 𝒱₀ c none) Set.univ (cont ⟨⟩) Q))
      ⊢ wp frame (wpE (defs₀ (F := F)) 𝒱₀ c none) Set.univ
          ((semWaitWord barS 15#32 hamt_15 : Prog (TpuEff nD τ sig (Elt F) Λ₀ .tc) PUnit) >>= cont) Q := by
  have hmw := mayWait_bar (F := F) c (Finset.univ.erase c)
  simp only [semWaitWord, Prog.lift, Prog.bind_op, Prog.bind_ret, Prog.pure_eq_ret]
  iintro ⟨#Hrec, Hlev, Hcred, Hat, HO, Hk⟩
  unfold records
  icases Hrec with ⟨#Hinvs, #Hreach⟩
  ihave #Hinv := (show bigSep Finset.univ (fun ck : Dev nD × KIx => cellInv ER (sched m ρ) (K ck) (kcell ck))
      ⊢ cellInv ER (sched m ρ) (K (c, none)) (barCell c) from bigSep_elim (Finset.mem_univ ((c, none) : Dev nD × KIx))) $$ Hinvs
  sl_exec
  iapply Hk
  isplitl [HO]; · iexact HO
  isplitl [Hat]; · iexact Hat
  iexact Hat_pay1

end Cert.KernelIdeal.Proto

end
-- ==== Proof.BrOwn.lean ====
import proofs.«901055_g7700000000001056_dist_softmax_colshard_i_m1024_n512_v7x_i16_bf16_1_alg».proof.Proof.Ghost
import proofs.«901055_g7700000000001056_dist_softmax_colshard_i_m1024_n512_v7x_i16_bf16_1_alg».proof.Proof.Sched
import proofs.«901055_g7700000000001056_dist_softmax_colshard_i_m1024_n512_v7x_i16_bf16_1_alg».proof.Proof.Levels
import proofs.«901055_g7700000000001056_dist_softmax_colshard_i_m1024_n512_v7x_i16_bf16_1_alg».proof.Proof.Slots

/-!
# One branch of the loop that fills the device's own slot

Branch `j` fires on device `j` only: it reads the row buffer, reads slot `j` (a dead value) and stores the row there.
The slot then holds what the common table has.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The slot's elements are those under the table's rectangle of row `j`. -/
theorem own_slot_set (j : Dev nD) :
    (slotM j).view.set = ((gM : Memref sig .tc .vmem S16x1x1024 .f32).access (slotRect j) : View sig .tc _ _ _).set := by
  exact View.set_reshape ((gM : Memref sig .tc .vmem S16x1x1024 .f32).view.slice (slotRect j)) _

omit [FloatOps F] in
/-- The zero offsets of a rank-two access, as a constant function. -/
theorem own_zero_off : (![0, 0] : Fin 2 → Nat) = fun _ => 0 := funext fun a => by fin_cases a <;> rfl

omit [FloatOps F] in
/-- A load of the whole row buffer reads its contents. -/
theorem own_read_row (f : (cc0_scratch0 : Ref sig .tc).ty.Contents (Elt F)) :
    (sM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 own_zero_off _ f

theorem wp_own {α : Type} (c j : Dev nD) (k : ℕ) (hk : j.val = k)
    (P : Prop) [Decidable P] (hP : P ↔ j = c)
    (pay : Vec F S1x1024 .f32 → FVec F S1x1x1024 .f32) (hpay : ∀ v, pay v = shapeCast S1x1x1024 v shapeCasts_S1x1024_S1x1x1024)
    (cont : PUnit → Prog (TpuEff nD τ sig (Elt F) Λ₀ .tc) α) (Q : α → sProp 𝕄) :
    iprop(rowPts m ρ c fullShare ∗ OwnI m ρ c k
        ∗ ((rowPts m ρ c fullShare ∗ OwnI m ρ c (k + 1)) -∗ wp frame (wpE (defs₀ (F := F)) 𝒱₀ c none) Set.univ (cont ⟨⟩) Q))
      ⊢ wp frame (wpE (defs₀ (F := F)) 𝒱₀ c none) Set.univ
          ((if h : P then (do
              let v263 : Vec F S1x1024 .f32 ← Prog.lift (.load sM (Rect.unit (s := S1x1024) ![0, 0] S1x1024.size inb_S1x1024_S1x1024_0_0).toLoadRect (View.loadsAt_vmem h_S1x1024))
              let v264 : Vec F S1x1x1024 .f32 ← Prog.lift (.load gM (slotRect j).toLoadRect (View.loadsAt_vmem h_S1x1x1024))
              Prog.lift (.store gM (slotRect j) (pay v263) Finset.univ (View.stores_vmem_bits_univ h_S1x1x1024 rfl) (.inl rfl))
              pure ⟨⟩) else pure ⟨⟩ : Prog (TpuEff nD τ sig (Elt F) Λ₀ .tc) PUnit) >>= cont) Q := by
  by_cases hp : P
  -- branch `j = c`: the row is read whole, the slot's dead value is read, the row is stored into the slot
  · have hjc : j = c := hP.mp hp
    subst hjc
    rw [dif_pos hp]
    simp only [Prog.lift, Prog.bind_op, Prog.bind_ret, Prog.pure_eq_ret]
    have hlt : ¬ (j.val < k) := by omega
    have hlt' : j.val < k + 1 := by omega
    unfold OwnI
    rw [if_neg hlt, if_pos hlt']
    iintro ⟨Hr, ⟨%f, Hs⟩, Hk⟩
    unfold rowPts slotPts
    iapply (wp_load 𝒱₀ (j : Thread nD τ) none Set.univ (m := sM) (View.setOn_subset_set _ _)) $$ Hr; iintro Hr
    rw [own_read_row]
    iapply (wp_load_rect 𝒱₀ (j : Thread nD τ) none Set.univ (m := gM) (r := slotRect j) (by rw [own_slot_set])) $$ Hs; iintro Hs
    iapply (wp_store 𝒱₀ (j : Thread nD τ) none Set.univ (m := gM) (r := slotRect j) (Mk := Finset.univ) (by rw [View.setOn_univ, own_slot_set])) $$ Hs; iintro Hs
    rw [hpay]
    iapply Hk
    isplitl [Hr]
    · iexact Hr
    have hst := own_store_eq m ρ j f
    unfold slotPts at hst
    rw [← hst]
    iexact Hs
  -- branch `j ≠ c`: nothing runs, and `c < k`, `c < k + 1` agree since `c ≠ k`
  · rw [dif_neg hp]
    have hne : j ≠ c := fun h => hp (hP.mpr h)
    have hv : c.val ≠ k := fun h => hne (Fin.ext (by omega))
    have hO : OwnI m ρ c (k + 1) = OwnI m ρ c k := by
      unfold OwnI
      by_cases h1 : c.val < k
      · rw [if_pos h1, if_pos (by omega)]
      · rw [if_neg h1, if_neg (by omega)]
    rw [hO]
    simp only [Prog.pure_eq_ret, Prog.bind_ret]
    iintro ⟨Hr, Ho, Hk⟩
    iapply Hk
    isplitl [Hr]
    · iexact Hr
    iexact Ho

end Cert.KernelIdeal.Proto

end
-- ==== Proof.BrSend.lean ====
import proofs.«901055_g7700000000001056_dist_softmax_colshard_i_m1024_n512_v7x_i16_bf16_1_alg».proof.Proof.Ghost
import proofs.«901055_g7700000000001056_dist_softmax_colshard_i_m1024_n512_v7x_i16_bf16_1_alg».proof.Proof.Sched
import proofs.«901055_g7700000000001056_dist_softmax_colshard_i_m1024_n512_v7x_i16_bf16_1_alg».proof.Proof.Levels
import proofs.«901055_g7700000000001056_dist_softmax_colshard_i_m1024_n512_v7x_i16_bf16_1_alg».proof.Proof.Slots

/-!
# One branch of the sending loop

Branch `j` starts, when `j` is another device, the copy of the row buffer into slot `c` of device `j`'s table: it lends
the copy the share of the row kept for it, gives up the slot device `j` handed over at the barrier, pays the landing duty
on receive cell `c` of device `j` and the departure duty on its own send cell `j`, and is credited the departure.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peers to come and the peers passed, one branch on -/

omit [FloatOps F] in
private theorem pend_succ_self (c : Dev nD) : pend c (c.val + 1) = pend c c.val := by
  ext x
  simp only [pend, Finset.mem_filter, Finset.mem_erase, Finset.mem_univ, and_true]
  constructor
  · rintro ⟨hx, hle⟩; exact ⟨hx, by omega⟩
  · rintro ⟨hx, hle⟩
    have : x.val ≠ c.val := fun e => hx (Fin.ext e)
    exact ⟨hx, by omega⟩

omit [FloatOps F] in
private theorem done_succ_self (c : Dev nD) : done c (c.val + 1) = done c c.val := by
  ext x
  simp only [done, Finset.mem_filter, Finset.mem_erase, Finset.mem_univ, and_true]
  constructor
  · rintro ⟨hx, hlt⟩
    have : x.val ≠ c.val := fun e => hx (Fin.ext e)
    exact ⟨hx, by omega⟩
  · rintro ⟨hx, hlt⟩; exact ⟨hx, by omega⟩

omit [FloatOps F] in
private theorem pend_succ (c j : Dev nD) (h : j ≠ c) : pend c j.val = insert j (pend c (j.val + 1)) := by
  ext x
  simp only [pend, Finset.mem_filter, Finset.mem_erase, Finset.mem_univ, and_true, Finset.mem_insert]
  constructor
  · rintro ⟨hx, hle⟩
    by_cases e : x = j
    · exact Or.inl e
    · have : x.val ≠ j.val := fun e' => e (Fin.ext e')
      exact Or.inr ⟨hx, by omega⟩
  · rintro (e | ⟨hx, hle⟩)
    · subst e; exact ⟨h, le_refl _⟩
    · exact ⟨hx, by omega⟩

omit [FloatOps F] in
private theorem not_mem_pend_succ (c j : Dev nD) : j ∉ pend c (j.val + 1) := by
  simp only [pend, Finset.mem_filter, not_and]
  intro _; omega

omit [FloatOps F] in
private theorem done_succ (c j : Dev nD) (h : j ≠ c) : done c (j.val + 1) = insert j (done c j.val) := by
  ext x
  simp only [done, Finset.mem_filter, Finset.mem_erase, Finset.mem_univ, and_true, Finset.mem_insert]
  constructor
  · rintro ⟨hx, hlt⟩
    by_cases e : x = j
    · exact Or.inl e
    · have : x.val ≠ j.val := fun e' => e (Fin.ext e')
      exact Or.inr ⟨hx, by omega⟩
  · rintro (e | ⟨hx, hlt⟩)
    · subst e; exact ⟨h, Nat.lt_succ_self _⟩
    · exact ⟨hx, by omega⟩

omit [FloatOps F] in
private theorem not_mem_done (c j : Dev nD) : j ∉ done c j.val := by
  simp only [done, Finset.mem_filter, not_and]
  intro _; omega

omit [FloatOps F] in
/-- What is owed the receive cells of the peers to come: the landing on peer `j` and the rest. -/
private theorem owesRecv_pend (c j : Dev nD) (h : j ≠ c) :
    owesRecv c (pend c j.val) = owesRecv c (pend c (j.val + 1)) + tallyAt (recvCell j c) () N := by
  unfold owesRecv
  rw [pend_succ c j h, Finset.sum_insert (not_mem_pend_succ c j), add_comm]

/-- A `bigSep` over a set with one more element, that element's summand first. -/
private theorem bigSep_ins {I : Type} [DecidableEq I] {s : Finset I} {i : I} (hi : i ∉ s) (Φ : I → sProp 𝕄) :
    bigSep (insert i s) Φ = iprop(Φ i ∗ bigSep s Φ) := bigSep_insert hi

/-- A cell's invariant and its round 0 reached, out of the records. -/
private theorem records_at (K : Dev nD × KIx → ℕ) (ck : Dev nD × KIx) :
    records m ρ K ⊢ iprop(cellInv ER (sched m ρ) (K ck) (kcell ck) ∗ reached ER (kcell ck) 0) := by
  unfold records
  exact BIClass.sep_mono (bigSep_elim (Finset.mem_univ ck)) (bigSep_elim (Finset.mem_univ ck))

omit [FloatOps F] in
/-- One request, then nothing, then the continuation: the request continued by it. -/
private theorem lift_then_bind {α : Type} (e : TpuEff nD τ sig (Elt F) Λ₀ .tc PUnit)
    (cont : PUnit → Prog (TpuEff nD τ sig (Elt F) Λ₀ .tc) α) :
    ((do Prog.lift e; pure ⟨⟩ : Prog (TpuEff nD τ sig (Elt F) Λ₀ .tc) PUnit) >>= cont) = Prog.op e (fun _ => cont ⟨⟩) := rfl

/-! ## The copy to a peer -/

/-- The rule for an addressed transfer whose destination the issuer holds outright, at the cells of the copy from
    device `c` to its peer `j`, the target device a variable `n` equal to `j`. -/
private theorem wp_snd_at {α : Type} (K : Dev nD × KIx → ℕ) (c j n : Dev nD) (hjc : j ≠ c) (hn : n = j)
    {hsc : ((slotM c : Memref sig .tc .vmem S1x1024 .f32) : Memref sig (Dev.tc n : Thread nD τ).2.kind .vmem S1x1024 .f32).view.ref.isScScratch = false}
    {hsrc : (sM : Memref sig .tc .vmem S1x1024 .f32).view.WordExact}
    {hdst : (slotM c : Memref sig .tc .vmem S1x1024 .f32).view.WordExact}
    {hsem : DmaTarget.Typed .vmem (.dma (recvSem c)) (.remote (Dev.tc n : Thread nD τ) (slotM c) (.dma (sendSem j)) hsc)}
    {Q : α → sProp 𝕄} {k : PUnit → Prog (TpuEff nD τ sig (Elt F) Λ₀ .tc) α}
    (fd : Buf (Elt F) ((gM : Memref sig .tc .vmem S16x1x1024 .f32).view.loc (j : Thread nD τ)))
    (O : CellTallies nD τ sig Unit) (W : Waits sig Unit) :
    iprop(cellInv ER (sched m ρ) (K (c, some (false, j))) (sendCell c j) ∗ cellInv ER (sched m ρ) (K (j, some (true, c))) (recvCell j c)
        ∗ rowPts m ρ c (lentShare j) ∗ slotPts j c fd
        ∗ owes (c : Thread nD τ) (O + tallyAt (recvCell j c) () N) W
        ∗ dutyTok ER (sendCell c j) 0 j ∗ reached ER (sendCell c j) 0
        ∗ dutyTok ER (recvCell j c) 0 c ∗ reached ER (recvCell j c) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (slotM c) (.dma (sendSem j)) hsc) (.dma (recvSem c)) hsrc hdst hsem) k) Q) := by
  subst hn
  unfold rowPts slotPts
  exact Rounds.wp_send_pointsTo 𝒱₀ ER (sched m ρ) (c : Thread nD τ) none (c' := (n : Thread nD τ))
    (src := sM) (dst := slotM c) (sS := .dma (sendSem n)) (sem := .dma (recvSem c))
    (q := lentShare n) (fs := stats m ρ c) (fd := fd)
    (κ₁ := K (c, some (false, n))) (κ₂ := K (n, some (true, c))) (r₁ := 0) (r₂ := 0) (d₁ := n) (d₂ := c)
    (by rw [duties_send m ρ c n hjc]; exact Finset.mem_singleton_self _)
    (by rw [duties_recv m ρ n c hjc.symm]; exact Finset.mem_singleton_self _)
    () () N (slot_amount c _) (amount_send m ρ c n n) (amount_recv m ρ n c c) O rfl (W := W)
    (by rw [payload_send]; unfold sendPay rowPts; exact BI.Entails.refl _)
    (by rw [payload_recv]; unfold recvPay; rw [landed_eq])
theorem wp_snd {α : Type} (K : Dev nD × KIx → ℕ) (c j : Dev nD) (k : ℕ) (hk : j.val = k)
    (P : Prop) [Decidable P] (hP : P ↔ j ≠ c) (dv : P → Dev nD) (hdv : ∀ h, dv h = j)
    (o1 : Fin 1 → Nat) (ho1 : o1 = ![c.val]) (hi1 : P → ∀ a, o1 a + S1.size a ≤ S16.size a)
    (o3 : Fin 3 → Nat) (ho3 : o3 = ![c.val, 0, 0]) (hi3 : P → ∀ a, o3 a + S1x1x1024.size a ≤ S16x1x1024.size a)
    (hsc : ∀ h : P, (((gM : Memref sig .tc .vmem S16x1x1024 .f32).slice (Rect.unit (s := S16x1x1024) o3 S1x1x1024.size (hi3 h)) (fun _ => rfl)).squeeze S1x1024 squeezes_S1x1x1024_S1x1024 :
        Memref sig (Dev.tc (dv h) : Thread nD τ).2.kind .vmem S1x1024 .f32).view.ref.isScScratch = false)
    (hsrc : (sM : Memref sig .tc .vmem S1x1024 .f32).view.WordExact)
    (hdst : ∀ h : P, (((gM : Memref sig .tc .vmem S16x1x1024 .f32).slice (Rect.unit (s := S16x1x1024) o3 S1x1x1024.size (hi3 h)) (fun _ => rfl)).squeeze S1x1024 squeezes_S1x1x1024_S1x1024 :
        Memref sig .tc .vmem S1x1024 .f32).view.WordExact)
    (hsem : ∀ h : P, DmaTarget.Typed .vmem (.dma ((cc0_scratch3.slice (Rect.unit (s := S16) o1 S1.size (hi1 h))).squeeze S_ squeezes_S1_S_).sem)
        (.remote (Dev.tc (dv h) : Thread nD τ) (((gM : Memref sig .tc .vmem S16x1x1024 .f32).slice (Rect.unit (s := S16x1x1024) o3 S1x1x1024.size (hi3 h)) (fun _ => rfl)).squeeze S1x1024 squeezes_S1x1x1024_S1x1024)
          (.dma (sendSem j)) (hsc h)))
    (W : Waits sig Unit)
    (cont : PUnit → Prog (TpuEff nD τ sig (Elt F) Λ₀ .tc) α) (Q : α → sProp 𝕄) :
    iprop(records m ρ K ∗ SndI m ρ c k W ∗ (SndI m ρ c (k + 1) W -∗ wp frame (wpE (defs₀ (F := F)) 𝒱₀ c none) Set.univ (cont ⟨⟩) Q))
      ⊢ wp frame (wpE (defs₀ (F := F)) 𝒱₀ c none) Set.univ
          ((if h : P then (do
              Prog.lift (.enqueueDma sM (.remote (Dev.tc (dv h) : Thread nD τ) (((gM : Memref sig .tc .vmem S16x1x1024 .f32).slice (Rect.unit (s := S16x1x1024) o3 S1x1x1024.size (hi3 h)) (fun _ => rfl)).squeeze S1x1024 squeezes_S1x1x1024_S1x1024)
                  (.dma (sendSem j)) (hsc h)) (.dma ((cc0_scratch3.slice (Rect.unit (s := S16) o1 S1.size (hi1 h))).squeeze S_ squeezes_S1_S_).sem) hsrc (hdst h) (hsem h))
              pure ⟨⟩) else pure ⟨⟩ : Prog (TpuEff nD τ sig (Elt F) Λ₀ .tc) PUnit) >>= cont) Q := by
  subst ho1; subst ho3
  by_cases h : P
  · have hjc : j ≠ c := hP.1 h
    have hdj : dv h = j := hdv h
    subst hk
    unfold SndI
    rw [owesRecv_pend c j hjc, pend_succ c j hjc, bigSep_ins (not_mem_pend_succ c j),
      done_succ c j hjc, bigSep_ins (not_mem_done c j), dif_pos h, lift_then_bind]
    iintro ⟨#Hrec, ⟨HO, ⟨⟨Hts, Htr, ⟨%fd, Hslot⟩, Hrow⟩, Hp⟩, Hd⟩, Hk⟩
    ihave ⟨#HIs, #HRs⟩ := (records_at m ρ K (c, some (false, j))) $$ Hrec
    ihave ⟨#HIr, #HRr⟩ := (records_at m ρ K (j, some (true, c))) $$ Hrec
    iapply (wp_snd_at m ρ K c j (dv h) hjc hdj (k := fun _ => cont ⟨⟩) fd (owesRecv c (pend c (j.val + 1))) W) $$ [HO Hts Htr Hslot Hrow]
    · isplitr; · iexact HIs
      isplitr; · iexact HIr
      isplitl [Hrow]; · iexact Hrow
      isplitl [Hslot]; · iexact Hslot
      isplitl [HO]; · iexact HO
      isplitl [Hts]; · iexact Hts
      isplitr; · iexact HRs
      isplitl [Htr]; · iexact Htr
      iexact HRr
    iintro ⟨Hc, HO⟩
    iapply Hk
    isplitl [HO]; · iexact HO
    isplitl [Hp]; · iexact Hp
    isplitl [Hc]; · iexact Hc
    iexact Hd
  · have hjc : j = c := by
      by_contra hne
      exact h (hP.2 hne)
    subst hjc; subst hk
    unfold SndI
    rw [dif_neg h, pure_bind, pend_succ_self, done_succ_self]
    iintro ⟨-, HS, Hk⟩
    iapply Hk
    iexact HS

end Cert.KernelIdeal.Proto

end
-- ==== Proof.BrWait.lean ====
import proofs.«901055_g7700000000001056_dist_softmax_colshard_i_m1024_n512_v7x_i16_bf16_1_alg».proof.Proof.Ghost
import proofs.«901055_g7700000000001056_dist_softmax_colshard_i_m1024_n512_v7x_i16_bf16_1_alg».proof.Proof.Sched
import proofs.«901055_g7700000000001056_dist_softmax_colshard_i_m1024_n512_v7x_i16_bf16_1_alg».proof.Proof.Levels
import proofs.«901055_g7700000000001056_dist_softmax_colshard_i_m1024_n512_v7x_i16_bf16_1_alg».proof.Proof.Slots

/-!
# One branch of each waiting loop, and closing the cells

Branch `j` of the receive-wait loop waits, when `j` is another device, for the row's credit on receive cell `j`: slot `j`
of the table comes back holding the common table's row. Branch `j` of the send-wait loop waits likewise on send cell
`j`: the share of the row buffer lent to that copy comes back. With both loops passed no cell of the device has a duty
left, and each closes with its counter at zero.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peers to come and the peers passed, one branch on -/

omit [FloatOps F] in
/-- Branch `j` of another device: `j` leaves the peers to come. -/
private theorem pend_step (c j : Dev nD) (k : ℕ) (hk : j.val = k) (h : j ≠ c) :
    pend c k = insert j (pend c (k + 1)) := by
  ext x
  simp only [pend, Finset.mem_filter, Finset.mem_erase, Finset.mem_univ, and_true, Finset.mem_insert]
  constructor
  · rintro ⟨hx, hkx⟩
    by_cases e : x = j
    · exact Or.inl e
    · refine Or.inr ⟨hx, ?_⟩
      have : x.val ≠ j.val := fun hv => e (Fin.ext hv)
      omega
  · rintro (rfl | ⟨hx, hkx⟩)
    · exact ⟨h, by omega⟩
    · exact ⟨hx, by omega⟩

omit [FloatOps F] in
private theorem pend_step_not (c j : Dev nD) (k : ℕ) (hk : j.val = k) : j ∉ pend c (k + 1) := by
  simp only [pend, Finset.mem_filter, Finset.mem_erase, Finset.mem_univ, and_true, not_and]
  intro _; omega

omit [FloatOps F] in
/-- and joins the peers passed. -/
private theorem done_step (c j : Dev nD) (k : ℕ) (hk : j.val = k) (h : j ≠ c) :
    done c (k + 1) = insert j (done c k) := by
  ext x
  simp only [done, Finset.mem_filter, Finset.mem_erase, Finset.mem_univ, and_true, Finset.mem_insert]
  constructor
  · rintro ⟨hx, hkx⟩
    by_cases e : x = j
    · exact Or.inl e
    · refine Or.inr ⟨hx, ?_⟩
      have : x.val ≠ j.val := fun hv => e (Fin.ext hv)
      omega
  · rintro (rfl | ⟨hx, hkx⟩)
    · exact ⟨h, by omega⟩
    · exact ⟨hx, by omega⟩

omit [FloatOps F] in
private theorem done_step_not (c j : Dev nD) (k : ℕ) (hk : j.val = k) : j ∉ done c k := by
  simp only [done, Finset.mem_filter, Finset.mem_erase, Finset.mem_univ, and_true, not_and]
  intro _; omega

omit [FloatOps F] in
/-- The device's own branch changes neither set. -/
private theorem pend_self (c : Dev nD) (k : ℕ) (hk : c.val = k) : pend c (k + 1) = pend c k := by
  ext x
  simp only [pend, Finset.mem_filter, Finset.mem_erase, Finset.mem_univ, and_true]
  constructor
  · rintro ⟨hx, hkx⟩; exact ⟨hx, by omega⟩
  · rintro ⟨hx, hkx⟩
    refine ⟨hx, ?_⟩
    have : x.val ≠ c.val := fun hv => hx (Fin.ext hv)
    omega

omit [FloatOps F] in
private theorem done_self (c : Dev nD) (k : ℕ) (hk : c.val = k) : done c (k + 1) = done c k := by
  ext x
  simp only [done, Finset.mem_filter, Finset.mem_erase, Finset.mem_univ, and_true]
  constructor
  · rintro ⟨hx, hkx⟩
    refine ⟨hx, ?_⟩
    have : x.val ≠ c.val := fun hv => hx (Fin.ext hv)
    omega
  · rintro ⟨hx, hkx⟩; exact ⟨hx, by omega⟩

/-! ## One branch of a waiting loop -/

/-- The invariant of one cell, out of the records. -/
private theorem records_cell (K : Dev nD × KIx → ℕ) (ck : Dev nD × KIx) :
    records m ρ K ⊢ cellInv ER (sched m ρ) (K ck) (kcell ck) := by
  unfold records
  exact Laws.sep_and.trans (and_elimL.trans
    (bigSep_elim (Φ := fun ck : Dev nD × KIx => cellInv ER (sched m ρ) (K ck) (kcell ck)) (Finset.mem_univ ck)))

/-- A `bigSep` over a set with one more member: that member's summand beside the rest. -/
private theorem bigSep_insert_sep {I : Type} [DecidableEq I] {s : Finset I} {i : I} (hi : i ∉ s) (Φ : I → sProp 𝕄) :
    bigSep (insert i s) Φ = iprop(Φ i ∗ bigSep s Φ) := bigSep_insert hi

theorem wp_rcvw {α : Type} (K : Dev nD × KIx → ℕ) (c j : Dev nD) (k : ℕ) (hk : j.val = k)
    (P : Prop) [Decidable P] (hP : P ↔ j ≠ c)
    (dstM : Memref sig .tc .vmem S1x1024 .f32)
    (hs : (sM : Memref sig .tc .vmem S1x1024 .f32).view.WordExact) (hd : dstM.view.WordExact)
    (cont : PUnit → Prog (TpuEff nD τ sig (Elt F) Λ₀ .tc) α) (Q : α → sProp 𝕄) :
    iprop(records m ρ K ∗ RcvI m ρ c k ∗ (RcvI m ρ c (k + 1) -∗ wp frame (wpE (defs₀ (F := F)) 𝒱₀ c none) Set.univ (cont ⟨⟩) Q))
      ⊢ wp frame (wpE (defs₀ (F := F)) 𝒱₀ c none) Set.univ
          ((if h : P then (do
              Prog.lift (.waitDma2 (recvSem j) sM dstM hs hd)
              pure ⟨⟩) else pure ⟨⟩ : Prog (TpuEff nD τ sig (Elt F) Λ₀ .tc) PUnit) >>= cont) Q := by
  by_cases h : P
  · have hjc : j ≠ c := hP.mp h
    rw [dif_pos h]
    have e : ((do Prog.lift (.waitDma2 (recvSem j) sM dstM hs hd); pure ⟨⟩ : Prog (TpuEff nD τ sig (Elt F) Λ₀ .tc) PUnit) >>= cont)
        = Prog.op (.waitDma2 (recvSem j) sM dstM hs hd) (fun _ => cont ⟨⟩) := rfl
    rw [e]
    unfold RcvI
    rw [pend_step c j k hk hjc, done_step c j k hk hjc, bigSep_insert_sep (pend_step_not c j k hk),
      bigSep_insert_sep (done_step_not c j k hk)]
    iintro ⟨#Hrec, ⟨⟨%W, HO⟩, ⟨⟨Hcr, Hat⟩, Hpend⟩, Hdone⟩, Hk⟩
    ihave #Hg := (records_cell m ρ K (c, some (true, j))) $$ Hrec
    iapply (wp_wait_rest_token 𝒱₀ ER (sched m ρ) (c : Thread nD τ) none (κ := K (c, some (true, j)))
      (w := .waitDma2 (recvSem j) sM dstM hs hd) (k' := N)
      (wpE_waitDma2_eq 𝒱₀ (c : Thread nD τ) none Set.univ) (Set.mem_univ _) ()
      (O := 0) (W := W) (R := 0) (m := 0) (T := ∅)
      (by rw [Nat.zero_add]; exact (expect_recv m ρ c j hjc).symm)) $$ [Hcr HO Hat]
    · isplitr; · iexact Hg
      isplitl [Hcr]; · iexact Hcr
      isplitl [HO]; · iexact HO
      isplitr; · rw [MayWait_zero]; iempintro
      iexact Hat
    rw [rest_recv m ρ c j hjc]
    unfold recvPay
    iintro ⟨HO, Hat, -, Hpay⟩
    iapply Hk
    isplitl [HO]; · iexists _; iexact HO
    isplitl [Hpend]; · iexact Hpend
    isplitl [Hpay Hat]
    · isplitl [Hpay]; · iexact Hpay
      iexact Hat
    iexact Hdone
  · have hjc : j = c := by by_contra hne; exact h (hP.mpr hne)
    subst hjc
    rw [dif_neg h]
    have e : ((pure ⟨⟩ : Prog (TpuEff nD τ sig (Elt F) Λ₀ .tc) PUnit) >>= cont) = cont ⟨⟩ := rfl
    rw [e]
    unfold RcvI
    rw [pend_self j k hk, done_self j k hk]
    iintro ⟨-, HI, Hk⟩
    iapply Hk
    iexact HI

theorem wp_sndw {α : Type} (K : Dev nD × KIx → ℕ) (c j : Dev nD) (k : ℕ) (hk : j.val = k)
    (P : Prop) [Decidable P] (hP : P ↔ j ≠ c)
    (srcM : P → Memref sig .tc .vmem S1x1024 .f32)
    (hs : ∀ h : P, (srcM h).view.WordExact) (hd : (sM : Memref sig .tc .vmem S1x1024 .f32).view.WordExact)
    (cont : PUnit → Prog (TpuEff nD τ sig (Elt F) Λ₀ .tc) α) (Q : α → sProp 𝕄) :
    iprop(records m ρ K ∗ SwI m ρ c k ∗ (SwI m ρ c (k + 1) -∗ wp frame (wpE (defs₀ (F := F)) 𝒱₀ c none) Set.univ (cont ⟨⟩) Q))
      ⊢ wp frame (wpE (defs₀ (F := F)) 𝒱₀ c none) Set.univ
          ((if h : P then (do
              Prog.lift (.waitDma2 (sendSem j) (srcM h) sM (hs h) hd)
              pure ⟨⟩) else pure ⟨⟩ : Prog (TpuEff nD τ sig (Elt F) Λ₀ .tc) PUnit) >>= cont) Q := by
  by_cases h : P
  · have hjc : j ≠ c := hP.mp h
    rw [dif_pos h]
    have e : ((do Prog.lift (.waitDma2 (sendSem j) (srcM h) sM (hs h) hd); pure ⟨⟩ : Prog (TpuEff nD τ sig (Elt F) Λ₀ .tc) PUnit) >>= cont)
        = Prog.op (.waitDma2 (sendSem j) (srcM h) sM (hs h) hd) (fun _ => cont ⟨⟩) := rfl
    rw [e]
    unfold SwI
    rw [pend_step c j k hk hjc, done_step c j k hk hjc, bigSep_insert_sep (pend_step_not c j k hk),
      bigSep_insert_sep (done_step_not c j k hk)]
    iintro ⟨#Hrec, ⟨⟨%W, HO⟩, ⟨⟨Hcr, Hat⟩, Hpend⟩, Hdone⟩, Hk⟩
    ihave #Hg := (records_cell m ρ K (c, some (false, j))) $$ Hrec
    iapply (wp_wait_rest_token 𝒱₀ ER (sched m ρ) (c : Thread nD τ) none (κ := K (c, some (false, j)))
      (w := .waitDma2 (sendSem j) (srcM h) sM (hs h) hd) (k' := N)
      (wpE_waitDma2_eq 𝒱₀ (c : Thread nD τ) none Set.univ) (Set.mem_univ _) ()
      (O := 0) (W := W) (R := 0) (m := 0) (T := ∅)
      (by rw [Nat.zero_add]; exact (expect_send m ρ c j hjc).symm)) $$ [Hcr HO Hat]
    · isplitr; · iexact Hg
      isplitl [Hcr]; · iexact Hcr
      isplitl [HO]; · iexact HO
      isplitr; · rw [MayWait_zero]; iempintro
      iexact Hat
    rw [rest_send m ρ c j hjc]
    unfold sendPay
    iintro ⟨HO, Hat, -, Hpay⟩
    iapply Hk
    isplitl [HO]; · iexists _; iexact HO
    isplitl [Hpend]; · iexact Hpend
    isplitl [Hpay Hat]
    · isplitl [Hpay]; · iexact Hpay
      iexact Hat
    iexact Hdone
  · have hjc : j = c := by by_contra hne; exact h (hP.mpr hne)
    subst hjc
    rw [dif_neg h]
    have e : ((pure ⟨⟩ : Prog (TpuEff nD τ sig (Elt F) Λ₀ .tc) PUnit) >>= cont) = cont ⟨⟩ := rfl
    rw [e]
    unfold SwI
    rw [pend_self j k hk, done_self j k hk]
    iintro ⟨-, HI, Hk⟩
    iapply Hk
    iexact HI

/-! ## Closing the own cells -/

/-- A cell of device `c` with no duty from round `R` on closes from the position `(R, ∅, 0)`. -/
private theorem close_cell (K : Dev nD × KIx → ℕ) (c : Dev nD) (x : KIx) (R : ℕ)
    (hR : ∀ r, R ≤ r → (sched (F := F) m ρ).duties (kcell (c, x)) r = ∅) :
    iprop(records m ρ K ∗ atPos ER (kcell (c, x)) R ∅ 0) ⊢ (|={Set.univ}=> semVal (kcell (c, x)) 0 : sProp 𝕄) := by
  iintro ⟨#Hrec, Hat⟩
  ihave #Hg := (records_cell m ρ K (c, x)) $$ Hrec
  iapply (cell_close ER (sched m ρ) (κ := K (c, x)) (g := kcell (c, x)) (Set.mem_univ _) (fun h => h) hR)
  isplitr; · iexact Hg
  iexact Hat

omit [FloatOps F] in
/-- The thirty-two own cells: send and receive, each the cell `j = c` and the fifteen others. -/
private theorem own_regroup (c : Dev nD) :
    (bigSep Finset.univ fun bj : Bool × Dev nD => semVal ((c : Thread nD τ), osem bj) 0 : sProp 𝕄)
      = iprop((semVal (sendCell c c) 0 ∗ bigSep (Finset.univ.erase c) fun j : Dev nD => semVal (sendCell c j) 0)
          ∗ (semVal (recvCell c c) 0 ∗ bigSep (Finset.univ.erase c) fun j : Dev nD => semVal (recvCell c j) 0)) := by
  have eB : (Finset.univ : Finset Bool) = {false, true} := by decide
  rw [bigSep_univ_prod, eB, bigSep_insert (by decide), bigSep_singleton,
    bigSep_univ_split c (Φ := fun j : Dev nD => semVal ((c : Thread nD τ), osem (false, j)) 0),
    bigSep_univ_split c (Φ := fun j : Dev nD => semVal ((c : Thread nD τ), osem (true, j)) 0)]
  rfl

/-- With every wait passed, the thirty-two own cells close: the fifteen used send and receive cells from round 1, the
    two cells `j = c` from round 0. -/
theorem close_own (K : Dev nD × KIx → ℕ) (c : Dev nD) :
    iprop(records m ρ K
        ∗ (bigSep (Finset.univ.erase c) fun j : Dev nD => atPos ER (sendCell c j) 1 ∅ 0) ∗ atPos ER (sendCell c c) 0 ∅ 0
        ∗ (bigSep (Finset.univ.erase c) fun j : Dev nD => atPos ER (recvCell c j) 1 ∅ 0) ∗ atPos ER (recvCell c c) 0 ∅ 0)
      ⊢ (|={Set.univ}=> bigSep Finset.univ fun bj : Bool × Dev nD => semVal ((c : Thread nD τ), osem bj) 0 : sProp 𝕄) := by
  have hS : iprop(records m ρ K ∗ bigSep (Finset.univ.erase c) fun j : Dev nD => atPos ER (sendCell c j) 1 ∅ 0)
      ⊢ (|={Set.univ}=> bigSep (Finset.univ.erase c) fun j : Dev nD => semVal (sendCell c j) 0 : sProp 𝕄) :=
    (bigSep_with_persistent (Ψ := fun j : Dev nD => iprop(|={Set.univ}=> semVal (sendCell c j) 0))
      fun j _ => close_cell m ρ K c (some (false, j)) 1 (fun r hr => duties_later m ρ _ r hr)).trans (bigSep_fupd _ _)
  have hR : iprop(records m ρ K ∗ bigSep (Finset.univ.erase c) fun j : Dev nD => atPos ER (recvCell c j) 1 ∅ 0)
      ⊢ (|={Set.univ}=> bigSep (Finset.univ.erase c) fun j : Dev nD => semVal (recvCell c j) 0 : sProp 𝕄) :=
    (bigSep_with_persistent (Ψ := fun j : Dev nD => iprop(|={Set.univ}=> semVal (recvCell c j) 0))
      fun j _ => close_cell m ρ K c (some (true, j)) 1 (fun r hr => duties_later m ρ _ r hr)).trans (bigSep_fupd _ _)
  have hSc : iprop(records m ρ K ∗ atPos ER (sendCell c c) 0 ∅ 0) ⊢ (|={Set.univ}=> semVal (sendCell c c) 0 : sProp 𝕄) :=
    close_cell m ρ K c (some (false, c)) 0 (fun r _ => by
      rcases Nat.eq_zero_or_pos r with rfl | h
      · exact duties_send_self m ρ c
      · exact duties_later m ρ _ r h)
  have hRc : iprop(records m ρ K ∗ atPos ER (recvCell c c) 0 ∅ 0) ⊢ (|={Set.univ}=> semVal (recvCell c c) 0 : sProp 𝕄) :=
    close_cell m ρ K c (some (true, c)) 0 (fun r _ => by
      rcases Nat.eq_zero_or_pos r with rfl | h
      · exact duties_recv_self m ρ c
      · exact duties_later m ρ _ r h)
  rw [own_regroup]
  iintro ⟨#Hrec, HS, HSc, HR, HRc⟩
  imod hS $$ [HS] with HS
  · isplitr; · iexact Hrec
    iexact HS
  imod hR $$ [HR] with HR
  · isplitr; · iexact Hrec
    iexact HR
  imod hSc $$ [HSc] with HSc
  · isplitr; · iexact Hrec
    iexact HSc
  imod hRc $$ [HRc] with HRc
  · isplitr; · iexact Hrec
    iexact HRc
  imodintro
  isplitl [HSc HS]
  · isplitl [HSc]; · iexact HSc
    iexact HS
  isplitl [HRc]; · iexact HRc
  iexact HR

end Cert.KernelIdeal.Proto

end
-- ==== Proof.Wrap.lean ====
import proofs.«901055_g7700000000001056_dist_softmax_colshard_i_m1024_n512_v7x_i16_bf16_1_alg».proof.Proof.BrSig
import proofs.«901055_g7700000000001056_dist_softmax_colshard_i_m1024_n512_v7x_i16_bf16_1_alg».proof.Proof.BrOwn
import proofs.«901055_g7700000000001056_dist_softmax_colshard_i_m1024_n512_v7x_i16_bf16_1_alg».proof.Proof.BrSend
import proofs.«901055_g7700000000001056_dist_softmax_colshard_i_m1024_n512_v7x_i16_bf16_1_alg».proof.Proof.BrWait

/-!
# The branch lemmas in the program's own spelling

A guarded statement in the middle of the body is spelt with the rest of the program in both arms:
`if h : P then (statement; rest) else rest`. That is `(if h : P then statement else skip); rest` by associativity of
sequencing, so each branch lemma holds in that spelling too.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Sequencing after a guarded statement is the rest of the program in both arms. -/
theorem dite_rest {E : Type → Type} {α : Type} {P : Prop} [Decidable P] (a : P → Prog E PUnit) (rest : Prog E α) :
    (if h : P then (a h >>= fun _ => rest) else rest)
      = ((if h : P then (do a h; pure ⟨⟩) else pure ⟨⟩ : Prog E PUnit) >>= fun _ => rest) := by
  by_cases h : P
  · rw [dif_pos h, dif_pos h, Prog.bind_assoc]; rfl
  · rw [dif_neg h, dif_neg h]; rfl

/-- Reading the device's position returns the device. -/
theorem wp_devId {α : Type} (c : Dev nD) (k : Dev nD → Prog (TpuEff nD τ sig (Elt F) Λ₀ .tc) α) (Q : α → sProp 𝕄) :
    wp frame (wpE (defs₀ (F := F)) 𝒱₀ c none) Set.univ (k c) Q
      ⊢ wp frame (wpE (defs₀ (F := F)) 𝒱₀ c none) Set.univ (Prog.lift .deviceId >>= k) Q := by
  rw [Prog.bind_lift, wp_deviceId]

/-- The end of a stretch: its value satisfies the postcondition. -/
theorem wp_pure {α : Type} (c : Dev nD) (a : α) (Q : α → sProp 𝕄) :
    Q a ⊢ wp frame (wpE (defs₀ (F := F)) 𝒱₀ c none) Set.univ (pure a : Prog (TpuEff nD τ sig (Elt F) Λ₀ .tc) α) Q := by
  rw [Prog.pure_eq_ret, wp_ret]
  iintro H; imodintro; iexact H

theorem wp_sig_jp {α : Type} (K : Dev nD × KIx → ℕ) (c j : Dev nD) (k : ℕ) (hk : j.val = k)
    (P : Prop) [Decidable P] (hP : P ↔ j ≠ c) (dv : P → Dev nD) (hdv : ∀ h, dv h = j) (W : Waits sig Unit)
    (rest : Prog (TpuEff nD τ sig (Elt F) Λ₀ .tc) α) (Q : α → sProp 𝕄) :
    iprop(records m ρ K ∗ SigI c k W ∗ (SigI c (k + 1) W -∗ wp frame (wpE (defs₀ (F := F)) 𝒱₀ c none) Set.univ rest Q))
      ⊢ wp frame (wpE (defs₀ (F := F)) 𝒱₀ c none) Set.univ
          (if h : P then (semSignalWord (dv h) barS 1#32 hamt_1 >>= fun _ => rest) else rest) Q := by
  rw [dite_rest (fun h => semSignalWord (dv h) barS 1#32 hamt_1) rest]
  exact wp_sig m ρ K c j k hk P hP dv hdv W (fun _ => rest) Q

theorem wp_barwait_jp {α : Type} (K : Dev nD × KIx → ℕ) (c : Dev nD) (W : Waits sig Unit)
    (rest : Prog (TpuEff nD τ sig (Elt F) Λ₀ .tc) α) (Q : α → sProp 𝕄) :
    iprop(records m ρ K ∗ levAts L lv ∗ cred (tallyAt (barCell c) () 15) ∗ atPos ER (barCell c) 0 ∅ 0
        ∗ owes (c : Thread nD τ) (owesRecv c (Finset.univ.erase c)) W
        ∗ ((owes (c : Thread nD τ) (owesRecv c (Finset.univ.erase c)) (insert (SemLoc.reg barS, ()) W) ∗ atPos ER (barCell c) 1 ∅ 0
              ∗ bigSep (Finset.univ.erase c) (fun d => barPay (F := F) c d))
            -∗ wp frame (wpE (defs₀ (F := F)) 𝒱₀ c none) Set.univ rest Q))
      ⊢ wp frame (wpE (defs₀ (F := F)) 𝒱₀ c none) Set.univ
          (semWaitWord barS 15#32 hamt_15 >>= fun _ => rest) Q :=
  wp_barwait m ρ K c W (fun _ => rest) Q

theorem wp_own_jp {α : Type} (c j : Dev nD) (k : ℕ) (hk : j.val = k)
    (P : Prop) [Decidable P] (hP : P ↔ j = c)
    (pay : Vec F S1x1024 .f32 → FVec F S1x1x1024 .f32) (hpay : ∀ v, pay v = shapeCast S1x1x1024 v shapeCasts_S1x1024_S1x1x1024)
    (rest : Prog (TpuEff nD τ sig (Elt F) Λ₀ .tc) α) (Q : α → sProp 𝕄) :
    iprop(rowPts m ρ c fullShare ∗ OwnI m ρ c k
        ∗ ((rowPts m ρ c fullShare ∗ OwnI m ρ c (k + 1)) -∗ wp frame (wpE (defs₀ (F := F)) 𝒱₀ c none) Set.univ rest Q))
      ⊢ wp frame (wpE (defs₀ (F := F)) 𝒱₀ c none) Set.univ
          (if h : P then
              (Prog.lift (.load sM (Rect.unit (s := S1x1024) ![0, 0] S1x1024.size inb_S1x1024_S1x1024_0_0).toLoadRect (View.loadsAt_vmem h_S1x1024)) >>= fun (v263 : Vec F S1x1024 .f32) =>
               Prog.lift (.load gM (slotRect j).toLoadRect (View.loadsAt_vmem h_S1x1x1024)) >>= fun (v264 : Vec F S1x1x1024 .f32) =>
               Prog.lift (.store gM (slotRect j) (pay v263) Finset.univ (View.stores_vmem_bits_univ h_S1x1x1024 rfl) (.inl rfl)) >>= fun _ => rest)
            else rest) Q := by
  have H := wp_own m ρ c j k hk P hP pay hpay (fun _ => rest) Q
  by_cases h : P
  · rw [dif_pos h] at H ⊢; exact H
  · rw [dif_neg h] at H ⊢; exact H

theorem wp_snd_jp {α : Type} (K : Dev nD × KIx → ℕ) (c j : Dev nD) (k : ℕ) (hk : j.val = k)
    (P : Prop) [Decidable P] (hP : P ↔ j ≠ c) (dv : P → Dev nD) (hdv : ∀ h, dv h = j)
    (o1 : Fin 1 → Nat) (ho1 : o1 = ![c.val]) (hi1 : P → ∀ a, o1 a + S1.size a ≤ S16.size a)
    (o3 : Fin 3 → Nat) (ho3 : o3 = ![c.val, 0, 0]) (hi3 : P → ∀ a, o3 a + S1x1x1024.size a ≤ S16x1x1024.size a)
    (hsc : ∀ h : P, (((gM : Memref sig .tc .vmem S16x1x1024 .f32).slice (Rect.unit (s := S16x1x1024) o3 S1x1x1024.size (hi3 h)) (fun _ => rfl)).squeeze S1x1024 squeezes_S1x1x1024_S1x1024 :
        Memref sig (Dev.tc (dv h) : Thread nD τ).2.kind .vmem S1x1024 .f32).view.ref.isScScratch = false)
    (hsrc : (sM : Memref sig .tc .vmem S1x1024 .f32).view.WordExact)
    (hdst : ∀ h : P, (((gM : Memref sig .tc .vmem S16x1x1024 .f32).slice (Rect.unit (s := S16x1x1024) o3 S1x1x1024.size (hi3 h)) (fun _ => rfl)).squeeze S1x1024 squeezes_S1x1x1024_S1x1024 :
        Memref sig .tc .vmem S1x1024 .f32).view.WordExact)
    (hsem : ∀ h : P, DmaTarget.Typed .vmem (.dma ((cc0_scratch3.slice (Rect.unit (s := S16) o1 S1.size (hi1 h))).squeeze S_ squeezes_S1_S_).sem)
        (.remote (Dev.tc (dv h) : Thread nD τ) (((gM : Memref sig .tc .vmem S16x1x1024 .f32).slice (Rect.unit (s := S16x1x1024) o3 S1x1x1024.size (hi3 h)) (fun _ => rfl)).squeeze S1x1024 squeezes_S1x1x1024_S1x1024)
          (.dma (sendSem j)) (hsc h)))
    (W : Waits sig Unit)
    (rest : Prog (TpuEff nD τ sig (Elt F) Λ₀ .tc) α) (Q : α → sProp 𝕄) :
    iprop(records m ρ K ∗ SndI m ρ c k W ∗ (SndI m ρ c (k + 1) W -∗ wp frame (wpE (defs₀ (F := F)) 𝒱₀ c none) Set.univ rest Q))
      ⊢ wp frame (wpE (defs₀ (F := F)) 𝒱₀ c none) Set.univ
          (if h : P then
              (Prog.lift (.enqueueDma sM (.remote (Dev.tc (dv h) : Thread nD τ) (((gM : Memref sig .tc .vmem S16x1x1024 .f32).slice (Rect.unit (s := S16x1x1024) o3 S1x1x1024.size (hi3 h)) (fun _ => rfl)).squeeze S1x1024 squeezes_S1x1x1024_S1x1024)
                  (.dma (sendSem j)) (hsc h)) (.dma ((cc0_scratch3.slice (Rect.unit (s := S16) o1 S1.size (hi1 h))).squeeze S_ squeezes_S1_S_).sem) hsrc (hdst h) (hsem h)) >>= fun _ => rest)
            else rest) Q := by
  have H := wp_snd m ρ K c j k hk P hP dv hdv o1 ho1 hi1 o3 ho3 hi3 hsc hsrc hdst hsem W (fun _ => rest) Q
  by_cases h : P
  · rw [dif_pos h] at H ⊢; exact H
  · rw [dif_neg h] at H ⊢; exact H

theorem wp_rcvw_jp {α : Type} (K : Dev nD × KIx → ℕ) (c j : Dev nD) (k : ℕ) (hk : j.val = k)
    (P : Prop) [Decidable P] (hP : P ↔ j ≠ c)
    (dstM : Memref sig .tc .vmem S1x1024 .f32)
    (hs : (sM : Memref sig .tc .vmem S1x1024 .f32).view.WordExact) (hd : dstM.view.WordExact)
    (rest : Prog (TpuEff nD τ sig (Elt F) Λ₀ .tc) α) (Q : α → sProp 𝕄) :
    iprop(records m ρ K ∗ RcvI m ρ c k ∗ (RcvI m ρ c (k + 1) -∗ wp frame (wpE (defs₀ (F := F)) 𝒱₀ c none) Set.univ rest Q))
      ⊢ wp frame (wpE (defs₀ (F := F)) 𝒱₀ c none) Set.univ
          (if h : P then (Prog.lift (.waitDma2 (recvSem j) sM dstM hs hd) >>= fun _ => rest) else rest) Q := by
  have H := wp_rcvw m ρ K c j k hk P hP dstM hs hd (fun _ => rest) Q
  by_cases h : P
  · rw [dif_pos h] at H ⊢; exact H
  · rw [dif_neg h] at H ⊢; exact H

theorem wp_sndw_jp {α : Type} (K : Dev nD × KIx → ℕ) (c j : Dev nD) (k : ℕ) (hk : j.val = k)
    (P : Prop) [Decidable P] (hP : P ↔ j ≠ c)
    (srcM : P → Memref sig .tc .vmem S1x1024 .f32)
    (hs : ∀ h : P, (srcM h).view.WordExact) (hd : (sM : Memref sig .tc .vmem S1x1024 .f32).view.WordExact)
    (rest : Prog (TpuEff nD τ sig (Elt F) Λ₀ .tc) α) (Q : α → sProp 𝕄) :
    iprop(records m ρ K ∗ SwI m ρ c k ∗ (SwI m ρ c (k + 1) -∗ wp frame (wpE (defs₀ (F := F)) 𝒱₀ c none) Set.univ rest Q))
      ⊢ wp frame (wpE (defs₀ (F := F)) 𝒱₀ c none) Set.univ
          (if h : P then (Prog.lift (.waitDma2 (sendSem j) (srcM h) sM (hs h) hd) >>= fun _ => rest) else rest) Q := by
  have H := wp_sndw m ρ K c j k hk P hP srcM hs hd (fun _ => rest) Q
  by_cases h : P
  · rw [dif_pos h] at H ⊢; exact H
  · rw [dif_neg h] at H ⊢; exact H

end Cert.KernelIdeal.Proto

end
-- ==== Proof.Stages.lean ====
import proofs.«901055_g7700000000001056_dist_softmax_colshard_i_m1024_n512_v7x_i16_bf16_1_alg».proof.Proof.Ghost
import proofs.«901055_g7700000000001056_dist_softmax_colshard_i_m1024_n512_v7x_i16_bf16_1_alg».proof.Proof.Sched
import proofs.«901055_g7700000000001056_dist_softmax_colshard_i_m1024_n512_v7x_i16_bf16_1_alg».proof.Proof.Levels
import proofs.«901055_g7700000000001056_dist_softmax_colshard_i_m1024_n512_v7x_i16_bf16_1_alg».proof.Proof.Slots

/-!
# Between the loops

What a loop's invariant is made from before its first branch and what it leaves after its last: the peers still to visit
are all the others at branch 0 and none at branch 16, and the table and the row buffer are cut into the pieces the
loops hand round and put together again.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem pend_zero (c : Dev nD) : pend c 0 = Finset.univ.erase c :=
  Finset.filter_true_of_mem fun j _ => Nat.zero_le _
omit [FloatOps F] in
theorem pend_last (c : Dev nD) : pend c 16 = ∅ :=
  Finset.filter_false_of_mem fun j _ => Nat.not_le.mpr j.isLt
omit [FloatOps F] in
theorem done_zero (c : Dev nD) : done c 0 = ∅ :=
  Finset.filter_false_of_mem fun j _ => Nat.not_lt_zero _
omit [FloatOps F] in
theorem done_last (c : Dev nD) : done c 16 = Finset.univ.erase c :=
  Finset.filter_true_of_mem fun j _ => j.isLt
omit [FloatOps F] in
theorem pend_succ (c j : Dev nD) (k : ℕ) (hk : j.val = k) : pend c (k + 1) = (pend c k).erase j := by
  ext x
  simp only [pend, Finset.mem_filter, Finset.mem_erase, Finset.mem_univ, and_true]
  constructor
  · rintro ⟨hxc, hx⟩
    exact ⟨fun e => by subst e; omega, hxc, by omega⟩
  · rintro ⟨hxj, hxc, hx⟩
    have hne : x.val ≠ j.val := fun e => hxj (Fin.ext e)
    exact ⟨hxc, by omega⟩
omit [FloatOps F] in
theorem done_succ (c j : Dev nD) (k : ℕ) (hk : j.val = k) (h : j ≠ c) : done c (k + 1) = insert j (done c k) := by
  ext x
  simp only [done, Finset.mem_filter, Finset.mem_erase, Finset.mem_univ, and_true, Finset.mem_insert]
  constructor
  · rintro ⟨hxc, hx⟩
    by_cases e : x = j
    · exact Or.inl e
    · have hne : x.val ≠ j.val := fun e' => e (Fin.ext e')
      exact Or.inr ⟨hxc, by omega⟩
  · rintro (e | ⟨hxc, hx⟩)
    · subst e; exact ⟨h, by omega⟩
    · exact ⟨hxc, by omega⟩
omit [FloatOps F] in
theorem done_succ_self (c : Dev nD) (k : ℕ) (hk : c.val = k) : done c (k + 1) = done c k := by
  ext x
  simp only [done, Finset.mem_filter, Finset.mem_erase, Finset.mem_univ, and_true]
  constructor
  · rintro ⟨hxc, hx⟩
    have hne : x.val ≠ c.val := fun e => hxc (Fin.ext e)
    exact ⟨hxc, by omega⟩
  · rintro ⟨hxc, hx⟩
    exact ⟨hxc, by omega⟩

omit [FloatOps F] in
/-- One device's term out of a conjunction over all of them. -/
theorem bigSep_univ_erase (c : Dev nD) (Φ : Dev nD → sProp 𝕄) :
    bigSep Finset.univ Φ = iprop(Φ c ∗ bigSep (Finset.univ.erase c) Φ) := bigSep_univ_at Φ c

omit [FloatOps F] in
theorem owesBar_empty : owesBar (∅ : Finset (Dev nD)) = 0 := Finset.sum_empty
omit [FloatOps F] in
theorem owesRecv_empty (c : Dev nD) : owesRecv c (∅ : Finset (Dev nD)) = 0 := Finset.sum_empty

omit [FloatOps F] in
/-- Signals, before the first branch: the launch dues, the barrier tokens, and the table cut into its slots (the own slot kept). -/
theorem sig_start (c : Dev nD) (W : Waits sig Unit) (f : Buf (Elt F) ((c : Thread nD τ).loc cc0_scratch1)) :
    iprop(owes (c : Thread nD τ) (O₀ c) W ∗ (bigSep (Finset.univ.erase c) fun j : Dev nD => dutyTok ER (barCell j) 0 c)
        ∗ (((c : Thread nD τ).loc cc0_scratch1) ↦{fullShare} f))
      ⊢ iprop(SigI (F := F) c 0 W ∗ ∃ f', slotPts c c f') := by
  have hsl : (bigSep (Finset.univ.erase c) fun j : Dev nD => slotPts (F := F) c j f)
      ⊢ bigSep (Finset.univ.erase c) fun j : Dev nD => iprop(∃ f', slotPts (F := F) c j f') :=
    bigSep_mono fun j _ =>
      (by iintro H; iexists f; iexact H : (slotPts (F := F) c j f : sProp 𝕄) ⊢ iprop(∃ f', slotPts (F := F) c j f'))
  unfold SigI
  rw [pend_zero, table_split c f, bigSep_univ_erase c, bigSep_sep']
  iintro ⟨Ho, Ht, Hc, Hs⟩
  isplitr [Hc]
  · isplitl [Ho]
    · iexact Ho
    · isplitl [Ht]
      · iexact Ht
      · iapply hsl $$ Hs
  · iexists f; iexact Hc

omit [FloatOps F] in
theorem sig_end (c : Dev nD) (W : Waits sig Unit) :
    SigI (F := F) c 16 W ⊢ owes (c : Thread nD τ) (owesRecv c (Finset.univ.erase c)) W := by
  unfold SigI
  rw [pend_last, bigSep_empty, owesBar_empty, add_zero]
  iintro ⟨Ho, -⟩
  iexact Ho

theorem own_start (c : Dev nD) : iprop(∃ f, slotPts (F := F) c c f) ⊢ OwnI m ρ c 0 := by
  unfold OwnI; rw [if_neg (Nat.not_lt_zero _)]
theorem own_end (c : Dev nD) : OwnI m ρ c 16 ⊢ slotPts c c (table m ρ) := by
  unfold OwnI; rw [if_pos c.isLt]

/-- The row buffer's full share: the share kept for the device itself, the fifteen lent ones, and the remainder. -/
theorem row_cut (c : Dev nD) :
    (rowPts m ρ c fullShare : sProp 𝕄)
      ⊣⊢ iprop((rowPts m ρ c (lentShare c) ∗ bigSep (Finset.univ.erase c) fun j : Dev nD => rowPts m ρ c (lentShare j)) ∗ rowPts m ρ c (restShare 16)) := by
  have h := row_split m ρ c
  rw [bigSep_univ_erase c] at h
  exact h

/-- Sends, before the first branch: what the barrier returned, the send and landing tokens, the row buffer cut into its
    lent shares (the share kept for the device itself and the remainder stay behind). -/
theorem snd_start (c : Dev nD) (W : Waits sig Unit) :
    iprop(owes (c : Thread nD τ) (owesRecv c (Finset.univ.erase c)) W
        ∗ (bigSep (Finset.univ.erase c) fun d : Dev nD => barPay (F := F) c d)
        ∗ (bigSep (Finset.univ.erase c) fun j : Dev nD => dutyTok ER (sendCell c j) 0 j)
        ∗ (bigSep (Finset.univ.erase c) fun j : Dev nD => dutyTok ER (recvCell j c) 0 c)
        ∗ rowPts m ρ c fullShare)
      ⊢ iprop(SndI m ρ c 0 W ∗ rowPts m ρ c (lentShare c) ∗ rowPts m ρ c (restShare 16)) := by
  have hbar : (bigSep (Finset.univ.erase c) fun d : Dev nD => barPay (F := F) c d)
      ⊢ bigSep (Finset.univ.erase c) fun j : Dev nD => iprop(∃ f, slotPts (F := F) j c f) :=
    bigSep_mono fun d _ => by unfold barPay; exact sep_and.trans and_elimL
  unfold SndI
  rw [pend_zero, done_zero, bigSep_empty, bigSep_sep', bigSep_sep', bigSep_sep']
  iintro ⟨Ho, Hb, Hs, Hr, Hrow⟩
  ihave H := (row_cut m ρ c).1 $$ Hrow
  icases H with ⟨⟨Hc, Hl⟩, Hrest⟩
  isplitr [Hc Hrest]
  · isplitl [Ho]
    · iexact Ho
    · isplitr []
      · isplitl [Hs]
        · iexact Hs
        · isplitl [Hr]
          · iexact Hr
          · isplitl [Hb]
            · iapply hbar $$ Hb
            · iexact Hl
      · iempintro
  · isplitl [Hc]
    · iexact Hc
    · iexact Hrest

theorem snd_end (c : Dev nD) (W : Waits sig Unit) :
    SndI m ρ c 16 W ⊢ iprop(owes (c : Thread nD τ) 0 W ∗ bigSep (Finset.univ.erase c) fun j : Dev nD => cred (tallyAt (sendCell c j) () N)) := by
  unfold SndI
  rw [pend_last, done_last, bigSep_empty, owesRecv_empty]
  iintro ⟨Ho, -, Hc⟩
  isplitl [Ho]
  · iexact Ho
  · iexact Hc

theorem rcv_start (c : Dev nD) (W : Waits sig Unit) :
    iprop(owes (c : Thread nD τ) 0 W ∗ (bigSep (Finset.univ.erase c) fun j : Dev nD => cred (tallyAt (recvCell c j) () N))
        ∗ (bigSep (Finset.univ.erase c) fun j : Dev nD => atPos ER (recvCell c j) 0 ∅ 0))
      ⊢ RcvI m ρ c 0 := by
  unfold RcvI
  rw [pend_zero, done_zero, bigSep_empty, bigSep_sep']
  iintro ⟨Ho, Hc, Hp⟩
  isplitl [Ho]
  · iexists W; iexact Ho
  · isplitr []
    · isplitl [Hc]
      · iexact Hc
      · iexact Hp
    · iempintro

/-- After the last landing, with the own slot, the table is whole and holds the common table. -/
theorem rcv_end (c : Dev nD) :
    iprop(RcvI m ρ c 16 ∗ slotPts c c (table m ρ))
      ⊢ iprop((∃ W, owes (c : Thread nD τ) 0 W) ∗ (((c : Thread nD τ).loc cc0_scratch1) ↦{fullShare} table m ρ)
          ∗ bigSep (Finset.univ.erase c) fun j : Dev nD => atPos ER (recvCell c j) 1 ∅ 0) := by
  unfold RcvI
  rw [pend_last, done_last, bigSep_empty, bigSep_sep', table_split c (table m ρ), bigSep_univ_erase c]
  iintro ⟨⟨Ho, -, Hs, Hp⟩, Hc⟩
  isplitl [Ho]
  · iexact Ho
  · isplitr [Hp]
    · isplitl [Hc]
      · iexact Hc
      · iexact Hs
    · iexact Hp

theorem sw_start (c : Dev nD) (W : Waits sig Unit) :
    iprop(owes (c : Thread nD τ) 0 W ∗ (bigSep (Finset.univ.erase c) fun j : Dev nD => cred (tallyAt (sendCell c j) () N))
        ∗ (bigSep (Finset.univ.erase c) fun j : Dev nD => atPos ER (sendCell c j) 0 ∅ 0))
      ⊢ SwI m ρ c 0 := by
  unfold SwI
  rw [pend_zero, done_zero, bigSep_empty, bigSep_sep']
  iintro ⟨Ho, Hc, Hp⟩
  isplitl [Ho]
  · iexists W; iexact Ho
  · isplitr []
    · isplitl [Hc]
      · iexact Hc
      · iexact Hp
    · iempintro

/-- After the last departure, with the two shares kept behind, the row buffer is whole again. -/
theorem sw_end (c : Dev nD) :
    iprop(SwI m ρ c 16 ∗ rowPts m ρ c (lentShare c) ∗ rowPts m ρ c (restShare 16))
      ⊢ iprop((∃ W, owes (c : Thread nD τ) 0 W) ∗ rowPts m ρ c fullShare
          ∗ bigSep (Finset.univ.erase c) fun j : Dev nD => atPos ER (sendCell c j) 1 ∅ 0) := by
  unfold SwI
  rw [pend_last, done_last, bigSep_empty, bigSep_sep']
  iintro ⟨⟨Ho, -, Hl, Hp⟩, Hc, Hrest⟩
  isplitl [Ho]
  · iexact Ho
  · isplitr [Hp]
    · iapply (row_cut m ρ c).2
      isplitr [Hrest]
      · isplitl [Hc]
        · iexact Hc
        · iexact Hl
      · iexact Hrest
    · iexact Hp

end Cert.KernelIdeal.Proto

end
-- ==== Proof.Conds.lean ====
import proofs.«901055_g7700000000001056_dist_softmax_colshard_i_m1024_n512_v7x_i16_bf16_1_alg».proof.Proof.Ghost

/-!
# The branch conditions, read as statements about the device

Each of the five unrolled loops over the peers `j = 0 … 15` guards its branch `j` by a comparison of the device's
position with `j`. For the three loops whose conditions are named, branch `j` is taken exactly when `j ≠ c`; the two
inline families compare the position with an arbitrary peer word, one holding exactly when `j = c`, the other exactly
when `j ≠ c`. Every fact is a finite check over the sixteen devices.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The first loop: branch `j` is taken when `j ≠ c` -/

theorem cond1_iff : ∀ c : Dev nD, (k0_cond1 c = 1#1 ↔ (0 : Dev nD) ≠ c) := by decide +kernel
theorem cond2_iff : ∀ c : Dev nD, (k0_cond2 c = 1#1 ↔ (1 : Dev nD) ≠ c) := by decide +kernel
theorem cond3_iff : ∀ c : Dev nD, (k0_cond3 c = 1#1 ↔ (2 : Dev nD) ≠ c) := by decide +kernel
theorem cond4_iff : ∀ c : Dev nD, (k0_cond4 c = 1#1 ↔ (3 : Dev nD) ≠ c) := by decide +kernel
theorem cond5_iff : ∀ c : Dev nD, (k0_cond5 c = 1#1 ↔ (4 : Dev nD) ≠ c) := by decide +kernel
theorem cond6_iff : ∀ c : Dev nD, (k0_cond6 c = 1#1 ↔ (5 : Dev nD) ≠ c) := by decide +kernel
theorem cond7_iff : ∀ c : Dev nD, (k0_cond7 c = 1#1 ↔ (6 : Dev nD) ≠ c) := by decide +kernel
theorem cond8_iff : ∀ c : Dev nD, (k0_cond8 c = 1#1 ↔ (7 : Dev nD) ≠ c) := by decide +kernel
theorem cond9_iff : ∀ c : Dev nD, (k0_cond9 c = 1#1 ↔ (8 : Dev nD) ≠ c) := by decide +kernel
theorem cond10_iff : ∀ c : Dev nD, (k0_cond10 c = 1#1 ↔ (9 : Dev nD) ≠ c) := by decide +kernel
theorem cond11_iff : ∀ c : Dev nD, (k0_cond11 c = 1#1 ↔ (10 : Dev nD) ≠ c) := by decide +kernel
theorem cond12_iff : ∀ c : Dev nD, (k0_cond12 c = 1#1 ↔ (11 : Dev nD) ≠ c) := by decide +kernel
theorem cond13_iff : ∀ c : Dev nD, (k0_cond13 c = 1#1 ↔ (12 : Dev nD) ≠ c) := by decide +kernel
theorem cond14_iff : ∀ c : Dev nD, (k0_cond14 c = 1#1 ↔ (13 : Dev nD) ≠ c) := by decide +kernel
theorem cond15_iff : ∀ c : Dev nD, (k0_cond15 c = 1#1 ↔ (14 : Dev nD) ≠ c) := by decide +kernel
theorem cond16_iff : ∀ c : Dev nD, (k0_cond16 c = 1#1 ↔ (15 : Dev nD) ≠ c) := by decide +kernel

/-! ## The third loop: branch `j` is taken when `j ≠ c` -/

theorem cond33_iff : ∀ c : Dev nD, (k0_cond33 c = 1#1 ↔ (0 : Dev nD) ≠ c) := by decide +kernel
theorem cond34_iff : ∀ c : Dev nD, (k0_cond34 c = 1#1 ↔ (1 : Dev nD) ≠ c) := by decide +kernel
theorem cond35_iff : ∀ c : Dev nD, (k0_cond35 c = 1#1 ↔ (2 : Dev nD) ≠ c) := by decide +kernel
theorem cond36_iff : ∀ c : Dev nD, (k0_cond36 c = 1#1 ↔ (3 : Dev nD) ≠ c) := by decide +kernel
theorem cond37_iff : ∀ c : Dev nD, (k0_cond37 c = 1#1 ↔ (4 : Dev nD) ≠ c) := by decide +kernel
theorem cond38_iff : ∀ c : Dev nD, (k0_cond38 c = 1#1 ↔ (5 : Dev nD) ≠ c) := by decide +kernel
theorem cond39_iff : ∀ c : Dev nD, (k0_cond39 c = 1#1 ↔ (6 : Dev nD) ≠ c) := by decide +kernel
theorem cond40_iff : ∀ c : Dev nD, (k0_cond40 c = 1#1 ↔ (7 : Dev nD) ≠ c) := by decide +kernel
theorem cond41_iff : ∀ c : Dev nD, (k0_cond41 c = 1#1 ↔ (8 : Dev nD) ≠ c) := by decide +kernel
theorem cond42_iff : ∀ c : Dev nD, (k0_cond42 c = 1#1 ↔ (9 : Dev nD) ≠ c) := by decide +kernel
theorem cond43_iff : ∀ c : Dev nD, (k0_cond43 c = 1#1 ↔ (10 : Dev nD) ≠ c) := by decide +kernel
theorem cond44_iff : ∀ c : Dev nD, (k0_cond44 c = 1#1 ↔ (11 : Dev nD) ≠ c) := by decide +kernel
theorem cond45_iff : ∀ c : Dev nD, (k0_cond45 c = 1#1 ↔ (12 : Dev nD) ≠ c) := by decide +kernel
theorem cond46_iff : ∀ c : Dev nD, (k0_cond46 c = 1#1 ↔ (13 : Dev nD) ≠ c) := by decide +kernel
theorem cond47_iff : ∀ c : Dev nD, (k0_cond47 c = 1#1 ↔ (14 : Dev nD) ≠ c) := by decide +kernel
theorem cond48_iff : ∀ c : Dev nD, (k0_cond48 c = 1#1 ↔ (15 : Dev nD) ≠ c) := by decide +kernel

/-! ## The fifth loop: branch `j` is taken when `j ≠ c` -/

theorem cond65_iff : ∀ c : Dev nD, (k0_cond65 c = 1#1 ↔ (0 : Dev nD) ≠ c) := by decide +kernel
theorem cond66_iff : ∀ c : Dev nD, (k0_cond66 c = 1#1 ↔ (1 : Dev nD) ≠ c) := by decide +kernel
theorem cond67_iff : ∀ c : Dev nD, (k0_cond67 c = 1#1 ↔ (2 : Dev nD) ≠ c) := by decide +kernel
theorem cond68_iff : ∀ c : Dev nD, (k0_cond68 c = 1#1 ↔ (3 : Dev nD) ≠ c) := by decide +kernel
theorem cond69_iff : ∀ c : Dev nD, (k0_cond69 c = 1#1 ↔ (4 : Dev nD) ≠ c) := by decide +kernel
theorem cond70_iff : ∀ c : Dev nD, (k0_cond70 c = 1#1 ↔ (5 : Dev nD) ≠ c) := by decide +kernel
theorem cond71_iff : ∀ c : Dev nD, (k0_cond71 c = 1#1 ↔ (6 : Dev nD) ≠ c) := by decide +kernel
theorem cond72_iff : ∀ c : Dev nD, (k0_cond72 c = 1#1 ↔ (7 : Dev nD) ≠ c) := by decide +kernel
theorem cond73_iff : ∀ c : Dev nD, (k0_cond73 c = 1#1 ↔ (8 : Dev nD) ≠ c) := by decide +kernel
theorem cond74_iff : ∀ c : Dev nD, (k0_cond74 c = 1#1 ↔ (9 : Dev nD) ≠ c) := by decide +kernel
theorem cond75_iff : ∀ c : Dev nD, (k0_cond75 c = 1#1 ↔ (10 : Dev nD) ≠ c) := by decide +kernel
theorem cond76_iff : ∀ c : Dev nD, (k0_cond76 c = 1#1 ↔ (11 : Dev nD) ≠ c) := by decide +kernel
theorem cond77_iff : ∀ c : Dev nD, (k0_cond77 c = 1#1 ↔ (12 : Dev nD) ≠ c) := by decide +kernel
theorem cond78_iff : ∀ c : Dev nD, (k0_cond78 c = 1#1 ↔ (13 : Dev nD) ≠ c) := by decide +kernel
theorem cond79_iff : ∀ c : Dev nD, (k0_cond79 c = 1#1 ↔ (14 : Dev nD) ≠ c) := by decide +kernel
theorem cond80_iff : ∀ c : Dev nD, (k0_cond80 c = 1#1 ↔ (15 : Dev nD) ≠ c) := by decide +kernel

/-! ## The two inline families, generic in the peer -/

theorem own_cond_iff : ∀ c j : Dev nD,
    (Scalar.cmpi .ne (Scalar.extui (Scalar.cmpi .eq (posWord c) (BitVec.ofNat 32 j.val))) 0#32 = 1#1 ↔ j = c) := by decide +kernel
theorem rcv_cond_iff : ∀ c j : Dev nD,
    (Scalar.cmpi .ne (Scalar.extui (Scalar.cmpi .ne (posWord c) (BitVec.ofNat 32 j.val))) 0#32 = 1#1 ↔ j ≠ c) := by decide +kernel

example (c : Dev nD) : (Scalar.cmpi .ne (Scalar.extui (Scalar.cmpi .eq (posWord c) 3#32)) 0#32 = 1#1 ↔ (3 : Dev nD) = c) := own_cond_iff c 3
example (c : Dev nD) : (Scalar.cmpi .ne (Scalar.extui (Scalar.cmpi .ne (posWord c) 15#32)) 0#32 = 1#1 ↔ (15 : Dev nD) ≠ c) := rcv_cond_iff c 15
example (c : Dev nD) : (Scalar.cmpi .ne (Scalar.extui (Scalar.cmpi .eq (posWord c) 0#32)) 0#32 = 1#1 ↔ (0 : Dev nD) = c) := own_cond_iff c 0

end Cert.KernelIdeal.Proto

end
-- ==== Proof.Part1.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Conds

/-!
# The body, part 1

Statements 1–60: the device reads its position and signals the devices 0 to 7.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

theorem part1 (K : Dev nD × KIx → ℕ) (c : Dev nD) (W : Waits sig Unit)
    (Q : (Σ' (d0 : Dev nD) (v2 : BitVec 32), Sems sig S_) → sProp 𝕄) :
    iprop(records m ρ K ∗ SigI c 0 W ∗ (SigI c 8 W -∗ Q ⟨c, posWord c, (SemArray.scalar (sig.barrier 0 rfl) : Sems sig S_)⟩))
      ⊢ wp frame (wpE (defs₀ (F := F)) 𝒱₀ c none) Set.univ
          (k0_part1_skel (F := F) xM (Memref.isWhole_whole _) oM (Memref.isWhole_whole _) sM (Memref.isWhole_whole _) gM (Memref.isWhole_whole _) cc0_scratch2 cc0_scratch3) Q := by
  unfold k0_part1_skel
  iintro ⟨#HR, HI, Hk⟩
  iapply (wp_devId c)
  iapply (wp_sig_jp m ρ K c (0 : Dev nD) 0 rfl _ (cond1_iff c) _ (fun h => Fin.ext k0_dev1_eq) W)
  isplitr; · iexact HR
  isplitl [HI]; · iexact HI
  iintro HI
  iapply (wp_sig_jp m ρ K c (1 : Dev nD) 1 rfl _ (cond2_iff c) _ (fun h => Fin.ext k0_dev2_eq) W)
  isplitr; · iexact HR
  isplitl [HI]; · iexact HI
  iintro HI
  iapply (wp_sig_jp m ρ K c (2 : Dev nD) 2 rfl _ (cond3_iff c) _ (fun h => Fin.ext k0_dev3_eq) W)
  isplitr; · iexact HR
  isplitl [HI]; · iexact HI
  iintro HI
  iapply (wp_sig_jp m ρ K c (3 : Dev nD) 3 rfl _ (cond4_iff c) _ (fun h => Fin.ext k0_dev4_eq) W)
  isplitr; · iexact HR
  isplitl [HI]; · iexact HI
  iintro HI
  iapply (wp_sig_jp m ρ K c (4 : Dev nD) 4 rfl _ (cond5_iff c) _ (fun h => Fin.ext k0_dev5_eq) W)
  isplitr; · iexact HR
  isplitl [HI]; · iexact HI
  iintro HI
  iapply (wp_sig_jp m ρ K c (5 : Dev nD) 5 rfl _ (cond6_iff c) _ (fun h => Fin.ext k0_dev6_eq) W)
  isplitr; · iexact HR
  isplitl [HI]; · iexact HI
  iintro HI
  iapply (wp_sig_jp m ρ K c (6 : Dev nD) 6 rfl _ (cond7_iff c) _ (fun h => Fin.ext k0_dev7_eq) W)
  isplitr; · iexact HR
  isplitl [HI]; · iexact HI
  iintro HI
  iapply (wp_sig_jp m ρ K c (7 : Dev nD) 7 rfl _ (cond8_iff c) _ (fun h => Fin.ext k0_dev8_eq) W)
  isplitr; · iexact HR
  isplitl [HI]; · iexact HI
  iintro HI
  iapply (wp_pure c)
  iapply Hk
  iexact HI

end Cert.KernelIdeal.Proto

end
-- ==== Proof.Part2.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Conds

/-!
# The body, part 2

Statements 61–120: the signals to the devices 8 to 15, then `exp x`, its row sums, and the row stored.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

omit [FloatOps F] in
/-- The zero offsets of a rank-two access, as a constant function. -/
private theorem p2_zero_off : (![0, 0] : Fin 2 → Nat) = fun _ => 0 := funext fun a => by fin_cases a <;> rfl

omit [FloatOps F] in
/-- A load of the whole block of `x` reads its contents. -/
private theorem p2_read_x (f : (cc0_stg0_0 : Ref sig .tc).ty.Contents (Elt F)) :
    (xM : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 p2_zero_off _ f

omit [FloatOps F] in
/-- A load of the whole row buffer reads its contents. -/
private theorem p2_read_row (f : (cc0_scratch0 : Ref sig .tc).ty.Contents (Elt F)) :
    (sM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 p2_zero_off _ f

omit [FloatOps F] in
/-- A store over the whole row buffer leaves what is stored. -/
private theorem p2_write_row (f w : (cc0_scratch0 : Ref sig .tc).ty.Contents (Elt F)) :
    ((sM : Memref sig .tc .vmem S1x1024 .f32).access (Rect.unit (s := S1x1024) ![0, 0] S1x1024.size inb_S1x1024_S1x1024_0_0) : View sig .tc _ _ _).write (Elt F) f w Finset.univ = w :=
  Memref.write_access_unit_zero_univ (Elt F) cc0_scratch0 p2_zero_off _ f w

/-- The load of the block of `x`, held whole at `f`: the program goes on at `f`. -/
private theorem wp_load_x {α : Type} (c : Dev nD) (f : Buf (Elt F) ((c : Thread nD τ).loc cc0_stg0_0))
    (k : Vec F S1024x512 .f32 → Prog (TpuEff nD τ sig (Elt F) Λ₀ .tc) α) (Q : α → sProp 𝕄) :
    iprop((((c : Thread nD τ).loc cc0_stg0_0) ↦{fullShare} f)
        ∗ ((((c : Thread nD τ).loc cc0_stg0_0) ↦{fullShare} f) -∗ wp frame (wpE (defs₀ (F := F)) 𝒱₀ c none) Set.univ (k f) Q))
      ⊢ wp frame (wpE (defs₀ (F := F)) 𝒱₀ c none) Set.univ
          (Prog.lift (.load xM (Rect.unit (s := S1024x512) ![0, 0] S1024x512.size inb_S1024x512_S1024x512_0_0).toLoadRect (View.loadsAt_vmem h_S1024x512)) >>= k) Q := by
  rw [Prog.bind_lift]
  iintro ⟨Hx, Hk⟩
  iapply (wp_load 𝒱₀ (c : Thread nD τ) none Set.univ (m := xM) (Finset.subset_univ _)) $$ Hx
  iintro Hx
  rw [p2_read_x]
  iapply Hk $$ Hx

/-- The load of the row buffer, held whole at `f`: the program goes on at `f`. -/
private theorem wp_load_row {α : Type} (c : Dev nD) (f : Buf (Elt F) ((c : Thread nD τ).loc cc0_scratch0))
    (k : Vec F S1x1024 .f32 → Prog (TpuEff nD τ sig (Elt F) Λ₀ .tc) α) (Q : α → sProp 𝕄) :
    iprop((((c : Thread nD τ).loc cc0_scratch0) ↦{fullShare} f)
        ∗ ((((c : Thread nD τ).loc cc0_scratch0) ↦{fullShare} f) -∗ wp frame (wpE (defs₀ (F := F)) 𝒱₀ c none) Set.univ (k f) Q))
      ⊢ wp frame (wpE (defs₀ (F := F)) 𝒱₀ c none) Set.univ
          (Prog.lift (.load sM (Rect.unit (s := S1x1024) ![0, 0] S1x1024.size inb_S1x1024_S1x1024_0_0).toLoadRect (View.loadsAt_vmem h_S1x1024)) >>= k) Q := by
  rw [Prog.bind_lift]
  iintro ⟨Hs, Hk⟩
  iapply (wp_load 𝒱₀ (c : Thread nD τ) none Set.univ (m := sM) (Finset.subset_univ _)) $$ Hs
  iintro Hs
  rw [p2_read_row]
  iapply Hk $$ Hs

/-- The store of a row `w` over the whole row buffer: it is then held whole at `w`. -/
private theorem wp_store_row {α : Type} (c : Dev nD) (f : Buf (Elt F) ((c : Thread nD τ).loc cc0_scratch0)) (w : Vec F S1x1024 .f32)
    (k : PUnit → Prog (TpuEff nD τ sig (Elt F) Λ₀ .tc) α) (Q : α → sProp 𝕄) :
    iprop((((c : Thread nD τ).loc cc0_scratch0) ↦{fullShare} f)
        ∗ ((((c : Thread nD τ).loc cc0_scratch0) ↦{fullShare} w) -∗ wp frame (wpE (defs₀ (F := F)) 𝒱₀ c none) Set.univ (k ⟨⟩) Q))
      ⊢ wp frame (wpE (defs₀ (F := F)) 𝒱₀ c none) Set.univ
          (Prog.lift (.store sM (Rect.unit (s := S1x1024) ![0, 0] S1x1024.size inb_S1x1024_S1x1024_0_0) w Finset.univ (View.stores_vmem_bits_univ h_S1x1024 rfl) (.inl rfl)) >>= k) Q := by
  rw [Prog.bind_lift]
  iintro ⟨Hs, Hk⟩
  iapply (wp_store 𝒱₀ (c : Thread nD τ) none Set.univ (m := sM) (r := Rect.unit (s := S1x1024) ![0, 0] S1x1024.size inb_S1x1024_S1x1024_0_0) (Mk := Finset.univ) (Finset.subset_univ _)) $$ Hs
  iintro Hs
  rw [p2_write_row]
  iapply Hk $$ Hs

theorem part2 (K : Dev nD × KIx → ℕ) (c : Dev nD) (W : Waits sig Unit) (f0 : Buf (Elt F) ((c : Thread nD τ).loc cc0_scratch0))
    (Q : (Σ' (v54 : FVec F S1024x512 .f32) (v60 : BitVec 32), BitVec 32) → sProp 𝕄) :
    iprop(records m ρ K ∗ SigI c 8 W ∗ (((c : Thread nD τ).loc cc0_stg0_0) ↦{fullShare} xblk m ρ c) ∗ (((c : Thread nD τ).loc cc0_scratch0) ↦{fullShare} f0)
        ∗ ((SigI c 16 W ∗ (((c : Thread nD τ).loc cc0_stg0_0) ↦{fullShare} xblk m ρ c) ∗ rowPts m ρ c fullShare)
            -∗ Q ⟨k0_pay1 (xblk m ρ c), Scalar.extui (Scalar.cmpi .eq (posWord c) 0#32), 0#32⟩))
      ⊢ wp frame (wpE (defs₀ (F := F)) 𝒱₀ c none) Set.univ
          (k0_part2_skel (F := F) xM (Memref.isWhole_whole _) oM (Memref.isWhole_whole _) sM (Memref.isWhole_whole _) gM (Memref.isWhole_whole _) cc0_scratch2 cc0_scratch3 c (posWord c) (SemArray.scalar (sig.barrier 0 rfl) : Sems sig S_)) Q := by
  unfold k0_part2_skel
  iintro ⟨#HR, HI, Hx, Hs, Hk⟩
  iapply (wp_sig_jp m ρ K c (8 : Dev nD) 8 rfl _ (cond9_iff c) _ (fun h => Fin.ext k0_dev9_eq) W)
  isplitr; · iexact HR
  isplitl [HI]; · iexact HI
  iintro HI
  iapply (wp_sig_jp m ρ K c (9 : Dev nD) 9 rfl _ (cond10_iff c) _ (fun h => Fin.ext k0_dev10_eq) W)
  isplitr; · iexact HR
  isplitl [HI]; · iexact HI
  iintro HI
  iapply (wp_sig_jp m ρ K c (10 : Dev nD) 10 rfl _ (cond11_iff c) _ (fun h => Fin.ext k0_dev11_eq) W)
  isplitr; · iexact HR
  isplitl [HI]; · iexact HI
  iintro HI
  iapply (wp_sig_jp m ρ K c (11 : Dev nD) 11 rfl _ (cond12_iff c) _ (fun h => Fin.ext k0_dev12_eq) W)
  isplitr; · iexact HR
  isplitl [HI]; · iexact HI
  iintro HI
  iapply (wp_sig_jp m ρ K c (12 : Dev nD) 12 rfl _ (cond13_iff c) _ (fun h => Fin.ext k0_dev13_eq) W)
  isplitr; · iexact HR
  isplitl [HI]; · iexact HI
  iintro HI
  iapply (wp_sig_jp m ρ K c (13 : Dev nD) 13 rfl _ (cond14_iff c) _ (fun h => Fin.ext k0_dev14_eq) W)
  isplitr; · iexact HR
  isplitl [HI]; · iexact HI
  iintro HI
  iapply (wp_sig_jp m ρ K c (14 : Dev nD) 14 rfl _ (cond15_iff c) _ (fun h => Fin.ext k0_dev15_eq) W)
  isplitr; · iexact HR
  isplitl [HI]; · iexact HI
  iintro HI
  iapply (wp_sig_jp m ρ K c (15 : Dev nD) 15 rfl _ (cond16_iff c) _ (fun h => Fin.ext k0_dev16_eq) W)
  isplitr; · iexact HR
  isplitl [HI]; · iexact HI
  iintro HI
  iapply (wp_load_x c (xblk m ρ c))
  isplitl [Hx]; · iexact Hx
  iintro Hx
  iapply (wp_load_row c f0)
  isplitl [Hs]; · iexact Hs
  iintro Hs
  iapply (wp_store_row c f0 (k0_pay2 (xblk m ρ c)))
  isplitl [Hs]; · iexact Hs
  iintro Hs
  iapply (wp_pure c)
  iapply Hk
  isplitl [HI]; · iexact HI
  isplitl [Hx]; · iexact Hx
  rw [rowPts_full]
  iexact Hs

end Cert.KernelIdeal.Proto

end
-- ==== Proof.Part3.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Conds

/-!
# The body, part 3

Statements 121–180: branches 0 to 9 of the loop that fills the device's own slot.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

theorem part3 (c : Dev nD) (Q : (Σ' (v90 : BitVec 32), BitVec 32) → sProp 𝕄) :
    iprop(rowPts m ρ c fullShare ∗ OwnI m ρ c 0
        ∗ ((rowPts m ρ c fullShare ∗ OwnI m ρ c 10) -∗ Q ⟨Scalar.extui (Scalar.cmpi .eq (posWord c) 10#32), 0#32⟩))
      ⊢ wp frame (wpE (defs₀ (F := F)) 𝒱₀ c none) Set.univ
          (k0_part3_skel (F := F) xM (Memref.isWhole_whole _) oM (Memref.isWhole_whole _) sM (Memref.isWhole_whole _) gM (Memref.isWhole_whole _) cc0_scratch2 cc0_scratch3 (posWord c) (Scalar.extui (Scalar.cmpi .eq (posWord c) 0#32)) 0#32) Q := by
  -- ten branches of the loop, each by the branch lemma at device `j` and position `k = j`; the stretch's value ends it
  unfold k0_part3_skel
  iintro ⟨Hr, Ho, Hk⟩
  iapply (wp_own_jp m ρ c (0 : Dev nD) 0 rfl _ (own_cond_iff c 0) k0_pay3 (fun v => rfl))
  isplitl [Hr]; · iexact Hr
  isplitl [Ho]; · iexact Ho
  iintro ⟨Hr, Ho⟩
  iapply (wp_own_jp m ρ c (1 : Dev nD) 1 rfl _ (own_cond_iff c 1) k0_pay4 (fun v => rfl))
  isplitl [Hr]; · iexact Hr
  isplitl [Ho]; · iexact Ho
  iintro ⟨Hr, Ho⟩
  iapply (wp_own_jp m ρ c (2 : Dev nD) 2 rfl _ (own_cond_iff c 2) k0_pay5 (fun v => rfl))
  isplitl [Hr]; · iexact Hr
  isplitl [Ho]; · iexact Ho
  iintro ⟨Hr, Ho⟩
  iapply (wp_own_jp m ρ c (3 : Dev nD) 3 rfl _ (own_cond_iff c 3) k0_pay6 (fun v => rfl))
  isplitl [Hr]; · iexact Hr
  isplitl [Ho]; · iexact Ho
  iintro ⟨Hr, Ho⟩
  iapply (wp_own_jp m ρ c (4 : Dev nD) 4 rfl _ (own_cond_iff c 4) k0_pay7 (fun v => rfl))
  isplitl [Hr]; · iexact Hr
  isplitl [Ho]; · iexact Ho
  iintro ⟨Hr, Ho⟩
  iapply (wp_own_jp m ρ c (5 : Dev nD) 5 rfl _ (own_cond_iff c 5) k0_pay8 (fun v => rfl))
  isplitl [Hr]; · iexact Hr
  isplitl [Ho]; · iexact Ho
  iintro ⟨Hr, Ho⟩
  iapply (wp_own_jp m ρ c (6 : Dev nD) 6 rfl _ (own_cond_iff c 6) k0_pay9 (fun v => rfl))
  isplitl [Hr]; · iexact Hr
  isplitl [Ho]; · iexact Ho
  iintro ⟨Hr, Ho⟩
  iapply (wp_own_jp m ρ c (7 : Dev nD) 7 rfl _ (own_cond_iff c 7) k0_pay10 (fun v => rfl))
  isplitl [Hr]; · iexact Hr
  isplitl [Ho]; · iexact Ho
  iintro ⟨Hr, Ho⟩
  iapply (wp_own_jp m ρ c (8 : Dev nD) 8 rfl _ (own_cond_iff c 8) k0_pay11 (fun v => rfl))
  isplitl [Hr]; · iexact Hr
  isplitl [Ho]; · iexact Ho
  iintro ⟨Hr, Ho⟩
  iapply (wp_own_jp m ρ c (9 : Dev nD) 9 rfl _ (own_cond_iff c 9) k0_pay12 (fun v => rfl))
  isplitl [Hr]; · iexact Hr
  isplitl [Ho]; · iexact Ho
  iintro ⟨Hr, Ho⟩
  iapply (wp_pure c)
  iapply Hk
  isplitl [Hr]; · iexact Hr
  iexact Ho

end Cert.KernelIdeal.Proto

end
-- ==== Proof.Part4.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Stages
import proofs.«901055_g7700000000001056_dist_softmax_colshard_i_m1024_n512_v7x_i16_bf16_1_alg».proof.Proof.Conds

/-!
# The body, part 4

Statements 181–240: branches 10 to 15 of the own-slot loop, the wait for the fifteen barrier units, and the copies to the devices 0 to 3.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

theorem part4 (K : Dev nD × KIx → ℕ) (c : Dev nD) (W : Waits sig Unit) (Q : BitVec 32 → sProp 𝕄) :
    iprop(records m ρ K ∗ levAts L lv ∗ rowPts m ρ c fullShare ∗ OwnI m ρ c 10
        ∗ cred (tallyAt (barCell c) () 15) ∗ atPos ER (barCell c) 0 ∅ 0
        ∗ owes (c : Thread nD τ) (owesRecv c (Finset.univ.erase c)) W
        ∗ (bigSep (Finset.univ.erase c) fun j : Dev nD => dutyTok ER (sendCell c j) 0 j)
        ∗ (bigSep (Finset.univ.erase c) fun j : Dev nD => dutyTok ER (recvCell j c) 0 c)
        ∗ ((OwnI m ρ c 16 ∗ atPos ER (barCell c) 1 ∅ 0 ∗ SndI m ρ c 4 (insert (SemLoc.reg barS, ()) W)
              ∗ rowPts m ρ c (lentShare c) ∗ rowPts m ρ c (restShare 16)) -∗ Q 4#32))
      ⊢ wp frame (wpE (defs₀ (F := F)) 𝒱₀ c none) Set.univ
          (k0_part4_skel (F := F) xM (Memref.isWhole_whole _) oM (Memref.isWhole_whole _) sM (Memref.isWhole_whole _) gM (Memref.isWhole_whole _) cc0_scratch2 cc0_scratch3 c (posWord c) (SemArray.scalar (sig.barrier 0 rfl) : Sems sig S_) (Scalar.extui (Scalar.cmpi .eq (posWord c) 10#32)) 0#32) Q := by
  unfold k0_part4_skel
  iintro ⟨#HR, HL, Hrow, Hown, Hcred, Hat, HO, Hts, Htr, Hk⟩
  iapply (wp_own_jp m ρ c (10 : Dev nD) 10 rfl _ (own_cond_iff c 10) k0_pay13 (fun _ => rfl))
  isplitl [Hrow]; · iexact Hrow
  isplitl [Hown]; · iexact Hown
  iintro ⟨Hrow, Hown⟩
  iapply (wp_own_jp m ρ c (11 : Dev nD) 11 rfl _ (own_cond_iff c 11) k0_pay14 (fun _ => rfl))
  isplitl [Hrow]; · iexact Hrow
  isplitl [Hown]; · iexact Hown
  iintro ⟨Hrow, Hown⟩
  iapply (wp_own_jp m ρ c (12 : Dev nD) 12 rfl _ (own_cond_iff c 12) k0_pay15 (fun _ => rfl))
  isplitl [Hrow]; · iexact Hrow
  isplitl [Hown]; · iexact Hown
  iintro ⟨Hrow, Hown⟩
  iapply (wp_own_jp m ρ c (13 : Dev nD) 13 rfl _ (own_cond_iff c 13) k0_pay16 (fun _ => rfl))
  isplitl [Hrow]; · iexact Hrow
  isplitl [Hown]; · iexact Hown
  iintro ⟨Hrow, Hown⟩
  iapply (wp_own_jp m ρ c (14 : Dev nD) 14 rfl _ (own_cond_iff c 14) k0_pay17 (fun _ => rfl))
  isplitl [Hrow]; · iexact Hrow
  isplitl [Hown]; · iexact Hown
  iintro ⟨Hrow, Hown⟩
  iapply (wp_own_jp m ρ c (15 : Dev nD) 15 rfl _ (own_cond_iff c 15) k0_pay18 (fun _ => rfl))
  isplitl [Hrow]; · iexact Hrow
  isplitl [Hown]; · iexact Hown
  iintro ⟨Hrow, Hown⟩
  iapply (wp_barwait_jp m ρ K c W)
  isplitr; · iexact HR
  isplitl [HL]; · iexact HL
  isplitl [Hcred]; · iexact Hcred
  isplitl [Hat]; · iexact Hat
  isplitl [HO]; · iexact HO
  iintro ⟨HO, Hat, Hbar⟩
  ihave HS := (snd_start m ρ c (insert (SemLoc.reg barS, ()) W)) $$ [HO Hbar Hts Htr Hrow]
  · isplitl [HO]; · iexact HO
    isplitl [Hbar]; · iexact Hbar
    isplitl [Hts]; · iexact Hts
    isplitl [Htr]; · iexact Htr
    iexact Hrow
  icases HS with ⟨HS, Hrc, Hrr⟩
  iapply (wp_snd_jp m ρ K c (0 : Dev nD) 0 rfl _ (cond33_iff c) _ (fun h => Fin.ext k0_dev17_eq) _ (k0_off1_eq c) _ _ (k0_off2_eq c) _ _ _ _ _ (insert (SemLoc.reg barS, ()) W))
  isplitr; · iexact HR
  isplitl [HS]; · iexact HS
  iintro HS
  iapply (wp_snd_jp m ρ K c (1 : Dev nD) 1 rfl _ (cond34_iff c) _ (fun h => Fin.ext k0_dev18_eq) _ (k0_off3_eq c) _ _ (k0_off4_eq c) _ _ _ _ _ (insert (SemLoc.reg barS, ()) W))
  isplitr; · iexact HR
  isplitl [HS]; · iexact HS
  iintro HS
  iapply (wp_snd_jp m ρ K c (2 : Dev nD) 2 rfl _ (cond35_iff c) _ (fun h => Fin.ext k0_dev19_eq) _ (k0_off5_eq c) _ _ (k0_off6_eq c) _ _ _ _ _ (insert (SemLoc.reg barS, ()) W))
  isplitr; · iexact HR
  isplitl [HS]; · iexact HS
  iintro HS
  iapply (wp_snd_jp m ρ K c (3 : Dev nD) 3 rfl _ (cond36_iff c) _ (fun h => Fin.ext k0_dev20_eq) _ (k0_off7_eq c) _ _ (k0_off8_eq c) _ _ _ _ _ (insert (SemLoc.reg barS, ()) W))
  isplitr; · iexact HR
  isplitl [HS]; · iexact HS
  iintro HS
  iapply (wp_pure c)
  iapply Hk
  isplitl [Hown]; · iexact Hown
  isplitl [Hat]; · iexact Hat
  isplitl [HS]; · iexact HS
  isplitl [Hrc]; · iexact Hrc
  iexact Hrr

end Cert.KernelIdeal.Proto

end
-- ==== Proof.Part5.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Conds

/-!
# The body, part 5

Statements 241–300: the copies to the devices 4 to 13.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

theorem part5 (K : Dev nD × KIx → ℕ) (c : Dev nD) (W : Waits sig Unit) (Q : BitVec 32 → sProp 𝕄) :
    iprop(records m ρ K ∗ SndI m ρ c 4 W ∗ (SndI m ρ c 14 W -∗ Q 14#32))
      ⊢ wp frame (wpE (defs₀ (F := F)) 𝒱₀ c none) Set.univ
          (k0_part5_skel (F := F) xM (Memref.isWhole_whole _) oM (Memref.isWhole_whole _) sM (Memref.isWhole_whole _) gM (Memref.isWhole_whole _) cc0_scratch2 cc0_scratch3 c (posWord c) 4#32) Q := by
  unfold k0_part5_skel
  iintro ⟨#HR, HI, Hk⟩
  -- the copy to device 4
  iapply (wp_snd_jp m ρ K c (4 : Dev nD) 4 rfl _ (cond37_iff c) _ (fun h => Fin.ext k0_dev21_eq)
    _ (k0_off9_eq c) _ _ (k0_off10_eq c) _ _ _ _ _ W)
  isplitr; · iexact HR
  isplitl [HI]; · iexact HI
  iintro HI
  -- the copy to device 5
  iapply (wp_snd_jp m ρ K c (5 : Dev nD) 5 rfl _ (cond38_iff c) _ (fun h => Fin.ext k0_dev22_eq)
    _ (k0_off11_eq c) _ _ (k0_off12_eq c) _ _ _ _ _ W)
  isplitr; · iexact HR
  isplitl [HI]; · iexact HI
  iintro HI
  -- the copy to device 6
  iapply (wp_snd_jp m ρ K c (6 : Dev nD) 6 rfl _ (cond39_iff c) _ (fun h => Fin.ext k0_dev23_eq)
    _ (k0_off13_eq c) _ _ (k0_off14_eq c) _ _ _ _ _ W)
  isplitr; · iexact HR
  isplitl [HI]; · iexact HI
  iintro HI
  -- the copy to device 7
  iapply (wp_snd_jp m ρ K c (7 : Dev nD) 7 rfl _ (cond40_iff c) _ (fun h => Fin.ext k0_dev24_eq)
    _ (k0_off15_eq c) _ _ (k0_off16_eq c) _ _ _ _ _ W)
  isplitr; · iexact HR
  isplitl [HI]; · iexact HI
  iintro HI
  -- the copy to device 8
  iapply (wp_snd_jp m ρ K c (8 : Dev nD) 8 rfl _ (cond41_iff c) _ (fun h => Fin.ext k0_dev25_eq)
    _ (k0_off17_eq c) _ _ (k0_off18_eq c) _ _ _ _ _ W)
  isplitr; · iexact HR
  isplitl [HI]; · iexact HI
  iintro HI
  -- the copy to device 9
  iapply (wp_snd_jp m ρ K c (9 : Dev nD) 9 rfl _ (cond42_iff c) _ (fun h => Fin.ext k0_dev26_eq)
    _ (k0_off19_eq c) _ _ (k0_off20_eq c) _ _ _ _ _ W)
  isplitr; · iexact HR
  isplitl [HI]; · iexact HI
  iintro HI
  -- the copy to device 10
  iapply (wp_snd_jp m ρ K c (10 : Dev nD) 10 rfl _ (cond43_iff c) _ (fun h => Fin.ext k0_dev27_eq)
    _ (k0_off21_eq c) _ _ (k0_off22_eq c) _ _ _ _ _ W)
  isplitr; · iexact HR
  isplitl [HI]; · iexact HI
  iintro HI
  -- the copy to device 11
  iapply (wp_snd_jp m ρ K c (11 : Dev nD) 11 rfl _ (cond44_iff c) _ (fun h => Fin.ext k0_dev28_eq)
    _ (k0_off23_eq c) _ _ (k0_off24_eq c) _ _ _ _ _ W)
  isplitr; · iexact HR
  isplitl [HI]; · iexact HI
  iintro HI
  -- the copy to device 12
  iapply (wp_snd_jp m ρ K c (12 : Dev nD) 12 rfl _ (cond45_iff c) _ (fun h => Fin.ext k0_dev29_eq)
    _ (k0_off25_eq c) _ _ (k0_off26_eq c) _ _ _ _ _ W)
  isplitr; · iexact HR
  isplitl [HI]; · iexact HI
  iintro HI
  -- the copy to device 13
  iapply (wp_snd_jp m ρ K c (13 : Dev nD) 13 rfl _ (cond46_iff c) _ (fun h => Fin.ext k0_dev30_eq)
    _ (k0_off27_eq c) _ _ (k0_off28_eq c) _ _ _ _ _ W)
  isplitr; · iexact HR
  isplitl [HI]; · iexact HI
  iintro HI
  iapply (wp_pure c)
  iapply Hk
  iexact HI

end Cert.KernelIdeal.Proto

end
-- ==== Proof.Part6.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Stages
import proofs.«901055_g7700000000001056_dist_softmax_colshard_i_m1024_n512_v7x_i16_bf16_1_alg».proof.Proof.Conds

/-!
# The body, part 6

Statements 301–360: the copies to the devices 14 and 15, `exp x` stored to the result's staging buffer, and the waits for the landings from the devices 0 to 6.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

/-- A load of the whole staging buffer of the result leaves it as it is. -/
theorem wp_load_out {α : Type} (c : Dev nD) (g : Buf (Elt F) ((c : Thread nD τ).loc cc0_stg1_0))
    (k : Vec F S1024x512 .f32 → Prog (TpuEff nD τ sig (Elt F) Λ₀ .tc) α) (Q : α → sProp 𝕄) :
    iprop((((c : Thread nD τ).loc cc0_stg1_0) ↦{fullShare} g)
        ∗ ((((c : Thread nD τ).loc cc0_stg1_0) ↦{fullShare} g)
            -∗ wp frame (wpE (defs₀ (F := F)) 𝒱₀ c none) Set.univ
                (k ((oM : Memref sig .tc .vmem S1024x512 .f32).view.readAt (Elt F) (Rect.unit (s := S1024x512) ![0, 0] S1024x512.size inb_S1024x512_S1024x512_0_0).toLoadRect g)) Q))
      ⊢ wp frame (wpE (defs₀ (F := F)) 𝒱₀ c none) Set.univ
          (Prog.lift (.load oM (Rect.unit (s := S1024x512) ![0, 0] S1024x512.size inb_S1024x512_S1024x512_0_0).toLoadRect (View.loadsAt_vmem h_S1024x512)) >>= k) Q := by
  simp only [Prog.lift, Prog.bind_op, Prog.bind_ret]
  iintro ⟨Ho, Hk⟩
  iapply (wp_load 𝒱₀ (c : Thread nD τ) none Set.univ (m := oM) (Finset.subset_univ _)) $$ Ho; iintro Ho
  iapply Hk; iexact Ho

/-- A store over the whole staging buffer of the result leaves it holding what is stored. -/
theorem wp_store_out {α : Type} (c : Dev nD) (g : Buf (Elt F) ((c : Thread nD τ).loc cc0_stg1_0)) (v : FVec F S1024x512 .f32)
    (k : PUnit → Prog (TpuEff nD τ sig (Elt F) Λ₀ .tc) α) (Q : α → sProp 𝕄) :
    iprop((((c : Thread nD τ).loc cc0_stg1_0) ↦{fullShare} g)
        ∗ ((((c : Thread nD τ).loc cc0_stg1_0) ↦{fullShare} (v : Buf (Elt F) ((c : Thread nD τ).loc cc0_stg1_0)))
            -∗ wp frame (wpE (defs₀ (F := F)) 𝒱₀ c none) Set.univ (k ⟨⟩) Q))
      ⊢ wp frame (wpE (defs₀ (F := F)) 𝒱₀ c none) Set.univ
          (Prog.lift (.store oM (Rect.unit (s := S1024x512) ![0, 0] S1024x512.size inb_S1024x512_S1024x512_0_0) v Finset.univ (View.stores_vmem_bits_univ h_S1024x512 rfl) (.inl rfl)) >>= k) Q := by
  simp only [Prog.lift, Prog.bind_op, Prog.bind_ret]
  iintro ⟨Ho, Hk⟩
  iapply (wp_store 𝒱₀ (c : Thread nD τ) none Set.univ (m := oM) (r := Rect.unit (s := S1024x512) ![0, 0] S1024x512.size inb_S1024x512_S1024x512_0_0) (Mk := Finset.univ) (Finset.subset_univ _)) $$ Ho; iintro Ho
  have e : ((oM : Memref sig .tc .vmem S1024x512 .f32).access (Rect.unit (s := S1024x512) ![0, 0] S1024x512.size inb_S1024x512_S1024x512_0_0) : View sig .tc _ _ _).write (Elt F) g v Finset.univ = v :=
    Memref.write_access_unit_zero_univ (Elt F) cc0_stg1_0 own_zero_off _ g v
  rw [e]
  iapply Hk; iexact Ho

theorem part6 (K : Dev nD × KIx → ℕ) (c : Dev nD) (W : Waits sig Unit) (g0 : Buf (Elt F) ((c : Thread nD τ).loc cc0_stg1_0))
    (Q : BitVec 32 → sProp 𝕄) :
    iprop(records m ρ K ∗ SndI m ρ c 14 W ∗ (((c : Thread nD τ).loc cc0_stg1_0) ↦{fullShare} g0)
        ∗ (bigSep (Finset.univ.erase c) fun j : Dev nD => cred (tallyAt (recvCell c j) () N))
        ∗ (bigSep (Finset.univ.erase c) fun j : Dev nD => atPos ER (recvCell c j) 0 ∅ 0)
        ∗ (((bigSep (Finset.univ.erase c) fun j : Dev nD => cred (tallyAt (sendCell c j) () N))
              ∗ (((c : Thread nD τ).loc cc0_stg1_0) ↦{fullShare} (k0_pay1 (xblk m ρ c) : Buf (Elt F) ((c : Thread nD τ).loc cc0_stg1_0)))
              ∗ RcvI m ρ c 7) -∗ Q (Scalar.extui (Scalar.cmpi .ne (posWord c) 7#32))))
      ⊢ wp frame (wpE (defs₀ (F := F)) 𝒱₀ c none) Set.univ
          (k0_part6_skel (F := F) xM (Memref.isWhole_whole _) oM (Memref.isWhole_whole _) sM (Memref.isWhole_whole _) gM (Memref.isWhole_whole _) cc0_scratch2 cc0_scratch3 c (posWord c) (k0_pay1 (xblk m ρ c)) 14#32) Q := by
  unfold k0_part6_skel
  iintro ⟨#HR, HI, Ho, Hrc, Hrp, Hk⟩
  iapply (wp_snd_jp m ρ K c (14 : Dev nD) 14 rfl _ (cond47_iff c) _ (fun h => Fin.ext k0_dev31_eq) _ (k0_off29_eq c) _ _ (k0_off30_eq c) _ _ _ _ _ W)
  isplitr; · iexact HR
  isplitl [HI]; · iexact HI
  iintro HI
  iapply (wp_snd_jp m ρ K c (15 : Dev nD) 15 rfl _ (cond48_iff c) _ (fun h => Fin.ext k0_dev32_eq) _ (k0_off31_eq c) _ _ (k0_off32_eq c) _ _ _ _ _ W)
  isplitr; · iexact HR
  isplitl [HI]; · iexact HI
  iintro HI
  ihave H := (snd_end m ρ c W) $$ HI
  icases H with ⟨Hw, Hsc⟩
  iapply (wp_load_out c g0)
  isplitl [Ho]; · iexact Ho
  iintro Ho
  iapply (wp_store_out c g0 (k0_pay1 (xblk m ρ c)))
  isplitl [Ho]; · iexact Ho
  iintro Ho
  ihave HV := (rcv_start m ρ c W) $$ [Hw Hrc Hrp]
  · isplitl [Hw]; · iexact Hw
    isplitl [Hrc]; · iexact Hrc
    iexact Hrp
  iapply (wp_rcvw_jp m ρ K c (0 : Dev nD) 0 rfl _ (rcv_cond_iff c 0) _ _ _)
  isplitr; · iexact HR
  isplitl [HV]; · iexact HV
  iintro HV
  iapply (wp_rcvw_jp m ρ K c (1 : Dev nD) 1 rfl _ (rcv_cond_iff c 1) _ _ _)
  isplitr; · iexact HR
  isplitl [HV]; · iexact HV
  iintro HV
  iapply (wp_rcvw_jp m ρ K c (2 : Dev nD) 2 rfl _ (rcv_cond_iff c 2) _ _ _)
  isplitr; · iexact HR
  isplitl [HV]; · iexact HV
  iintro HV
  iapply (wp_rcvw_jp m ρ K c (3 : Dev nD) 3 rfl _ (rcv_cond_iff c 3) _ _ _)
  isplitr; · iexact HR
  isplitl [HV]; · iexact HV
  iintro HV
  iapply (wp_rcvw_jp m ρ K c (4 : Dev nD) 4 rfl _ (rcv_cond_iff c 4) _ _ _)
  isplitr; · iexact HR
  isplitl [HV]; · iexact HV
  iintro HV
  iapply (wp_rcvw_jp m ρ K c (5 : Dev nD) 5 rfl _ (rcv_cond_iff c 5) _ _ _)
  isplitr; · iexact HR
  isplitl [HV]; · iexact HV
  iintro HV
  iapply (wp_rcvw_jp m ρ K c (6 : Dev nD) 6 rfl _ (rcv_cond_iff c 6) _ _ _)
  isplitr; · iexact HR
  isplitl [HV]; · iexact HV
  iintro HV
  iapply (wp_pure c)
  iapply Hk
  isplitl [Hsc]; · iexact Hsc
  isplitl [Ho]; · iexact Ho
  iexact HV

end Cert.KernelIdeal.Proto

end
-- ==== Proof.Part7.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Stages
import proofs.«901055_g7700000000001056_dist_softmax_colshard_i_m1024_n512_v7x_i16_bf16_1_alg».proof.Proof.Conds

/-!
# The body, part 7

Statements 361–420: the waits for the landings from the devices 7 to 15; the table, now whole and common, is loaded and its column sums taken.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

omit [FloatOps F] in
/-- The zero offsets of a rank-three access, as a constant function. -/
theorem table_zero_off : (![0, 0, 0] : Fin 3 → Nat) = fun _ => 0 := funext fun a => by fin_cases a <;> rfl

omit [FloatOps F] in
/-- A load of the whole table reads its contents. -/
theorem table_read (f : (cc0_scratch1 : Ref sig .tc).ty.Contents (Elt F)) :
    (gM : Memref sig .tc .vmem S16x1x1024 .f32).view.readAt (Elt F)
      (Rect.unit (s := S16x1x1024) ![0, 0, 0] S16x1x1024.size inb_S16x1x1024_S16x1x1024_0_0_0).toLoadRect f = f :=
  Memref.readAt_unit_zero (Elt F) cc0_scratch1 table_zero_off _ f

theorem part7 (K : Dev nD × KIx → ℕ) (c : Dev nD)
    (Q : (Σ' (v206 : FVec F S1024 .f32), FVec F S1024 .f32) → sProp 𝕄) :
    iprop(records m ρ K ∗ RcvI m ρ c 7 ∗ slotPts c c (table m ρ)
        ∗ (((∃ W, owes (c : Thread nD τ) 0 W) ∗ (((c : Thread nD τ).loc cc0_scratch1) ↦{fullShare} table m ρ)
              ∗ bigSep (Finset.univ.erase c) fun j : Dev nD => atPos ER (recvCell c j) 1 ∅ 0)
            -∗ Q ⟨k0_pay19 (table m ρ), k0_pay20 (F := F)⟩))
      ⊢ wp frame (wpE (defs₀ (F := F)) 𝒱₀ c none) Set.univ
          (k0_part7_skel (F := F) xM (Memref.isWhole_whole _) oM (Memref.isWhole_whole _) sM (Memref.isWhole_whole _) gM (Memref.isWhole_whole _) cc0_scratch2 cc0_scratch3 (posWord c) (Scalar.extui (Scalar.cmpi .ne (posWord c) 7#32))) Q := by
  unfold k0_part7_skel
  iintro ⟨#HR, HI, Hc, Hk⟩
  iapply (wp_rcvw_jp m ρ K c (7 : Dev nD) 7 rfl _ (rcv_cond_iff c 7) _ _ _)
  isplitr; · iexact HR
  isplitl [HI]; · iexact HI
  iintro HI
  iapply (wp_rcvw_jp m ρ K c (8 : Dev nD) 8 rfl _ (rcv_cond_iff c 8) _ _ _)
  isplitr; · iexact HR
  isplitl [HI]; · iexact HI
  iintro HI
  iapply (wp_rcvw_jp m ρ K c (9 : Dev nD) 9 rfl _ (rcv_cond_iff c 9) _ _ _)
  isplitr; · iexact HR
  isplitl [HI]; · iexact HI
  iintro HI
  iapply (wp_rcvw_jp m ρ K c (10 : Dev nD) 10 rfl _ (rcv_cond_iff c 10) _ _ _)
  isplitr; · iexact HR
  isplitl [HI]; · iexact HI
  iintro HI
  iapply (wp_rcvw_jp m ρ K c (11 : Dev nD) 11 rfl _ (rcv_cond_iff c 11) _ _ _)
  isplitr; · iexact HR
  isplitl [HI]; · iexact HI
  iintro HI
  iapply (wp_rcvw_jp m ρ K c (12 : Dev nD) 12 rfl _ (rcv_cond_iff c 12) _ _ _)
  isplitr; · iexact HR
  isplitl [HI]; · iexact HI
  iintro HI
  iapply (wp_rcvw_jp m ρ K c (13 : Dev nD) 13 rfl _ (rcv_cond_iff c 13) _ _ _)
  isplitr; · iexact HR
  isplitl [HI]; · iexact HI
  iintro HI
  iapply (wp_rcvw_jp m ρ K c (14 : Dev nD) 14 rfl _ (rcv_cond_iff c 14) _ _ _)
  isplitr; · iexact HR
  isplitl [HI]; · iexact HI
  iintro HI
  iapply (wp_rcvw_jp m ρ K c (15 : Dev nD) 15 rfl _ (rcv_cond_iff c 15) _ _ _)
  isplitr; · iexact HR
  isplitl [HI]; · iexact HI
  iintro HI
  ihave H := (rcv_end m ρ c) $$ [HI Hc]
  · isplitl [HI]; · iexact HI
    iexact Hc
  icases H with ⟨Ho, Ht, Hp⟩
  iapply (wp_load 𝒱₀ (c : Thread nD τ) none Set.univ (m := gM) (Finset.subset_univ _)) $$ Ht; iintro Ht
  rw [table_read]
  iapply (wp_pure c)
  iapply Hk
  isplitl [Ho]; · iexact Ho
  isplitl [Ht]; · iexact Ht
  iexact Hp

end Cert.KernelIdeal.Proto

end
-- ==== Proof.Part8.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Stages
import proofs.«901055_g7700000000001056_dist_softmax_colshard_i_m1024_n512_v7x_i16_bf16_1_alg».proof.Proof.Conds

/-!
# The body, part 8

Statements 421–480: the reciprocals, the block scaled row by row and stored, and the waits for the departures to the devices 0 to 7.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

omit [FloatOps F] in
/-- A load of the whole result buffer reads its contents. -/
theorem p8_out_read (f : (cc0_stg1_0 : Ref sig .tc).ty.Contents (Elt F)) :
    (oM : Memref sig .tc .vmem S1024x512 .f32).view.readAt (Elt F)
      (Rect.unit (s := S1024x512) ![0, 0] S1024x512.size inb_S1024x512_S1024x512_0_0).toLoadRect f = f :=
  Memref.readAt_unit_zero (Elt F) cc0_stg1_0 own_zero_off _ f

omit [FloatOps F] in
/-- A store over the whole result buffer leaves the stored value. -/
theorem p8_out_write (f w : (cc0_stg1_0 : Ref sig .tc).ty.Contents (Elt F)) :
    ((oM : Memref sig .tc .vmem S1024x512 .f32).access
      (Rect.unit (s := S1024x512) ![0, 0] S1024x512.size inb_S1024x512_S1024x512_0_0) : View sig .tc _ _ _).write (Elt F) f w Finset.univ = w :=
  Memref.write_access_unit_zero_univ (Elt F) cc0_stg1_0 own_zero_off _ f w

/-- The local stretch: the result buffer, holding `exp x_c`, is read (twice, the second value unused) and overwritten by
    `exp x_c` scaled row by row by the reciprocals of the table's column sums, which is the result block. -/
theorem p8_wp_scale_jp {α : Type} (c : Dev nD) (rest : Prog (TpuEff nD τ sig (Elt F) Λ₀ .tc) α) (Q : α → sProp 𝕄) :
    iprop((((c : Thread nD τ).loc cc0_stg1_0) ↦{fullShare} (k0_pay1 (xblk m ρ c) : Buf (Elt F) ((c : Thread nD τ).loc cc0_stg1_0)))
        ∗ ((((c : Thread nD τ).loc cc0_stg1_0) ↦{fullShare} (outAt m ρ c : Buf (Elt F) ((c : Thread nD τ).loc cc0_stg1_0)))
            -∗ wp frame (wpE (defs₀ (F := F)) 𝒱₀ c none) Set.univ rest Q))
      ⊢ wp frame (wpE (defs₀ (F := F)) 𝒱₀ c none) Set.univ
          (Prog.lift (.load oM (Rect.unit (s := S1024x512) ![0, 0] S1024x512.size inb_S1024x512_S1024x512_0_0).toLoadRect (View.loadsAt_vmem h_S1024x512)) >>= fun (v209 : Vec F S1024x512 .f32) =>
           Prog.lift (.load oM (Rect.unit (s := S1024x512) ![0, 0] S1024x512.size inb_S1024x512_S1024x512_0_0).toLoadRect (View.loadsAt_vmem h_S1024x512)) >>= fun (v214 : Vec F S1024x512 .f32) =>
           Prog.lift (.store oM (Rect.unit (s := S1024x512) ![0, 0] S1024x512.size inb_S1024x512_S1024x512_0_0) (k0_pay21 (k0_pay19 (table m ρ)) (k0_pay20 (F := F)) v209) Finset.univ (View.stores_vmem_bits_univ h_S1024x512 rfl) (.inl rfl)) >>= fun _ => rest) Q := by
  simp only [Prog.lift, Prog.bind_op, Prog.bind_ret]
  iintro ⟨Ho, Hk⟩
  iapply (wp_load 𝒱₀ (c : Thread nD τ) none Set.univ (m := oM) (Finset.subset_univ _)) $$ Ho; iintro Ho
  rw [p8_out_read]
  iapply (wp_load 𝒱₀ (c : Thread nD τ) none Set.univ (m := oM) (Finset.subset_univ _)) $$ Ho; iintro Ho
  iapply (wp_store 𝒱₀ (c : Thread nD τ) none Set.univ (m := oM)
    (r := Rect.unit (s := S1024x512) ![0, 0] S1024x512.size inb_S1024x512_S1024x512_0_0) (Mk := Finset.univ) (Finset.subset_univ _)) $$ Ho; iintro Ho
  rw [p8_out_write]
  iapply Hk
  unfold outAt
  iexact Ho

theorem part8 (K : Dev nD × KIx → ℕ) (c : Dev nD) (W : Waits sig Unit) (Q : PUnit → sProp 𝕄) :
    iprop(records m ρ K
        ∗ (((c : Thread nD τ).loc cc0_stg1_0) ↦{fullShare} (k0_pay1 (xblk m ρ c) : Buf (Elt F) ((c : Thread nD τ).loc cc0_stg1_0)))
        ∗ owes (c : Thread nD τ) 0 W
        ∗ (bigSep (Finset.univ.erase c) fun j : Dev nD => cred (tallyAt (sendCell c j) () N))
        ∗ (bigSep (Finset.univ.erase c) fun j : Dev nD => atPos ER (sendCell c j) 0 ∅ 0)
        ∗ (((((c : Thread nD τ).loc cc0_stg1_0) ↦{fullShare} (outAt m ρ c : Buf (Elt F) ((c : Thread nD τ).loc cc0_stg1_0))) ∗ SwI m ρ c 8) -∗ Q ⟨⟩))
      ⊢ wp frame (wpE (defs₀ (F := F)) 𝒱₀ c none) Set.univ
          (k0_part8_skel (F := F) xM (Memref.isWhole_whole _) oM (Memref.isWhole_whole _) sM (Memref.isWhole_whole _) gM (Memref.isWhole_whole _) cc0_scratch2 cc0_scratch3 c (posWord c) (k0_pay19 (table m ρ)) (k0_pay20 (F := F))) Q := by
  unfold k0_part8_skel
  iintro ⟨#HR, Ho, Hw, Hc, Hp, Hk⟩
  iapply (p8_wp_scale_jp m ρ c)
  isplitl [Ho]; · iexact Ho
  iintro Ho
  ihave HI := (sw_start m ρ c W) $$ [Hw Hc Hp]
  · isplitl [Hw]; · iexact Hw
    isplitl [Hc]; · iexact Hc
    iexact Hp
  iapply (wp_sndw_jp m ρ K c (0 : Dev nD) 0 rfl _ (cond65_iff c) _ _ _)
  isplitr; · iexact HR
  isplitl [HI]; · iexact HI
  iintro HI
  iapply (wp_sndw_jp m ρ K c (1 : Dev nD) 1 rfl _ (cond66_iff c) _ _ _)
  isplitr; · iexact HR
  isplitl [HI]; · iexact HI
  iintro HI
  iapply (wp_sndw_jp m ρ K c (2 : Dev nD) 2 rfl _ (cond67_iff c) _ _ _)
  isplitr; · iexact HR
  isplitl [HI]; · iexact HI
  iintro HI
  iapply (wp_sndw_jp m ρ K c (3 : Dev nD) 3 rfl _ (cond68_iff c) _ _ _)
  isplitr; · iexact HR
  isplitl [HI]; · iexact HI
  iintro HI
  iapply (wp_sndw_jp m ρ K c (4 : Dev nD) 4 rfl _ (cond69_iff c) _ _ _)
  isplitr; · iexact HR
  isplitl [HI]; · iexact HI
  iintro HI
  iapply (wp_sndw_jp m ρ K c (5 : Dev nD) 5 rfl _ (cond70_iff c) _ _ _)
  isplitr; · iexact HR
  isplitl [HI]; · iexact HI
  iintro HI
  iapply (wp_sndw_jp m ρ K c (6 : Dev nD) 6 rfl _ (cond71_iff c) _ _ _)
  isplitr; · iexact HR
  isplitl [HI]; · iexact HI
  iintro HI
  iapply (wp_sndw_jp m ρ K c (7 : Dev nD) 7 rfl _ (cond72_iff c) _ _ _)
  isplitr; · iexact HR
  isplitl [HI]; · iexact HI
  iintro HI
  iapply (wp_pure c)
  iapply Hk
  isplitl [Ho]; · iexact Ho
  iexact HI

end Cert.KernelIdeal.Proto

end
-- ==== Proof.Body.lean ====
import proofs.«901055_g7700000000001056_dist_softmax_colshard_i_m1024_n512_v7x_i16_bf16_1_alg».proof.Proof.Wrap
import proofs.«901055_g7700000000001056_dist_softmax_colshard_i_m1024_n512_v7x_i16_bf16_1_alg».proof.Proof.Stages
import proofs.«901055_g7700000000001056_dist_softmax_colshard_i_m1024_n512_v7x_i16_bf16_1_alg».proof.Proof.Conds
import proofs.«901055_g7700000000001056_dist_softmax_colshard_i_m1024_n512_v7x_i16_bf16_1_alg».proof.Proof.Part1
import proofs.«901055_g7700000000001056_dist_softmax_colshard_i_m1024_n512_v7x_i16_bf16_1_alg».proof.Proof.Part2
import proofs.«901055_g7700000000001056_dist_softmax_colshard_i_m1024_n512_v7x_i16_bf16_1_alg».proof.Proof.Part3
import proofs.«901055_g7700000000001056_dist_softmax_colshard_i_m1024_n512_v7x_i16_bf16_1_alg».proof.Proof.Part4
import proofs.«901055_g7700000000001056_dist_softmax_colshard_i_m1024_n512_v7x_i16_bf16_1_alg».proof.Proof.Part5
import proofs.«901055_g7700000000001056_dist_softmax_colshard_i_m1024_n512_v7x_i16_bf16_1_alg».proof.Proof.Part6
import proofs.«901055_g7700000000001056_dist_softmax_colshard_i_m1024_n512_v7x_i16_bf16_1_alg».proof.Proof.Part7
import proofs.«901055_g7700000000001056_dist_softmax_colshard_i_m1024_n512_v7x_i16_bf16_1_alg».proof.Proof.Part8

/-!
# The body of one device, from its ghost state to the scaled block

In program order: fifteen signals; `exp`, the row sums, the row stored; the own slot filled; the wait for fifteen barrier
units; fifteen copies started; `exp x` stored; fifteen landings awaited, after which the table is whole and equal on all
devices; its column sums, their reciprocals, the block scaled and stored; fifteen departures awaited; the cells closed.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] k0_cond1 k0_cond2 k0_cond3 k0_cond4 k0_cond5 k0_cond6 k0_cond7 k0_cond8 k0_cond9 k0_cond10 k0_cond11 k0_cond12 k0_cond13 k0_cond14 k0_cond15 k0_cond16
  k0_cond33 k0_cond34 k0_cond35 k0_cond36 k0_cond37 k0_cond38 k0_cond39 k0_cond40 k0_cond41 k0_cond42 k0_cond43 k0_cond44 k0_cond45 k0_cond46 k0_cond47 k0_cond48
  k0_cond65 k0_cond66 k0_cond67 k0_cond68 k0_cond69 k0_cond70 k0_cond71 k0_cond72 k0_cond73 k0_cond74 k0_cond75 k0_cond76 k0_cond77 k0_cond78 k0_cond79 k0_cond80
  Scalar.cmpi Scalar.extui Scalar.remsi Scalar.divsi

/-- Sequencing: a stretch run to the weakest precondition of what follows it. -/
theorem wp_seq {α β : Type} (c : Dev nD) (p : Prog (TpuEff nD τ sig (Elt F) Λ₀ .tc) α)
    (k : α → Prog (TpuEff nD τ sig (Elt F) Λ₀ .tc) β) (Q : β → sProp 𝕄) :
    wp frame (wpE (defs₀ (F := F)) 𝒱₀ c none) Set.univ p (fun a => wp frame (wpE (defs₀ (F := F)) 𝒱₀ c none) Set.univ (k a) Q)
      ⊢ wp frame (wpE (defs₀ (F := F)) 𝒱₀ c none) Set.univ (p >>= k) Q :=
  Entails.of_eq (wp_bind _ _ _ p k Q).symm

omit [FloatOps F] in
/-- A device's sixteen positions on its send cells: its own, and the fifteen others'. -/
theorem pos_send_cut (c : Dev nD) (r : ℕ) :
    (bigSep Finset.univ fun j : Dev nD => atPos ER (sendCell c j) r ∅ 0 : sProp 𝕄)
      ⊢ iprop(atPos ER (sendCell c c) r ∅ 0 ∗ bigSep (Finset.univ.erase c) fun j : Dev nD => atPos ER (sendCell c j) r ∅ 0) :=
  Entails.of_eq (bigSep_univ_erase c _)

omit [FloatOps F] in
theorem pos_recv_cut (c : Dev nD) (r : ℕ) :
    (bigSep Finset.univ fun j : Dev nD => atPos ER (recvCell c j) r ∅ 0 : sProp 𝕄)
      ⊢ iprop(atPos ER (recvCell c c) r ∅ 0 ∗ bigSep (Finset.univ.erase c) fun j : Dev nD => atPos ER (recvCell c j) r ∅ 0) :=
  Entails.of_eq (bigSep_univ_erase c _)

theorem sound_body (K : Dev nD × KIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost positions payToks credits scratch
  iintro ⟨⟨⟨⟨#HR, ⟨HatB, HatS, HatV⟩, ⟨HtB, HtV, HtS⟩⟩, ⟨HcB, HcV⟩, #Hlev, ⟨⟨%f0, Hrow⟩, ⟨%f1, Htab⟩⟩⟩, Ho, ⟨%d0, %g0, %hg0, Hx⟩, ⟨%d1, %g1, %hg1, Hout⟩⟩, Hk⟩
  have hx : g0 = xblk m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  rw [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  -- the table cut into its slots, the own slot kept
  ihave H := (sig_start c W f1) $$ [HO HtB Htab]
  · isplitl [HO]; · iexact HO
    isplitl [HtB]; · iexact HtB
    iexact Htab
  icases H with ⟨HI, Hown⟩
  ihave Hown := (own_start m ρ c) $$ Hown
  -- the first eight signals
  iapply (wp_seq c)
  iapply (part1 m ρ K c W)
  isplitr; · iexact HR
  isplitl [HI]; · iexact HI
  iintro HI
  -- the other eight; exp, the row sums, the row stored
  iapply (wp_seq c)
  iapply (part2 m ρ K c W f0)
  isplitr; · iexact HR
  isplitl [HI]; · iexact HI
  isplitl [Hx]; · iexact Hx
  isplitl [Hrow]; · iexact Hrow
  iintro ⟨HI, Hx, Hrow⟩
  ihave HO := (sig_end c W) $$ HI
  -- the own slot filled
  iapply (wp_seq c)
  iapply (part3 m ρ c)
  isplitl [Hrow]; · iexact Hrow
  isplitl [Hown]; · iexact Hown
  iintro ⟨Hrow, Hown⟩
  -- the barrier wait; the first four copies
  ihave H := (pos_send_cut c 0) $$ HatS
  icases H with ⟨HatSc, HatS⟩
  ihave H := (pos_recv_cut c 0) $$ HatV
  icases H with ⟨HatVc, HatV⟩
  iapply (wp_seq c)
  iapply (part4 m ρ K c W)
  isplitr; · iexact HR
  isplitr; · iexact Hlev
  isplitl [Hrow]; · iexact Hrow
  isplitl [Hown]; · iexact Hown
  isplitl [HcB]; · iexact HcB
  isplitl [HatB]; · iexact HatB
  isplitl [HO]; · iexact HO
  isplitl [HtS]; · iexact HtS
  isplitl [HtV]; · iexact HtV
  iintro ⟨Hown, HatB, HI, Hrowc, Hrowr⟩
  ihave Hown := (own_end m ρ c) $$ Hown
  -- ten more copies
  iapply (wp_seq c)
  iapply (part5 m ρ K c (insert (SemLoc.reg barS, ()) W))
  isplitr; · iexact HR
  isplitl [HI]; · iexact HI
  iintro HI
  -- the last two; exp x stored; the first receive waits' set-up
  iapply (wp_seq c)
  iapply (part6 m ρ K c (insert (SemLoc.reg barS, ()) W) g1)
  isplitr; · iexact HR
  isplitl [HI]; · iexact HI
  isplitl [Hout]; · iexact Hout
  isplitl [HcV]; · iexact HcV
  isplitl [HatV]; · iexact HatV
  iintro ⟨HcS, Hout, HI⟩
  -- the landings; the table whole
  iapply (wp_seq c)
  iapply (part7 m ρ K c)
  isplitr; · iexact HR
  isplitl [HI]; · iexact HI
  isplitl [Hown]; · iexact Hown
  iintro ⟨⟨%W2, HO⟩, Htab, HatV⟩
  -- the block scaled and stored; the first eight departures
  iapply (wp_seq c)
  iapply (part8 m ρ K c W2)
  isplitr; · iexact HR
  isplitl [Hout]; · iexact Hout
  isplitl [HO]; · iexact HO
  isplitl [HcS]; · iexact HcS
  isplitl [HatS]; · iexact HatS
  iintro ⟨Hout, HI⟩
  -- the other eight
  iapply (wp_sndw_jp m ρ K c (8 : Dev nD) 8 rfl _ (cond73_iff c) _ _ _)
  isplitr; · iexact HR
  isplitl [HI]; · iexact HI
  iintro HI
  iapply (wp_sndw_jp m ρ K c (9 : Dev nD) 9 rfl _ (cond74_iff c) _ _ _)
  isplitr; · iexact HR
  isplitl [HI]; · iexact HI
  iintro HI
  iapply (wp_sndw_jp m ρ K c (10 : Dev nD) 10 rfl _ (cond75_iff c) _ _ _)
  isplitr; · iexact HR
  isplitl [HI]; · iexact HI
  iintro HI
  iapply (wp_sndw_jp m ρ K c (11 : Dev nD) 11 rfl _ (cond76_iff c) _ _ _)
  isplitr; · iexact HR
  isplitl [HI]; · iexact HI
  iintro HI
  iapply (wp_sndw_jp m ρ K c (12 : Dev nD) 12 rfl _ (cond77_iff c) _ _ _)
  isplitr; · iexact HR
  isplitl [HI]; · iexact HI
  iintro HI
  iapply (wp_sndw_jp m ρ K c (13 : Dev nD) 13 rfl _ (cond78_iff c) _ _ _)
  isplitr; · iexact HR
  isplitl [HI]; · iexact HI
  iintro HI
  iapply (wp_sndw_jp m ρ K c (14 : Dev nD) 14 rfl _ (cond79_iff c) _ _ _)
  isplitr; · iexact HR
  isplitl [HI]; · iexact HI
  iintro HI
  iapply (wp_sndw_jp m ρ K c (15 : Dev nD) 15 rfl _ (cond80_iff c) _ _ _)
  isplitr; · iexact HR
  isplitl [HI]; · iexact HI
  iintro HI
  -- the row buffer whole again; the thirty-two own cells closed
  ihave H := (sw_end m ρ c) $$ [HI Hrowc Hrowr]
  · isplitl [HI]; · iexact HI
    isplitl [Hrowc]; · iexact Hrowc
    iexact Hrowr
  icases H with ⟨⟨%W3, HO⟩, Hrow, HatS⟩
  imod (close_own m ρ K c) $$ [HatS HatSc HatV HatVc] with Hz
  · isplitr; · iexact HR
    isplitl [HatS]; · iexact HatS
    isplitl [HatSc]; · iexact HatSc
    isplitl [HatV]; · iexact HatV
    iexact HatVc
  ihave Hrow := (Entails.of_eq (rowPts_full m ρ c)) $$ Hrow
  iapply (wp_pure c)
  iapply Hk
  unfold bodyPost Φ₁ scratch Dat.owesAt Pipeline.owesWithin
  rw [show (dats m ρ 0 c).owed t₀.succ = 0 from rfl]
  isplitl [Hrow Htab Hz]
  · isplitl [Hrow Htab]
    · isplitl [Hrow]
      · iexists _; iexact Hrow
      · iexists _; iexact Htab
    · iexact Hz
  isplitl [HO]
  · iexists W3
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Proto

end
-- ==== Proof.Launch.lean ====
import proofs.«901055_g7700000000001056_dist_softmax_colshard_i_m1024_n512_v7x_i16_bf16_1_alg».proof.Proof.Body

/-!
# The launch: sixteen bodies to one run

Every device's cells are allocated in one step (the barrier cell of a device is touched by all sixteen), the tokens are
dealt to the devices that pay them, each device receives the credit the others owe it, and the run ends with every
device's result array at its scaled block and its argument array unchanged.
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
theorem bigSep_windows (Φ : Fin cfg0.W → sProp 𝕄) : bigSep Finset.univ Φ = iprop(Φ (0 : Fin 2) ∗ Φ (1 : Fin 2)) := bigSep_W0 Φ

omit [FloatOps F] in
theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body of device c is handed at its one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device c: from what its one grid point hands the body to what the body must leave. -/
theorem body_obligation (c : Dev nD) : BodyObligation (dats (F := F) m ρ 0 c) (defs₀ (F := F)) 𝒱₀ () Set.univ := fun t => by
  rw [fin_N t]
  rw [bigSep_windows, bigSep_windows]
  simp only [owns_whole_stg]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The launch -/

omit [FloatOps F] in
theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : Function.Injective (csem : KIx → SemLoc sig) := by
  rintro (_ | ⟨_ | _, j⟩) (_ | ⟨_ | _, j'⟩) h
  · rfl
  · exact absurd (show (SemLoc.reg barS : SemLoc sig) = .dma (sendSem j') from h) (fun h' => by cases h')
  · exact absurd (show (SemLoc.reg barS : SemLoc sig) = .dma (recvSem j') from h) (fun h' => by cases h')
  · exact absurd (show (SemLoc.dma (sendSem j) : SemLoc sig) = .reg barS from h) (fun h' => by cases h')
  · have : sendSem j = sendSem j' := SemLoc.dma.inj (show (SemLoc.dma (sendSem j) : SemLoc sig) = .dma (sendSem j') from h)
    rw [sendSem_inj this]
  · exact absurd (SemLoc.dma.inj (show (SemLoc.dma (sendSem j) : SemLoc sig) = .dma (recvSem j') from h)) (sendSem_ne_recvSem j j')
  · exact absurd (show (SemLoc.dma (recvSem j) : SemLoc sig) = .reg barS from h) (fun h' => by cases h')
  · exact absurd (SemLoc.dma.inj (show (SemLoc.dma (recvSem j) : SemLoc sig) = .dma (sendSem j') from h)).symm (sendSem_ne_recvSem j' j)
  · have : recvSem j = recvSem j' := SemLoc.dma.inj (show (SemLoc.dma (recvSem j) : SemLoc sig) = .dma (recvSem j') from h)
    rw [recvSem_inj this]

omit [FloatOps F] in
theorem kcell_injective : Function.Injective (kcell : Dev nD × KIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every cell of the protocol: the thirty-three of each device. -/
def allCells : Finset (GSem nD τ sig) := Finset.univ.map ⟨kcell, kcell_injective⟩

/-- The three cells a pair (device, peer) names: the device's barrier cell, its send cell to the peer, its receive cell
    from the peer. -/
def kix : Fin 3 → Dev nD → KIx
  | 0, _ => none
  | 1, j => some (false, j)
  | 2, j => some (true, j)

/-- The duty the peer has on each of the three: (device, peer, which cell). -/
abbrev tokOf (x : Dev nD × Dev nD × Fin 3) : GSem nD τ sig × ℕ × Dev nD := (kcell (x.1, kix x.2.2 x.2.1), 0, x.2.1)

omit [FloatOps F] in
theorem tokOf_injective : Function.Injective (tokOf : Dev nD × Dev nD × Fin 3 → GSem nD τ sig × ℕ × Dev nD) := by
  rintro ⟨c, j, k⟩ ⟨c', j', k'⟩ h
  have hj : j = j' := congrArg (fun x : GSem nD τ sig × ℕ × Dev nD => x.2.2) h
  subst hj
  have hck : (c, kix k j) = (c', kix k' j) := kcell_injective (congrArg (fun x : GSem nD τ sig × ℕ × Dev nD => x.1) h)
  have hc : c = c' := congrArg Prod.fst hck
  subst hc
  have hk : kix k j = kix k' j := congrArg Prod.snd hck
  have : k = k' := by
    fin_cases k <;> fin_cases k' <;> first | rfl | exact absurd hk (fun h' => by cases h')
  subst this; rfl

/-- The tokens minted: for every device and every other device, that one's duty on the three cells. -/
def allToks : Finset (GSem nD τ sig × ℕ × Dev nD) :=
  (Finset.univ.filter fun x : Dev nD × Dev nD × Fin 3 => x.2.1 ≠ x.1).map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  bigSep (Finset.univ.erase c) fun j : Dev nD =>
    iprop(dutyTok ER (barCell c) 0 j ∗ dutyTok ER (sendCell c j) 0 j ∗ dutyTok ER (recvCell c j) 0 j)

/-- What the launch element deals device c. -/
def G (c : Dev nD) : sProp 𝕄 :=
  iprop((bigSep Finset.univ fun k : KIx => roundState ER (sched m ρ) (kcell (c, k)) 0)
    ∗ (bigSep Finset.univ fun k : KIx => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_three_cells (Φ : Fin 3 → sProp 𝕄) : bigSep Finset.univ Φ = iprop(Φ 0 ∗ Φ 1 ∗ Φ 2) := bigSep_univ_eq_bigSepL [0, 1, 2] (by decide) (by decide) Φ

omit [FloatOps F] in
theorem bigSep_send_recv (Φ : Bool → sProp 𝕄) : bigSep Finset.univ Φ = iprop(Φ false ∗ Φ true) := bigSep_univ_eq_bigSepL [false, true] (by decide) (by decide) Φ

omit [FloatOps F] in
theorem bigSep_none_some {α : Type} [Fintype α] [DecidableEq α] (Φ : Option α → sProp 𝕄) :
    bigSep Finset.univ Φ = iprop(Φ none ∗ bigSep Finset.univ fun a : α => Φ (some a)) := by
  have h : (Finset.univ : Finset (Option α)) = insert none (Finset.univ.map Function.Embedding.some) := by
    ext x; cases x <;> simp
  rw [h, bigSep_insert (by simp), bigSep_map]; rfl

omit [FloatOps F] in
/-- A device's cells, one by one: the barrier cell, the sixteen send cells, the sixteen receive cells. -/
theorem bigSep_KIx (Φ : KIx → sProp 𝕄) :
    bigSep Finset.univ Φ = iprop(Φ none ∗ (bigSep Finset.univ fun j : Dev nD => Φ (some (false, j))) ∗ bigSep Finset.univ fun j : Dev nD => Φ (some (true, j))) := by
  rw [bigSep_none_some, bigSep_univ_prod, bigSep_send_recv]

omit [FloatOps F] in
theorem bigSep_allCells (Φ : GSem nD τ sig → sProp 𝕄) :
    bigSep allCells Φ = bigSep Finset.univ fun c : Dev nD => bigSep Finset.univ fun k : KIx => Φ (kcell (c, k)) := by
  unfold allCells; rw [bigSep_map, bigSep_univ_prod]; rfl

omit [FloatOps F] in
theorem bigSep_erase_as_ite (c : Dev nD) (Ψ : Dev nD → sProp 𝕄) :
    bigSep (Finset.univ.erase c) Ψ = bigSep Finset.univ fun j => if j ≠ c then Ψ j else BI.emp := by
  rw [← Finset.filter_ne' Finset.univ c, bigSep_filter]

omit [FloatOps F] in
theorem bigSep_allToks : bigSep allToks (fun x => (dutyTok ER x.1 x.2.1 x.2.2 : sProp 𝕄)) = bigSep Finset.univ fun c : Dev nD => toks c := by
  unfold allToks
  rw [bigSep_map, bigSep_filter, bigSep_univ_prod]
  refine bigSep_congr fun c _ => ?_
  unfold toks
  rw [bigSep_erase_as_ite, bigSep_univ_prod]
  refine bigSep_congr fun j _ => ?_
  by_cases h : j ≠ c
  · simp only [if_pos h]
    rw [bigSep_three_cells]; rfl
  · simp only [if_neg h]; exact bigSep_emp_const (M := 𝕄) Finset.univ

theorem fund_all : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst' := (Entails.of_eq (bigSep_allCells fun g => roundState ER (sched m ρ) g 0)) $$ Hst
  ihave Hat' := (Entails.of_eq (bigSep_allCells (F := F) fun g => atPos ER g 0 ∅ 0)) $$ Hat
  ihave Hr' := (Entails.of_eq (bigSep_allCells (F := F) fun g => reached ER g 0)) $$ Hr
  ihave Htok' := (Entails.of_eq (bigSep_allToks (F := F))) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KIx => semVal (kcell (c, k)) 0 : sProp 𝕄) := by
  rw [unscopedSems0_eq, bigSep_none_some]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KIx => iprop(∃ κ : ℕ, cellInv ER (sched m ρ) κ (kcell (c, k))))
          ∗ (bigSep Finset.univ fun k : KIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KIx => semVal (kcell (c, k)) 0) ∗ bigSep Finset.univ fun k : KIx => roundState ER (sched m ρ) (kcell (c, k)) 0)
      ⊢ (|={Set.univ}=> bigSep Finset.univ fun k : KIx => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device c: its positions, and the tokens of the duties it pays. -/
def linear (c : Dev nD) : sProp 𝕄 :=
  iprop((bigSep Finset.univ fun k : KIx => atPos ER (kcell (c, k)) 0 ∅ 0) ∗ payToks c)

theorem ghost_intro (K : Dev nD × KIx → ℕ) (c : Dev nD) : iprop(records m ρ K ∗ linear c) ⊢ G' m ρ c := by
  unfold linear G' ghost positions
  rw [bigSep_KIx]
  iintro ⟨#HR, Hpos, Htok⟩
  iexists K
  isplitr; · iexact HR
  isplitl [Hpos]; · iexact Hpos
  iexact Htok

omit [FloatOps F] in
/-- The tokens dealt to those that pay them: device c's duty on the barrier cell of j and on receive cell c of j goes
    from j's deal to c's; the pairs of distinct devices are read in the other order. -/
theorem toks_around : (bigSep Finset.univ fun c : Dev nD => (toks c : sProp 𝕄)) ⊢ bigSep Finset.univ fun c : Dev nD => payToks c := by
  unfold toks payToks
  simp only [bigSep_sep']
  rw [bigSep_erase_comm (fun c j : Dev nD => (dutyTok ER (barCell c) 0 j : sProp 𝕄)),
    bigSep_erase_comm (fun c j : Dev nD => (dutyTok ER (recvCell c j) 0 j : sProp 𝕄))]
  iintro ⟨H1, H2, H3⟩
  isplitl [H1]; · iexact H1
  isplitl [H3]; · iexact H3
  iexact H2

theorem regroup :
    (bigSep Finset.univ fun c : Dev nD => iprop((bigSep Finset.univ fun k : KIx => iprop(∃ κ : ℕ, cellInv ER (sched m ρ) κ (kcell (c, k))))
          ∗ (bigSep Finset.univ fun k : KIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × KIx => iprop(∃ κ : ℕ, cellInv ER (sched m ρ) κ (kcell ck))),
    bigSep_congr (s := Finset.univ) (fun (c : Dev nD) _ => bigSep_sep' Finset.univ (fun k : KIx => (atPos ER (kcell (c, k)) 0 ∅ 0 : sProp 𝕄)) (fun k => reached ER (kcell (c, k)) 0)),
    bigSep_sep', ← bigSep_univ_prod (fun ck : Dev nD × KIx => (reached ER (kcell ck) 0 : sProp 𝕄))]
  iintro ⟨HI, ⟨Hat, #HR⟩, Htok⟩
  ihave HK := (BI.bigSep_exists_pi Finset.univ (fun (ck : Dev nD × KIx) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : KIx => (atPos ER (kcell (c, k)) 0 ∅ 0 : sProp 𝕄)) payToks).symm).trans
      (bigSep_mono fun c _ => show _ ⊢ linear c from Entails.of_eq rfl))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' credits
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of the program terminates, and every final state has each device's result array at the computed contents
    and its argument array unchanged. -/
theorem run_main : θ_run defs (onTc (τ := τ) (main (F := F))) (st₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st₀ m ρ).mem (win0_0.arr.view.loc (c : Thread nD τ)) :=
  (dats (F := F) m ρ 0 c).arrAt_in (0 : Fin 2) rfl _

/-- The result array after the run is the scaled block. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  exact Memref.write_access_unit_zero_univ (Elt F) main_v1 hz (fun a => by fin_cases a <;> decide) _ _

end Cert.KernelIdeal.Proto

end
-- ==== Proof.Value.lean ====
import proofs.«901055_g7700000000001056_dist_softmax_colshard_i_m1024_n512_v7x_i16_bf16_1_alg».proof.Defs
import proofs.«901055_g7700000000001056_dist_softmax_colshard_i_m1024_n512_v7x_i16_bf16_1_alg».proof.Proof.Proto
import proofs.«901055_g7700000000001056_dist_softmax_colshard_i_m1024_n512_v7x_i16_bf16_1_alg».proof.Proof.Gen.ReferenceIdeal.Read
import proofs.«901055_g7700000000001056_dist_softmax_colshard_i_m1024_n512_v7x_i16_bf16_1_alg».proof.Proof.Gen.Pre_finite_inputs_Kernel
import Idealize.ShloMosaic.Lib.ValueIdx
import Idealize.ShloMosaic.Lib.Pipeline.Value
import Idealize.ShloMosaic.Lib.ValueLayout
import Idealize.ShloMosaic.Lib.ReduceAll
import Idealize.ShloMosaic.Lib.Layout
import Idealize.ShloMosaic.PureOps.Ideal.Laws
import Mathlib.Analysis.SpecialFunctions.Exp
import Mathlib.Data.EReal.Inv
import Mathlib.Algebra.BigOperators.Fin

/-!
# The value of the result block

Every entry of the whole 1024 × 8192 array `X` a real: at row `r` and column `512 c + k` device `c`'s result is
`exp (X r (512c+k)) · (1 / Σ_d Σ_k' exp (X r (512d+k')))`, the reference's
`exp (X r n − M_r) / (0 + Σ_n' exp (X r n' − M_r))` with `M_r` the row's maximum, a real; for any real `M` the two agree.
-/

noncomputable section

namespace Cert.Proof.Val

open Idealize.ShloMosaic Idealize.ShloMosaic.ValueIdx

/-! ## The law -/

/-- The coercion of reals into the extended reals commutes with a finite sum. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- An extended real that is neither infinity is a real. -/
theorem exists_real_of_ne {x : EReal} (ht : x ≠ ⊤) (hb : x ≠ ⊥) : ∃ r : ℝ, x = r :=
  ⟨x.toReal, (EReal.coe_toReal ht hb).symm⟩

/-- The law over the reals. -/
theorem real_law {ι : Type} [Fintype ι] (a : ι → ℝ) (M : ℝ) (n : ι) :
    Real.exp (a n) * (1 / ∑ m, Real.exp (a m)) = Real.exp (a n - M) * (1 / ∑ m, Real.exp (a m - M)) := by
  have hS : 0 < ∑ m, Real.exp (a m) :=
    Finset.sum_pos (fun m _ => Real.exp_pos _) ⟨n, Finset.mem_univ n⟩
  have hE : Real.exp M ≠ 0 := (Real.exp_pos M).ne'
  have e1 : ∑ m, Real.exp (a m - M) = (∑ m, Real.exp (a m)) / Real.exp M := by
    rw [Finset.sum_div]; exact Finset.sum_congr rfl fun m _ => Real.exp_sub _ _
  rw [e1, Real.exp_sub]
  field_simp

/-- The law on the extended reals, the kernel's arrangement (blocks `d`, columns `k` inside a block) against the
    reference's (all columns `m` at once). -/
theorem ereal_law {δ κ ι : Type} [Fintype δ] [Fintype κ] [Fintype ι] (e : δ × κ ≃ ι) (X : ι → EReal)
    (hX : ∀ m, ∃ r : ℝ, X m = r) (M : EReal) (hM : ∃ r : ℝ, M = r) (one zero : EReal) (h1 : one = 1) (h0 : zero = 0) (n : ι) :
    Ideal.exp (X n) * Ideal.div one (∑ d, ∑ k, Ideal.exp (X (e (d, k))))
      = Ideal.div (Ideal.exp (X n - M)) (zero + ∑ m, Ideal.exp (X m - M)) := by
  choose a ha using hX
  obtain ⟨M', rfl⟩ := hM
  subst h1 h0
  have hS : 0 < ∑ m, Real.exp (a m) :=
    Finset.sum_pos (fun m _ => Real.exp_pos _) ⟨n, Finset.mem_univ n⟩
  have hS' : 0 < ∑ m, Real.exp (a m - M') :=
    Finset.sum_pos (fun m _ => Real.exp_pos _) ⟨n, Finset.mem_univ n⟩
  have eL : (∑ d, ∑ k, Ideal.exp (X (e (d, k)))) = ((∑ m, Real.exp (a m) : ℝ) : EReal) := by
    rw [coe_sum, ← Equiv.sum_comp e, Fintype.sum_prod_type]
    exact Finset.sum_congr rfl fun d _ => Finset.sum_congr rfl fun k _ => by rw [ha]; rfl
  have eR : (∑ m, Ideal.exp (X m - (M' : EReal))) = ((∑ m, Real.exp (a m - M') : ℝ) : EReal) := by
    rw [coe_sum]
    exact Finset.sum_congr rfl fun m _ => by rw [ha, ← EReal.coe_sub]; rfl
  rw [eL, eR, zero_add, Ideal.div_coe hS.ne', Ideal.div_coe hS'.ne', ha n, ← EReal.coe_sub]
  show (Real.exp (a n) : EReal) * (1 * _) = (Real.exp (a n - M') : EReal) * _
  rw [one_mul, ← EReal.coe_mul, ← EReal.coe_mul, real_law a M' n]

/-! ## The kernel's payloads at an index -/

open Cert.KernelIdeal Cert.KernelIdeal.Gen

theorem pay1_apply (xb : FVec Ideal S1024x512 .f32) (j : S1024x512.Idx) : k0_pay1 (F := Ideal) xb j = Ideal.exp (xb j) := by
  unfold k0_pay1
  rw [shapeCast_self]
  rfl

theorem pay2_apply (xb : FVec Ideal S1024x512 .f32) (r : Fin 1024) :
    k0_pay2 (F := Ideal) xb (ix2 (0 : Fin 1) r) = ∑ k : Fin 512, Ideal.exp (xb (ix2 r k)) := by
  unfold k0_pay2
  refine (shapeCast_apply _ _ (ix2 (0 : Fin 1) r) (ix1 r) ?_).trans ?_
  · rw [Shape.rowMajor_val_one, Shape.rowMajor_val_two]
    show r.val = 0 * 1024 + r.val
    omega
  · refine (Ideal.multiReduction_add_single (k0_pay1 xb) 0x00000000#32 _ _ _ (ix1 r)).trans ?_
    refine Finset.sum_congr rfl fun k _ => ?_
    rw [pay1_apply]
    exact congrArg (fun j => Ideal.exp (xb j))
      (funext fun a => Fin.ext (by match a with | ⟨0, _⟩ => rfl | ⟨1, _⟩ => rfl))

theorem pay19_apply (T : FVec Ideal S16x1x1024 .f32) (r : Fin 1024) :
    k0_pay19 (F := Ideal) T (ix1 r) = ∑ d : Fin 16, T (ix3 d (0 : Fin 1) r) := by
  unfold k0_pay19
  refine (Ideal.multiReduction_add_single (shapeCast S16x1024 T _) 0x00000000#32 _ _ _ (ix1 r)).trans ?_
  refine Finset.sum_congr rfl fun d _ => ?_
  refine shapeCast_apply T _ _ (ix3 d (0 : Fin 1) r) ?_
  rw [Shape.rowMajor_val_three, Shape.rowMajor_val_two]
  show (d.val * 1 + 0) * 1024 + r.val = d.val * 1024 + r.val
  omega

theorem pay21_apply (s one : FVec Ideal S1024 .f32) (e : FVec Ideal S1024x512 .f32) (r : Fin 1024) (k : Fin 512) :
    k0_pay21 s one e (ix2 r k) = e (ix2 r k) * Ideal.div (one (ix1 r)) (s (ix1 r)) := by
  unfold k0_pay21
  show shapeCast S1024x512 e _ (ix2 r k) * broadcastTo S1024x512 (shapeCast S1024x1 (divf one s) _) _ (ix2 r k) = _
  rw [shapeCast_self]
  refine congrArg (e (ix2 r k) * ·) ?_
  refine (broadcastTo_apply _ _ (ix2 r k) (ix2 r (0 : Fin 1)) ?_).trans ?_
  · intro a
    match a with
    | ⟨0, _⟩ => show r.val = if (1024 : ℕ) = 1 then 0 else r.val; rw [if_neg (by decide)]
    | ⟨1, _⟩ => show 0 = if (1 : ℕ) = 1 then 0 else _; rw [if_pos rfl]
  · refine (shapeCast_apply _ _ (ix2 r (0 : Fin 1)) (ix1 r) ?_).trans rfl
    rw [Shape.rowMajor_val_one, Shape.rowMajor_val_two]
    show r.val = r.val * 1 + 0
    omega

/-! ## The columns of the whole array -/

/-- Block `d`, column `k` inside it, is column `512 d + k` of the whole array. -/
def colEquiv : Fin 16 × Fin 512 ≃ Fin 8192 := finProdFinEquiv (m := 16) (n := 512)

theorem blk_idx (h : Layout.Tiles ⟨2, ![1024, 512]⟩ ⟨2, ![1024, 8192]⟩ 1 16) (d : Fin 16) (r : Fin 1024) (k : Fin 512) :
    h.idx d (ix2 r k) = ix2 r (colEquiv (d, k)) :=
  funext fun a => Fin.ext (by
    match a with
    | ⟨0, _⟩ => rfl
    | ⟨1, _⟩ => show d.val * 512 + k.val = k.val + 512 * d.val; omega)

/-! ## Every entry is a real -/

theorem real_of_abs_lt_inf (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

instance : Subsingleton Cert.Pre_finite_inputs_Kernel.S_.Idx := ⟨fun a b => funext fun d => d.elim0⟩

theorem block_real (xb : FVec Ideal Cert.Pre_finite_inputs_Kernel.S1024x512 .f32)
    (h : Cert.Pre_finite_inputs_Kernel.fn (F := Ideal) xb = fun _ => 1#1) (i : Cert.Pre_finite_inputs_Kernel.S1024x512.Idx) :
    ∃ r : ℝ, xb i = r := by
  have h0 := congrFun h ix0
  dsimp only [Cert.Pre_finite_inputs_Kernel.fn] at h0
  have h1 := Host.reduce_andi_all _ _ _ _ _ h0 i
  exact real_of_abs_lt_inf (xb i) h1

theorem whole_real (X : (⟨2, ![1024, 8192]⟩ : Shape).Idx → EReal)
    (hfin : ∀ d : Fin 16, Cert.Pre_finite_inputs_Kernel.fn (F := Ideal)
      (Layout.block ⟨2, ![1024, 512]⟩ ⟨2, ![1024, 8192]⟩ 1 16 d X) = fun _ => 1#1)
    (r : Fin 1024) (n : Fin 8192) : ∃ q : ℝ, X (ix2 r n) = q := by
  obtain ⟨q, hq⟩ := block_real _ (hfin ⟨n.val / 512, by omega⟩) (ix2 r ⟨n.val % 512, Nat.mod_lt _ (by decide)⟩)
  refine ⟨q, ?_⟩
  rw [← hq, Layout.block_apply]
  refine congrArg X (funext fun a => Fin.ext ?_)
  match a with
  | ⟨0, _⟩ => rfl
  | ⟨1, _⟩ => show n.val = (n.val / 512) * 512 + n.val % 512; omega

/-! ## The reference at an index -/

section Ref
open Cert.ReferenceIdeal Cert.ReferenceIdeal.Read

theorem ref_exp_apply (X : (⟨Cert.ReferenceIdeal.S1024x8192, .f32⟩ : BufTy).Contents (Elt Ideal)) (r : Fin 1024) (n : Fin 8192) :
    val_main_v4 (F := Ideal) X (ix2 r n) = Ideal.exp (X (ix2 r n) - val_main_v0 (F := Ideal) X (ix1 r)) := by
  rw [val_main_v4_apply, val_main_v3_apply, val_main_v2_apply, val_main_v1_apply]
  exact congrArg (fun j => Ideal.exp (X (ix2 r n) - val_main_v0 (F := Ideal) X j))
    (funext fun a => Fin.ext (by match a with | ⟨0, _⟩ => rfl))

theorem ref_apply (X : (⟨Cert.ReferenceIdeal.S1024x8192, .f32⟩ : BufTy).Contents (Elt Ideal)) (r : Fin 1024) (n : Fin 8192) :
    val_main_v8 (F := Ideal) X (ix2 r n)
      = Ideal.div (Ideal.exp (X (ix2 r n) - val_main_v0 (F := Ideal) X (ix1 r)))
          (Ideal.ofBits .f32 0x00000000#32 + ∑ k : Fin 8192, Ideal.exp (X (ix2 r k) - val_main_v0 (F := Ideal) X (ix1 r))) := by
  rw [val_main_v8_apply, val_main_v7_apply, val_main_v6_apply, val_main_v5_apply, ref_exp_apply]
  refine congrArg (fun s => Ideal.div _ (Ideal.ofBits .f32 0x00000000#32 + s)) (Finset.sum_congr rfl fun k _ => ?_)
  have e : idx_main_v5 (idx_main_v6 (idx_main_v7 (ix2 r n))) k = ix2 r k :=
    funext fun a => Fin.ext (by match a with | ⟨0, _⟩ => rfl | ⟨1, _⟩ => rfl)
  rw [e, ref_exp_apply]

theorem rowmax_real (X : (⟨Cert.ReferenceIdeal.S1024x8192, .f32⟩ : BufTy).Contents (Elt Ideal))
    (hX : ∀ (r : Fin 1024) (n : Fin 8192), ∃ q : ℝ, X (ix2 r n) = q) (r : Fin 1024) :
    ∃ q : ℝ, val_main_v0 (F := Ideal) X (ix1 r) = q := by
  have hX' : ∀ j, ∃ q : ℝ, X j = q := fun j => by rw [eq_ix2 j]; exact hX _ _
  unfold val_main_v0
  have e := Host.reduce_eq_fold_single (FloatOps.maximumf (F := Ideal) (φ := .f32)) X (val_main_cst (F := Ideal))
    Gen.reducesTo_S1024x8192_S1024_d1
    (by decide : Cert.ReferenceIdeal.S1024x8192.Reduces [1] Cert.ReferenceIdeal.S1024) Gen.h_S_ (ix1 r)
  rw [e]
  refine exists_real_of_ne (lt_top_iff_ne_top.mp ?_) (bot_lt_iff_ne_bot.mp ?_)
  · show Finset.fold max _ _ _ < ⊤
    rw [Finset.fold_max_lt]
    refine ⟨?_, fun k _ => ?_⟩
    · show Ideal.ofBits .f32 0xFF800000#32 < ⊤
      simp [Ideal.ofBits, Ideal.ieee]
    · obtain ⟨q, hq⟩ := hX' ((by decide : Cert.ReferenceIdeal.S1024x8192.Reduces [1] Cert.ReferenceIdeal.S1024).lift (ix1 r) k)
      rw [Function.comp, hq]
      exact EReal.coe_lt_top q
  · show ⊥ < Finset.fold max _ _ _
    rw [Finset.lt_fold_max]
    refine .inr ⟨⟨0, by decide⟩, Finset.mem_univ _, ?_⟩
    obtain ⟨q, hq⟩ := hX' ((by decide : Cert.ReferenceIdeal.S1024x8192.Reduces [1] Cert.ReferenceIdeal.S1024).lift (ix1 r) ⟨0, by decide⟩)
    rw [Function.comp, hq]
    exact EReal.bot_lt_coe q

end Ref

open Cert.KernelIdeal.Proto in
/-- The staged block is the device's argument buffer. -/
theorem xblk_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    xblk (F := Ideal) m ρ c = m ((c.tc : Thread Cert.KernelIdeal.nD Cert.KernelIdeal.τ).loc Cert.KernelIdeal.main_arg0) :=
  Memref.read_access_unit_zero (Elt Ideal) main_arg0 (funext fun _ => Nat.zero_mul _) _ _

theorem one_f32 : Ideal.ofBits .f32 0x3F800000#32 = 1 := by
  simp [Ideal.ofBits, Ideal.ieee, -EReal.coe_mul]; norm_num

open Cert.KernelIdeal.Proto in
theorem outAt_eq_block (m : (ℓ : Loc Cert.KernelIdeal.nD Cert.KernelIdeal.τ Cert.KernelIdeal.sig) → Buf (Elt Ideal) ℓ)
    (ρ : Dev Cert.KernelIdeal.nD → PrngReg)
    (X : (⟨Cert.ReferenceIdeal.S1024x8192, .f32⟩ : BufTy).Contents (Elt Ideal))
    (hblk : ∀ c : Dev Cert.KernelIdeal.nD, m ((c.tc : Thread Cert.KernelIdeal.nD Cert.KernelIdeal.τ).loc Cert.KernelIdeal.main_arg0)
      = Layout.block ⟨2, ![1024, 512]⟩ ⟨2, ![1024, 8192]⟩ 1 16 c X)
    (hpre : Cert.Pre_KernelIdeal m) (c : Dev Cert.KernelIdeal.nD) :
    Cert.KernelIdeal.Proto.outAt (F := Ideal) m ρ c
      = Layout.block ⟨2, ![1024, 512]⟩ ⟨2, ![1024, 8192]⟩ 1 16 c (Cert.ReferenceIdeal.Read.val_main_v8 (F := Ideal) X) := by
  have hfin : ∀ d : Fin 16, Cert.Pre_finite_inputs_Kernel.fn (F := Ideal)
      (Layout.block ⟨2, ![1024, 512]⟩ ⟨2, ![1024, 8192]⟩ 1 16 d X) = fun _ => 1#1 :=
    fun d => by rw [← hblk d]; exact hpre d
  have hX := whole_real X hfin
  have hxb : ∀ d : Fin 16, xblk (F := Ideal) m ρ d = Layout.block ⟨2, ![1024, 512]⟩ ⟨2, ![1024, 8192]⟩ 1 16 d X :=
    fun d => (xblk_eq m ρ d).trans (hblk d)
  funext i
  obtain ⟨r, k, rfl⟩ : ∃ (r : Fin 1024) (k : Fin 512), i = ix2 r k := ⟨i 0, i 1, eq_ix2 i⟩
  rw [Layout.block_apply, blk_idx, ref_apply]
  have ht : ∀ d : Fin 16, table (F := Ideal) m ρ (ix3 d (0 : Fin 1) r)
      = ∑ k' : Fin 512, Ideal.exp (X (ix2 r (colEquiv (d, k')))) := by
    intro d
    show k0_pay2 (F := Ideal) (xblk m ρ d) (ix2 (0 : Fin 1) r) = _
    rw [pay2_apply, hxb]
    refine Finset.sum_congr rfl fun k' _ => ?_
    rw [Layout.block_apply, blk_idx]
  unfold outAt
  rw [pay21_apply, pay1_apply, pay19_apply, hxb, Layout.block_apply, blk_idx]
  simp only [ht]
  exact ereal_law colEquiv (fun n => X (ix2 r n)) (hX r) _ (rowmax_real X hX r) _ _ one_f32 Ideal.ofBits_zero_f32
    (colEquiv (c, k))

end Cert.Proof.Val

end
-- ==== Proof.RefRun.lean ====
import proofs.«901055_g7700000000001056_dist_softmax_colshard_i_m1024_n512_v7x_i16_bf16_1_alg».proof.Defs
import proofs.«901055_g7700000000001056_dist_softmax_colshard_i_m1024_n512_v7x_i16_bf16_1_alg».proof.Proof.Gen.ReferenceIdeal
import proofs.«901055_g7700000000001056_dist_softmax_colshard_i_m1024_n512_v7x_i16_bf16_1_alg».proof.Proof.Gen.ReferenceIdeal.Run
import proofs.«901055_g7700000000001056_dist_softmax_colshard_i_m1024_n512_v7x_i16_bf16_1_alg».proof.Proof.Gen.ReferenceIdeal.Read

/-!
# The reference's run

The one-device reference is a straight line of host operations; its run ends with every array at the operations' composed
term of the argument, so its frame is that run with the value dropped.
-/

noncomputable section

open Idealize.ShloMosaic Idealize.ShloMosaic.TcCoe Idealize.SL.Sem

namespace Cert.Proof.Ref

theorem frame_ri [Cert.ReferenceIdeal.Facts] [Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

end Cert.Proof.Ref

end
-- ==== Proof.lean ====
import proofs.«901055_g7700000000001056_dist_softmax_colshard_i_m1024_n512_v7x_i16_bf16_1_alg».proof.Defs
import proofs.«901055_g7700000000001056_dist_softmax_colshard_i_m1024_n512_v7x_i16_bf16_1_alg».proof.Proof.Gen.Kernel
import proofs.«901055_g7700000000001056_dist_softmax_colshard_i_m1024_n512_v7x_i16_bf16_1_alg».proof.Proof.Gen.KernelIdeal
import proofs.«901055_g7700000000001056_dist_softmax_colshard_i_m1024_n512_v7x_i16_bf16_1_alg».proof.Proof.Gen.ReferenceIdeal
import proofs.«901055_g7700000000001056_dist_softmax_colshard_i_m1024_n512_v7x_i16_bf16_1_alg».proof.Proof.Gen.Pre_finite_inputs_Kernel
import proofs.«901055_g7700000000001056_dist_softmax_colshard_i_m1024_n512_v7x_i16_bf16_1_alg».proof.Proof.Gen.Pre_finite_inputs_ReferenceIdeal
import proofs.«901055_g7700000000001056_dist_softmax_colshard_i_m1024_n512_v7x_i16_bf16_1_alg».proof.Proof.Launch
import proofs.«901055_g7700000000001056_dist_softmax_colshard_i_m1024_n512_v7x_i16_bf16_1_alg».proof.Proof.W.Launch
import proofs.«901055_g7700000000001056_dist_softmax_colshard_i_m1024_n512_v7x_i16_bf16_1_alg».proof.Proof.Value
import proofs.«901055_g7700000000001056_dist_softmax_colshard_i_m1024_n512_v7x_i16_bf16_1_alg».proof.Proof.RefRun

/-!
# Column-sharded softmax on sixteen devices against the one-device softmax

Each device holds a block of 512 columns of a 1024 × 8192 array. The kernel exponentiates its block, sums each row,
exchanges the sixteen partial row sums between all devices, and scales its block by the reciprocal of the total; the
reference subtracts the row maximum first, exponentiates, and divides by the row sum. Over the extended reals, for
finite entries, both are `exp x / Σ exp x` row by row: `exp (x - M) = exp x · exp (-M)` and the common factor
`exp (-M)` of numerator and denominator cancels, whatever real `M` is.

The three frames are the runs with the values dropped; the idealization rewrote nothing; the algebraic claim joins the
kernel's run (every device's result array at its scaled block) to the reference's run through that law, block by block.
-/

noncomputable section

namespace Cert.Proof

open Idealize.ShloMosaic Idealize.ShloMosaic.TcCoe Idealize.SL.Sem

theorem frame_k : Cert.frame_Kernel := fun m g _ =>
  (θ_run Cert.Kernel.defs _ _).mono
    (fun _ h c => (h c (0 : Fin 2)).trans (Cert.Kernel.Proto.finalA_x (F := Bits) m g c))
    (Cert.Kernel.Proto.run_main (F := Bits) m g)

theorem frame_ki : Cert.frame_KernelIdeal := fun m g _ =>
  (θ_run Cert.KernelIdeal.defs _ _).mono
    (fun _ h c => (h c (0 : Fin 2)).trans (Cert.KernelIdeal.Proto.finalA_x (F := Ideal) m g c))
    (Cert.KernelIdeal.Proto.run_main (F := Ideal) m g)

/-- Both programs run; the reference's result is its last stage of the whole array, and each device's result is its
    block of it. -/
theorem algebraic : Cert.algebraic_KernelIdeal_ReferenceIdeal := by
  intro m g m' g' hpre hagree
  refine ⟨Cert.ReferenceIdeal.Read.val_main_v8 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c (1 : Fin 2)).trans ((Cert.KernelIdeal.Proto.finalA_out (F := Ideal) m g c).trans
          (Cert.Proof.Val.outAt_eq_block m g _ hagree hpre c)),
        (h c (0 : Fin 2)).trans (Cert.KernelIdeal.Proto.finalA_x (F := Ideal) m g c)⟩)
      (Cert.KernelIdeal.Proto.run_main (F := Ideal) m g)
  · exact (θ_run Cert.ReferenceIdeal.defs _ _).mono
      (fun _ h => ⟨(h 0).1.trans (Cert.ReferenceIdeal.Read.val_main_v8_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Proof.Ref.frame_ri, trivial, algebraic⟩

end Cert.Proof

end
